-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part5 {F : FTy → Type} [FloatOps F] (main_arg1 : IVec S2x640000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 4294867296#32
  let main_v89 : IVec S2x640000 32 := broadcastInDim S2x640000 ![] bcast_S_S2x640000 main_c_34
  let main_v90 : IVec S2x640000 1 := cmpi .sge main_arg1 main_v89
  let main_c_35 : IVec S_ 1 := constantI S_ 1 1#1
  let main_v91 : IVec S_ 1 := (fun x v => Host.reduce IntOp.andi x v reducesTo_S2x640000_S_d0_1 h_S_) main_v90 main_c_35
  let main_v92 : IVec S_ 1 := andi main_v88 main_v91
  let main_c_36 : IVec S_ 32 := constantI S_ 32 100000#32
  let main_v93 : IVec S2x640000 32 := broadcastInDim S2x640000 ![] bcast_S_S2x640000 main_c_36
  let main_v94 : IVec S2x640000 1 := cmpi .slt main_arg1 main_v93
  let main_c_37 : IVec S_ 1 := constantI S_ 1 1#1
  let main_v95 : IVec S_ 1 := (fun x v => Host.reduce IntOp.andi x v reducesTo_S2x640000_S_d0_1 h_S_) main_v94 main_c_37
  let main_v96 : IVec S_ 1 := andi main_v92 main_v95
  main_v96

def fn_part4 {F : FTy → Type} [FloatOps F] (main_arg1 : IVec S2x640000 32) (main_arg15 : FVec F S128x128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x640000 32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x640000 32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_arg15 main_arg16 main_arg17 main_arg18 main_v48 main_v49 main_v50

def fn_part1 {F : FTy → Type} [FloatOps F] (main_arg1 : IVec S2x640000 32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x640000 32) (main_arg2 : FVec F S640000x128 .f32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S5120x128 : Shape := ⟨2, ![5120, 128]⟩
abbrev S5120 : Shape := ⟨1, ![5120]⟩
abbrev S5120x1 : Shape := ⟨2, ![5120, 1]⟩
abbrev S4000x128 : Shape := ⟨2, ![4000, 128]⟩
abbrev S4000 : Shape := ⟨1, ![4000]⟩
abbrev S4000x1 : Shape := ⟨2, ![4000, 1]⟩

abbrev nBuf : Space → Nat
  | .hbm => 92
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S1, .i32⟩
  | .hbm, ⟨32, _⟩ => ⟨S_, .i32⟩
  | .hbm, ⟨33, _⟩ => ⟨S640000x1, .i32⟩
  | .hbm, ⟨34, _⟩ => ⟨S640000x1, .i1⟩
  | .hbm, ⟨35, _⟩ => ⟨S1x1, .i32⟩
  | .hbm, ⟨36, _⟩ => ⟨S640000x1, .i32⟩
  | .hbm, ⟨37, _⟩ => ⟨S640000x1, .i1⟩
  | .hbm, ⟨38, _⟩ => ⟨S640000x1, .i1⟩
  | .hbm, ⟨39, _⟩ => ⟨S_, .i1⟩
  | .hbm, ⟨40, _⟩ => ⟨S640000, .i1⟩
  | .hbm, ⟨41, _⟩ => ⟨S640000x128, .f32⟩
  | .hbm, ⟨42, _⟩ => ⟨S640000x128, .i1⟩
  | .hbm, ⟨43, _⟩ => ⟨S_, .f32⟩
  | .hbm, ⟨44, _⟩ => ⟨S640000x128, .f32⟩
  | .hbm, ⟨45, _⟩ => ⟨S640000x128, .f32⟩
  | .hbm, ⟨46, _⟩ => ⟨S640000x128, .bf16⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S1, .i32⟩
  | .hbm, ⟨56, _⟩ => ⟨S_, .i32⟩
  | .hbm, ⟨57, _⟩ => ⟨S640000x1, .i32⟩
  | .hbm, ⟨58, _⟩ => ⟨S640000x1, .i1⟩
  | .hbm, ⟨59, _⟩ => ⟨S1x1, .i32⟩
  | .hbm, ⟨60, _⟩ => ⟨S640000x1, .i32⟩
  | .hbm, ⟨61, _⟩ => ⟨S640000x1, .i1⟩
  | .hbm, ⟨62, _⟩ => ⟨S640000x1, .i1⟩
  | .hbm, ⟨63, _⟩ => ⟨S_, .i1⟩
  | .hbm, ⟨64, _⟩ => ⟨S640000, .i1⟩
  | .hbm, ⟨65, _⟩ => ⟨S640000x128, .f32⟩
  | .hbm, ⟨66, _⟩ => ⟨S640000x128, .i1⟩
  | .hbm, ⟨67, _⟩ => ⟨S_, .f32⟩
  | .hbm, ⟨68, _⟩ => ⟨S640000x128, .f32⟩
  | .hbm, ⟨69, _⟩ => ⟨S640000x128, .f32⟩
  | .hbm, ⟨70, _⟩ => ⟨S640000x128, .bf16⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S640000x128, .f32⟩
  | .hbm, ⟨80, _⟩ => ⟨S_, .f32⟩
  | .hbm, ⟨81, _⟩ => ⟨S100000x128, .f32⟩
  | .hbm, ⟨82, _⟩ => ⟨S640000x1, .i32⟩
  | .hbm, ⟨83, _⟩ => ⟨S100000x128, .f32⟩
  | .hbm, ⟨84, _⟩ => ⟨S128x128, .f32⟩
  | .hbm, ⟨85, _⟩ => ⟨S128x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S100000x128, .f32⟩
  | .local _ .vmem, ⟨0, _⟩ => ⟨S5120x128, .f32⟩
  | .local _ .vmem, ⟨1, _⟩ => ⟨S5120x128, .f32⟩
  | .local _ .vmem, ⟨2, _⟩ => ⟨S5120x128, .bf16⟩
  | .local _ .vmem, ⟨3, _⟩ => ⟨S5120x128, .bf16⟩
  | .local _ .vmem, ⟨4, _⟩ => ⟨S5120x128, .bf16⟩
  | .local _ .vmem, ⟨5, _⟩ => ⟨S5120x128, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5120x128, .f32⟩
  | .local _ .vmem, ⟨17, _⟩ => ⟨S5120x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_v5 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_cst : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5120x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  reduces_S5120x128_S5120 : S5120x128.Reduces [1] S5120
  shapeCasts_S5120_S5120x1 : S5120.ShapeCasts S5120x1
  broadcasts_S5120x1_S5120x128 : S5120x1.Broadcasts S5120x128
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S100000x128_S640000x1_S640000x128_1_0_n_n_0_1_1128_wf : GatherDims.WF S100000x128 S640000x1 S640000x128 [1] [0] [] [0] [] 1 ![1, 128]
  dot_S5120x128_S128x128_S5120x128_1_0_0_1_n_n_wf : DotDims.WF S5120x128 S128x128 S5120x128 [1] [0] [0] [1] [] []
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .f32 = 32 ∨ (Rect.block (s := S640000x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x128.size a ≤ S640000x128.size a
  hwx0_2 : ∀ i : grid0.Coords, EltTy.bits .bf16 = 32 ∨ (Rect.block (s := S640000x128) S5120x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5120x128.size a ≤ S640000x128.size a
  hwx0_13 : ∀ i : grid0.Coords, EltTy.bits .f32 = 32 ∨ (Rect.block (s := S640000x128) S5120x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S100000x128.size a
  hwx1_11 : ∀ i : grid1.Coords, EltTy.bits .f32 = 32 ∨ (Rect.block (s := S100000x128) S4000x128.size (cc1_transform_11 i) (hinb1_11 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg2) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5120x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S5120x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v26) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v27) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S100000x256 : Shape := ⟨2, ![100000, 256]⟩
abbrev S100000 : Shape := ⟨1, ![100000]⟩
abbrev S100000x1 : Shape := ⟨2, ![100000, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x640000, .i32⟩
  | 2 => ⟨S640000x128, .f32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S1x640000, .i32⟩
  | 20 => ⟨S640000, .i32⟩
  | 21 => ⟨S1x640000, .i32⟩
  | 22 => ⟨S640000, .i32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x128, .f32⟩
  | 41 => ⟨S640000x384, .f32⟩
  | 42 => ⟨S640000x128, .f32⟩
  | 43 => ⟨S1x128, .f32⟩
  | 44 => ⟨S640000x128, .f32⟩
  | 45 => ⟨S640000x128, .f32⟩
  | 46 => ⟨S_, .f32⟩
  | 47 => ⟨S640000x128, .f32⟩
  | 48 => ⟨S640000x128, .f32⟩
  | 49 => ⟨S640000x128, .f32⟩
  | 50 => ⟨S1x128, .f32⟩
  | 51 => ⟨S640000x128, .f32⟩
  | 52 => ⟨S640000x128, .f32⟩
  | 53 => ⟨S_, .f32⟩
  | 54 => ⟨S640000x128, .f32⟩
  | 55 => ⟨S640000x128, .f32⟩
  | 56 => ⟨S640000x128, .f32⟩
  | 57 => ⟨S1x128, .f32⟩
  | 58 => ⟨S640000x128, .f32⟩
  | 59 => ⟨S640000x128, .f32⟩
  | 60 => ⟨S_, .f32⟩
  | 61 => ⟨S640000, .f32⟩
  | 62 => ⟨S640000x1, .f32⟩
  | 63 => ⟨S_, .f32⟩
  | 64 => ⟨S640000x1, .f32⟩
  | 65 => ⟨S640000x1, .f32⟩
  | 66 => ⟨S640000x128, .f32⟩
  | 67 => ⟨S640000x128, .f32⟩
  | 68 => ⟨S640000x128, .f32⟩
  | 69 => ⟨S_, .f32⟩
  | 70 => ⟨S640000, .f32⟩
  | 71 => ⟨S640000x1, .f32⟩
  | 72 => ⟨S_, .f32⟩
  | 73 => ⟨S640000x1, .f32⟩
  | 74 => ⟨S640000x1, .f32⟩
  | 75 => ⟨S640000x128, .f32⟩
  | 76 => ⟨S640000x128, .f32⟩
  | 77 => ⟨S_, .f32⟩
  | 78 => ⟨S640000x1, .f32⟩
  | 79 => ⟨S640000x1, .f32⟩
  | 80 => ⟨S640000x1, .f32⟩
  | 81 => ⟨S640000x128, .f32⟩
  | 82 => ⟨S640000x128, .f32⟩
  | 83 => ⟨S1x128, .f32⟩
  | 84 => ⟨S640000x128, .f32⟩
  | 85 => ⟨S640000x128, .f32⟩
  | 86 => ⟨S1x128, .f32⟩
  | 87 => ⟨S640000x128, .f32⟩
  | 88 => ⟨S640000x128, .f32⟩
  | 89 => ⟨S_, .f32⟩
  | 90 => ⟨S100000x128, .f32⟩
  | 91 => ⟨S640000x1, .i32⟩
  | 92 => ⟨S100000x128, .f32⟩
  | 93 => ⟨S100000x256, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000, .f32⟩
  | 114 => ⟨S100000x1, .f32⟩
  | 115 => ⟨S_, .f32⟩
  | 116 => ⟨S100000x1, .f32⟩
  | 117 => ⟨S100000x1, .f32⟩
  | 118 => ⟨S100000x128, .f32⟩
  | 119 => ⟨S100000x128, .f32⟩
  | 120 => ⟨S100000x128, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x1, .f32⟩
  | 3 => ⟨S100000x1, .f32⟩
  | 4 => ⟨S100000x1, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_10 : Ref sig .tc := ⟨.hbm, 121, rfl⟩
abbrev main_v82 : Ref sig .tc := ⟨.hbm, 122, rfl⟩
abbrev main_v83 : Ref sig .tc := ⟨.hbm, 123, rfl⟩
abbrev main_cst_11 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KResults.lean ====
/-
  The kernel program's run, read at its two results and its nineteen arguments.

  The program's @main is eight segments: five stretches of host operations, region 0 (the edge kernel, a pipeline of
  125 grid points), one stretch of host operations, region 1 (the node kernel, 25 grid points). The generated frame
  certificate names the TensorCore's buffer contents at every segment boundary (`Gen.W0` … `Gen.W8`), and the run
  `KRun.run_W8` says that in every final state each unscoped buffer holds `Gen.W8`. Here `Gen.W8` is read at
  the two result buffers:
  * `main_v27`, the node result, is region 1's output array: what that pipeline leaves in it
    (`(Gen.dat1 (Gen.V7 m ρ) c).arrAt 11 cfg1.N`, the write-backs of all its points folded into the array);
  * `main_v16`, the edge result, is region 0's output array: nothing after region 0 writes it (the scatter-add
    between the regions reads it, and region 1 has no window on it), so it still holds what region 0's pipeline
    left (`(Gen.dat0 (Gen.V5 m ρ) c).arrAt 13 cfg0.N`);
  and at the nineteen arguments, which end as launched (the generated `Gen.W8_main_argK`).
-/
import proofs.«412242_j86088324481849_2_alg».proof.Proof.RunValues

noncomputable section

namespace Cert.KernelIdeal.KResults

open Idealize.ShloMosaic Idealize.ShloMosaic.TcCoe

variable {F : FTy → Type} [FloatOps F]

/-- Region 0's output array (window 13 of pipeline 0) is the buffer `main_v16`, and region 1's output array
    (window 11 of pipeline 1) is the buffer `main_v27`. -/
theorem arrRef0_13 : Pipeline.arrRef spec0 13 = main_v16 := rfl
theorem arrRef1_11 : Pipeline.arrRef spec1 11 = main_v27 := rfl

/-- THE NODE RESULT. `main_v27` is region 1's output array, and region 1 is the last segment: at the last boundary
    it holds what the pipeline leaves there, the write-backs of all 25 points folded into the array as entered. -/
theorem W8_node (m : (ℓ : Loc nD τ sig) → Buf (Elt F) ℓ) (ρ : Dev nD → PrngReg) (c : Dev nD) :
    Gen.W8 m ρ c (Proc.devRef .tc main_v27) = (Gen.dat1 (Gen.V7 m ρ) c).arrAt 11 cfg1.N :=
  Gen.W8_arr m ρ c 11

/-- THE EDGE RESULT. `main_v16` is region 0's output array. Region 1 has no window on it, so the last region leaves it
    as entered (`W8 = W7` there); of the eleven host operations between the regions the scatter-add only READS it and
    none writes it (`W7 = W6` there); and at region 0's exit it holds what that pipeline leaves, the write-backs of
    all 125 points folded into the array as entered. -/
theorem W8_edge (m : (ℓ : Loc nD τ sig) → Buf (Elt F) ℓ) (ρ : Dev nD → PrngReg) (c : Dev nD) :
    Gen.W8 m ρ c (Proc.devRef .tc main_v16) = (Gen.dat0 (Gen.V5 m ρ) c).arrAt 13 cfg0.N :=
  calc Gen.W8 m ρ c (Proc.devRef .tc main_v16)
    _ = Gen.W7 m ρ c (Proc.devRef .tc main_v16) := Gen.W8_of_ne m ρ c main_v16 (by decide)
    _ = Gen.W6 m ρ c (Proc.devRef .tc main_v16) :=
      StableHlo.after_of_forall_not_mem (b := Proc.devRef .tc main_v16) _ _ (List.forall_iff_forall_mem.mp (by
        simp only [Gen.hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
        repeat' apply And.intro
        all_goals exact StableHlo.devRef_ne_of_ne (by decide)))
    _ = (Gen.dat0 (Gen.V5 m ρ) c).arrAt 13 cfg0.N := Gen.W6_arr m ρ c 13

/-- THE RUN, READ AT THE RESULTS AND THE ARGUMENTS: from any memory with zero counters every weakly fair execution of
    @main on the TensorCores terminates, and in every final state, on every core, the node result `main_v27` holds what
    region 1's pipeline leaves in its output array, the edge result `main_v16` what region 0's pipeline leaves in its
    own, and each argument array what it held at launch. The run with every buffer's final contents, weakened to these
    twenty-one buffers. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_v27) = (Gen.dat1 (Gen.V7 m ρ) c).arrAt 11 cfg1.N
        ∧ r.2.mem ((c.tc : Thread nD τ).loc main_v16) = (Gen.dat0 (Gen.V5 m ρ) c).arrAt 13 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)) :=
  (θ_run defs _ _).mono (fun r h c =>
    ⟨(h c _ (Gen.mem_uc main_v27 (by decide))).trans (W8_node m ρ c),
      (h c _ (Gen.mem_uc main_v16 (by decide))).trans (W8_edge m ρ c),
      (h c _ (Gen.mem_uc main_arg0 (by decide))).trans (Gen.W8_main_arg0 m ρ c),
      (h c _ (Gen.mem_uc main_arg1 (by decide))).trans (Gen.W8_main_arg1 m ρ c),
      (h c _ (Gen.mem_uc main_arg2 (by decide))).trans (Gen.W8_main_arg2 m ρ c),
      (h c _ (Gen.mem_uc main_arg3 (by decide))).trans (Gen.W8_main_arg3 m ρ c),
      (h c _ (Gen.mem_uc main_arg4 (by decide))).trans (Gen.W8_main_arg4 m ρ c),
      (h c _ (Gen.mem_uc main_arg5 (by decide))).trans (Gen.W8_main_arg5 m ρ c),
      (h c _ (Gen.mem_uc main_arg6 (by decide))).trans (Gen.W8_main_arg6 m ρ c),
      (h c _ (Gen.mem_uc main_arg7 (by decide))).trans (Gen.W8_main_arg7 m ρ c),
      (h c _ (Gen.mem_uc main_arg8 (by decide))).trans (Gen.W8_main_arg8 m ρ c),
      (h c _ (Gen.mem_uc main_arg9 (by decide))).trans (Gen.W8_main_arg9 m ρ c),
      (h c _ (Gen.mem_uc main_arg10 (by decide))).trans (Gen.W8_main_arg10 m ρ c),
      (h c _ (Gen.mem_uc main_arg11 (by decide))).trans (Gen.W8_main_arg11 m ρ c),
      (h c _ (Gen.mem_uc main_arg12 (by decide))).trans (Gen.W8_main_arg12 m ρ c),
      (h c _ (Gen.mem_uc main_arg13 (by decide))).trans (Gen.W8_main_arg13 m ρ c),
      (h c _ (Gen.mem_uc main_arg14 (by decide))).trans (Gen.W8_main_arg14 m ρ c),
      (h c _ (Gen.mem_uc main_arg15 (by decide))).trans (Gen.W8_main_arg15 m ρ c),
      (h c _ (Gen.mem_uc main_arg16 (by decide))).trans (Gen.W8_main_arg16 m ρ c),
      (h c _ (Gen.mem_uc main_arg17 (by decide))).trans (Gen.W8_main_arg17 m ρ c),
      (h c _ (Gen.mem_uc main_arg18 (by decide))).trans (Gen.W8_main_arg18 m ρ c)⟩)
    (KRun.run_W8 m ρ)

end Cert.KernelIdeal.KResults

end
-- ==== Proof.Spec.lean ====
/-
  The interaction network's two multilayer perceptrons, one row at a time, over the extended reals.

  Every operation of both programs acts on each row (an edge, a node) by itself, so the mathematics is a function of
  one row of each input: an affine layer `x ↦ x · W + b`, the rectifier `max · 0`, and the layer normalisation
  `(h - mean h) · rsqrt (var h + ε) · γ + β` with the mean and the variance taken over the row's 128 entries.
  The first layer of the edge network takes a row that is three rows side by side (the edge's own features and the
  two gathered node rows) against a weight matrix of 384 rows; that of the node network two rows side by side against
  256 rows. Written here with the sum over the long row already cut into its 128-entry pieces: the only law used
  anywhere in this certificate is that a finite sum in a commutative monoid splits at any point, which holds on the
  extended reals with no finiteness assumption.
-/
import Idealize.ShloMosaic.Lib.ValueIdx
import Idealize.ShloMosaic.PureOps.Ideal.Laws

noncomputable section

namespace Cert.GNN

open Idealize.ShloMosaic Idealize.ShloMosaic.ValueIdx
open scoped BigOperators

/-- One row of 128 entries. -/
abbrev Row := Fin 128 → EReal
/-- A weight matrix with `K` rows and 128 columns. -/
abbrev Mat (K : ℕ) := (⟨2, ![K, 128]⟩ : Shape).Idx → EReal
/-- A bias, scale or shift: 128 entries. -/
abbrev Vec1 := (⟨1, ![128]⟩ : Shape).Idx → EReal

/-- The row length as both programs spell it: the f32 number 128. -/
def c128 : EReal := Ideal.ofBits .f32 0x43000000#32
/-- The normalisation's ε as both programs spell it: the f32 nearest to 1e-5. -/
def ceps : EReal := Ideal.ofBits .f32 0x3727C5AC#32

/-- Column `j` of `x · W`, for a row `x` of `K` entries read against rows `o, o+1, …` of a taller matrix. -/
def dotAt {K M : ℕ} (x : Fin K → EReal) (W : Mat M) (o : ℕ) (ho : o + K ≤ M) (j : Fin 128) : EReal :=
  ∑ k : Fin K, x k * W (ix2 ⟨o + k.val, by omega⟩ j)

/-- Column `j` of `x · W + b`. -/
def aff (x : Row) (W : Mat 128) (b : Vec1) (j : Fin 128) : EReal := (∑ k : Fin 128, x k * W (ix2 k j)) + b (ix1 j)

/-- The rectifier. -/
def relu (h : Row) : Row := fun j => max (h j) 0

/-- The mean of a row. -/
def mean (h : Row) : EReal := Ideal.div (∑ k : Fin 128, h k) c128

/-- The variance of a row (the mean of the squared deviations). -/
def var (h : Row) : EReal := Ideal.div (∑ k : Fin 128, (h k - mean h) * (h k - mean h)) c128

/-- The layer normalisation of a row, scaled by `g` and shifted by `be`. -/
def ln (h : Row) (g be : Vec1) : Row := fun j =>
  (h j - mean h) * Ideal.rsqrt (var h + ceps) * g (ix1 j) + be (ix1 j)

/-- Layers two and three and the normalisation, from the first layer's row before its rectifier. -/
def tail (h1 : Row) (W2 : Mat 128) (b2 : Vec1) (W3 : Mat 128) (b3 g be : Vec1) : Row :=
  ln (aff (relu (aff (relu h1) W2 b2)) W3 b3) g be

/-- The edge network's first layer before its rectifier: the edge's row against rows 0–127 of `W1`, the sender's
    against rows 128–255, the receiver's against rows 256–383, summed in that grouping, plus the bias. -/
def edgeL1 (ea gs gr : Row) (W1 : Mat 384) (b1 : Vec1) : Row := fun j =>
  ((dotAt ea W1 0 (by omega) j + dotAt gs W1 128 (by omega) j) + dotAt gr W1 256 (by omega) j) + b1 (ix1 j)

/-- The node network's first layer before its rectifier: the node's row against rows 0–127 of `W1`, the aggregated
    messages' against rows 128–255, plus the bias. -/
def nodeL1 (x ag : Row) (W1 : Mat 256) (b1 : Vec1) : Row := fun j =>
  (dotAt x W1 0 (by omega) j + dotAt ag W1 128 (by omega) j) + b1 (ix1 j)

/-- The edge network on one edge. -/
def edgeRow (ea gs gr : Row) (W1 : Mat 384) (b1 : Vec1) (W2 : Mat 128) (b2 : Vec1) (W3 : Mat 128) (b3 g be : Vec1) : Row :=
  tail (edgeL1 ea gs gr W1 b1) W2 b2 W3 b3 g be

/-- The node network on one node. -/
def nodeRow (x ag : Row) (W1 : Mat 256) (b1 : Vec1) (W2 : Mat 128) (b2 : Vec1) (W3 : Mat 128) (b3 g be : Vec1) : Row :=
  tail (nodeL1 x ag W1 b1) W2 b2 W3 b3 g be

/-! ## A sum over a long row, cut into its pieces -/

/-- A sum over 256 entries is the sum over the first 128 plus the sum over the last 128. -/
theorem sum256 {M : Type} [AddCommMonoid M] (f : Fin 256 → M) :
    ∑ k : Fin 256, f k = (∑ k : Fin 128, f ⟨0 + k.val, by omega⟩) + ∑ k : Fin 128, f ⟨128 + k.val, by omega⟩ := by
  have h := Fin.sum_univ_add (a := 128) (b := 128) f
  rw [h]
  refine congrArg₂ (· + ·) (Finset.sum_congr rfl fun k _ => congrArg f (Fin.ext ?_)) (Finset.sum_congr rfl fun k _ => congrArg f (Fin.ext ?_))
  · show k.val = 0 + k.val; omega
  · rfl

/-- A sum over 384 entries is the sum of its three 128-entry thirds, grouped from the left. -/
theorem sum384 {M : Type} [AddCommMonoid M] (f : Fin 384 → M) :
    ∑ k : Fin 384, f k
      = ((∑ k : Fin 128, f ⟨0 + k.val, by omega⟩) + ∑ k : Fin 128, f ⟨128 + k.val, by omega⟩) + ∑ k : Fin 128, f ⟨256 + k.val, by omega⟩ := by
  have h := Fin.sum_univ_add (a := 256) (b := 128) f
  rw [h, sum256 fun k : Fin 256 => f (Fin.castAdd 128 k)]
  refine congrArg₂ (· + ·) (congrArg₂ (· + ·) (Finset.sum_congr rfl fun k _ => congrArg f (Fin.ext ?_)) (Finset.sum_congr rfl fun k _ => congrArg f (Fin.ext ?_)))
    (Finset.sum_congr rfl fun k _ => congrArg f (Fin.ext ?_))
  · rfl
  · rfl
  · rfl

end Cert.GNN

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KLayers.lean ====
/-
  The kernels' row operations read at an index, for a block of any number of rows.

  Both kernel bodies work on a block of rows (5120 edges, 4000 nodes) and every operation acts on each row by
  itself. Each lemma here reads one of the bodies' operations, or one stretch of them, at the index `(p, j)` from
  row `p` of its operands, in the terms of the specification (`Cert.GNN`): the sum along a row, the column of row
  sums cast to `[n, 1]` and spread back over the row, the layer normalisation assembled from those, and an affine
  layer whose bias arrives as a `[1, 128]` array.
-/
import proofs.«412242_j86088324481849_2_alg».proof.Proof.Spec
import proofs.«412242_j86088324481849_2_alg».proof.Proof.LibRowOps

noncomputable section

namespace Cert.GNN

open Idealize.ShloMosaic Idealize.ShloMosaic.ValueIdx
open scoped BigOperators

variable {α : Type}

/-! ## Columns: `[n] → [n, 1] → [n, k]` -/

/-- An `[n]` array cast to the column `[n, 1]` reads, at `(p, u)`, entry `p`. -/
theorem colCast_apply {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[n, 1]` spread over `k` columns reads, at `(p, q)`, the column's entry `p`. -/
theorem colBcast_apply {n k : ℕ} (v : (⟨2, ![n, 1]⟩ : Shape).Idx → α) (h : (⟨2, ![n, 1]⟩ : Shape).Broadcasts ⟨2, ![n, k]⟩)
    (p : Fin n) (q : Fin k) : broadcastTo ⟨2, ![n, k]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- The sum along each row of an `[n, 128]` block, at row `p`. -/
theorem rowSum_apply {n : ℕ} (src : FVec Ideal ⟨2, ![n, 128]⟩ .f32) (hr : Shape.Reduces ⟨2, ![n, 128]⟩ [1] ⟨1, ![n]⟩)
    (hφ : FKind.Formats .f32) (hacc : (0x00000000#32 : BitVec 32) = FKind.add.neutral .f32 hφ) (p : Fin n) :
    multiReduction .add [1] ⟨1, ![n]⟩ src 0x00000000#32 hr hφ hacc (ix1 p) = ∑ k : Fin 128, src (ix2 p k) := by
  rw [Ideal.multiReduction_add_single src _ hr hφ hacc (ix1 p)]
  refine Finset.sum_congr rfl fun k _ => congrArg src (funext fun a => Fin.ext ?_)
  match a with
  | ⟨0, _⟩ => rfl
  | ⟨1, _⟩ => rfl

/-! ## One row of biases, scales or shifts spread down the rows -/

/-- A `[1, 128]` array (cast to its own shape, as the kernels spell it) spread down `n` rows reads, at `(p, q)`, its
    entry `q`. -/
theorem rowSpread_apply {n : ℕ} (v : (⟨2, ![1, 128]⟩ : Shape).Idx → α) (hc : (⟨2, ![1, 128]⟩ : Shape).ShapeCasts ⟨2, ![1, 128]⟩)
    (hb : (⟨2, ![1, 128]⟩ : Shape).Broadcasts ⟨2, ![n, 128]⟩) (p : Fin n) (q : Fin 128) :
    broadcastTo ⟨2, ![n, 128]⟩ (shapeCast ⟨2, ![1, 128]⟩ v hc) hb (ix2 p q) = v (ix2 (0 : Fin 1) q) := by
  rw [shapeCast_self]
  exact broadcastTo_1b_ab_apply v hb p q

/-! ## An affine layer and the rectifier -/

/-- A product into the zero accumulator plus a `[1, 128]` bias row spread down the rows, at `(p, j)`: the
    specification's affine layer of row `p` of the left operand. -/
theorem affK_apply {n : ℕ} {φa φw : FTy} (d : DotDims ⟨2, ![n, 128]⟩ ⟨2, ![128, 128]⟩ ⟨2, ![n, 128]⟩)
    (hd : d = DotDims.plain n 128 128) (A : FVec Ideal ⟨2, ![n, 128]⟩ φa) (W : FVec Ideal ⟨2, ![128, 128]⟩ φw)
    (b : FVec Ideal ⟨2, ![1, 128]⟩ .f32) (hc : (⟨2, ![1, 128]⟩ : Shape).ShapeCasts ⟨2, ![1, 128]⟩)
    (hb : (⟨2, ![1, 128]⟩ : Shape).Broadcasts ⟨2, ![n, 128]⟩) (p : Fin n) (j : Fin 128)
    (x : Row) (hx : ∀ k, A (ix2 p k) = x k) (Ws : Mat 128) (hW : ∀ k j, W (ix2 k j) = Ws (ix2 k j))
    (bs : Vec1) (hbs : ∀ q, b (ix2 (0 : Fin 1) q) = bs (ix1 q)) :
    addf (matmul d none A W (constant ⟨2, ![n, 128]⟩ .f32 0x00000000#32))
        (broadcastTo ⟨2, ![n, 128]⟩ (shapeCast ⟨2, ![1, 128]⟩ b hc) hb) (ix2 p j)
      = aff x Ws bs j := by
  rw [addf_apply, Cert.LibRowOps.matmul_plain_apply d hd, rowSpread_apply, hbs]
  exact congrArg (· + bs (ix1 j)) (Finset.sum_congr rfl fun k _ => by rw [hx k, hW k j])

/-- The product alone, against rows `o, o+1, …` of a taller matrix of which the right operand is the slice. -/
theorem dotK_apply {n M : ℕ} {φa φw : FTy} (d : DotDims ⟨2, ![n, 128]⟩ ⟨2, ![128, 128]⟩ ⟨2, ![n, 128]⟩)
    (hd : d = DotDims.plain n 128 128) (A : FVec Ideal ⟨2, ![n, 128]⟩ φa) (W : FVec Ideal ⟨2, ![128, 128]⟩ φw)
    (p : Fin n) (j : Fin 128) (x : Row) (hx : ∀ k, A (ix2 p k) = x k)
    (Ws : Mat M) (o : ℕ) (ho : o + 128 ≤ M) (hW : ∀ (k : Fin 128) (j : Fin 128), W (ix2 k j) = Ws (ix2 ⟨o + k.val, by omega⟩ j)) :
    matmul d none A W (constant ⟨2, ![n, 128]⟩ .f32 0x00000000#32) (ix2 p j) = dotAt x Ws o ho j := by
  rw [Cert.LibRowOps.matmul_plain_apply d hd]
  exact Finset.sum_congr rfl fun k _ => by rw [hx k, hW k j]

/-! ## The layer normalisation -/

/-- The reciprocal square root of a block, entry by entry. -/
theorem rsqrt_apply {s : Shape} {φ : FTy} (a : FVec Ideal s φ) (i : s.Idx) : rsqrt a i = Ideal.rsqrt (a i) := rfl

/-- The kernels' layer normalisation of a block — row sums cast to a column and spread back, the deviation, its
    square's row mean, `rsqrt`, scale and shift — at `(p, j)`: the specification's `ln` of row `p`. -/
theorem lnK_apply {n : ℕ} (h : FVec Ideal ⟨2, ![n, 128]⟩ .f32) (g be : FVec Ideal ⟨2, ![1, 128]⟩ .f32)
    (hr : Shape.Reduces ⟨2, ![n, 128]⟩ [1] ⟨1, ![n]⟩) (hφ : FKind.Formats .f32)
    (hacc : (0x00000000#32 : BitVec 32) = FKind.add.neutral .f32 hφ)
    (hsc : (⟨1, ![n]⟩ : Shape).ShapeCasts ⟨2, ![n, 1]⟩) (hbc : (⟨2, ![n, 1]⟩ : Shape).Broadcasts ⟨2, ![n, 128]⟩)
    (hc : (⟨2, ![1, 128]⟩ : Shape).ShapeCasts ⟨2, ![1, 128]⟩) (hb : (⟨2, ![1, 128]⟩ : Shape).Broadcasts ⟨2, ![n, 128]⟩)
    (p : Fin n) (j : Fin 128) (row : Row) (hrow : ∀ k, h (ix2 p k) = row k)
    (gs bes : Vec1) (hg : ∀ q, g (ix2 (0 : Fin 1) q) = gs (ix1 q)) (hbe : ∀ q, be (ix2 (0 : Fin 1) q) = bes (ix1 q)) :
    addf
      (mulf
        (mulf
          (subf h (broadcastTo ⟨2, ![n, 128]⟩
            (divf (shapeCast ⟨2, ![n, 1]⟩ (multiReduction .add [1] ⟨1, ![n]⟩ h 0x00000000#32 hr hφ hacc) hsc)
              (broadcast ⟨2, ![n, 1]⟩ (Scalar.ofBits .f32 0x43000000#32))) hbc))
          (broadcastTo ⟨2, ![n, 128]⟩
            (rsqrt (addf
              (divf (shapeCast ⟨2, ![n, 1]⟩
                  (multiReduction .add [1] ⟨1, ![n]⟩
                    (mulf
                      (subf h (broadcastTo ⟨2, ![n, 128]⟩
                        (divf (shapeCast ⟨2, ![n, 1]⟩ (multiReduction .add [1] ⟨1, ![n]⟩ h 0x00000000#32 hr hφ hacc) hsc)
                          (broadcast ⟨2, ![n, 1]⟩ (Scalar.ofBits .f32 0x43000000#32))) hbc))
                      (subf h (broadcastTo ⟨2, ![n, 128]⟩
                        (divf (shapeCast ⟨2, ![n, 1]⟩ (multiReduction .add [1] ⟨1, ![n]⟩ h 0x00000000#32 hr hφ hacc) hsc)
                          (broadcast ⟨2, ![n, 1]⟩ (Scalar.ofBits .f32 0x43000000#32))) hbc)))
                    0x00000000#32 hr hφ hacc) hsc)
                (broadcast ⟨2, ![n, 1]⟩ (Scalar.ofBits .f32 0x43000000#32)))
              (broadcast ⟨2, ![n, 1]⟩ (Scalar.ofBits .f32 0x3727C5AC#32)))) hbc))
        (broadcastTo ⟨2, ![n, 128]⟩ (shapeCast ⟨2, ![1, 128]⟩ g hc) hb))
      (broadcastTo ⟨2, ![n, 128]⟩ (shapeCast ⟨2, ![1, 128]⟩ be hc) hb) (ix2 p j)
      = ln row gs bes j := by
  -- the mean of row `q`, as the kernel spells it
  have hmean : ∀ q : Fin n,
      divf (shapeCast ⟨2, ![n, 1]⟩ (multiReduction .add [1] ⟨1, ![n]⟩ h 0x00000000#32 hr hφ hacc) hsc)
          (broadcast ⟨2, ![n, 1]⟩ (Scalar.ofBits .f32 0x43000000#32)) (ix2 q (0 : Fin 1))
        = Ideal.div (∑ k : Fin 128, h (ix2 q k)) c128 := fun q => by
    rw [divf_apply, colCast_apply, rowSum_apply, broadcast_apply]; rfl
  have hmp : Ideal.div (∑ k : Fin 128, h (ix2 p k)) c128 = mean row := by
    unfold mean; exact congrArg (Ideal.div · c128) (Finset.sum_congr rfl fun k _ => hrow k)
  -- the deviation at (p, k)
  have hdev : ∀ k : Fin 128,
      subf h (broadcastTo ⟨2, ![n, 128]⟩
        (divf (shapeCast ⟨2, ![n, 1]⟩ (multiReduction .add [1] ⟨1, ![n]⟩ h 0x00000000#32 hr hφ hacc) hsc)
          (broadcast ⟨2, ![n, 1]⟩ (Scalar.ofBits .f32 0x43000000#32))) hbc) (ix2 p k) = row k - mean row := fun k => by
    rw [subf_apply, colBcast_apply, hmean, hmp, hrow]
  rw [addf_apply, mulf_apply, mulf_apply, hdev j, colBcast_apply, rowSpread_apply, rowSpread_apply, hg, hbe,
    rsqrt_apply, addf_apply, divf_apply, colCast_apply, rowSum_apply, broadcast_apply, broadcast_apply]
  unfold ln var
  refine congrArg (fun s => (row j - mean row) * Ideal.rsqrt (Ideal.div s c128 + ceps) * gs (ix1 j) + bes (ix1 j)) ?_
  exact Finset.sum_congr rfl fun k _ => by rw [mulf_apply, hdev k]

end Cert.GNN

end
-- ==== Proof.KEdge.lean ====
/-
  Region 0's body, one edge at a time.

  The body of the edge network's kernel loads a block of 5120 edges — the edge's own features, the sender's and the
  receiver's node rows — with the three 128-row slices of the first weight matrix, the other weights and the biases as
  `[1, 128]` rows, and stores one block: three products summed, bias, rectifier, a second and a third affine layer and
  the layer normalisation. Read at `(p, j)`, with each operand named by what it holds (a slice of `W1`, a bias …), the
  stored block is the specification's edge network of row `p` of the three loaded blocks.
-/
import proofs.«412242_j86088324481849_2_alg».proof.Proof.Gen.KernelIdeal.Frame
import proofs.«412242_j86088324481849_2_alg».proof.Proof.KLayers

noncomputable section

namespace Cert.KernelIdeal.KBody

open Cert.KernelIdeal Cert.KernelIdeal.Gen Cert.KernelIdeal.Facts Cert.GNN Idealize.ShloMosaic Idealize.ShloMosaic.ValueIdx
open scoped BigOperators

/-- Both offsets of a rank-2 whole-buffer rectangle are zero. -/
theorem hz2 : (![0, 0] : Fin 2 → ℕ) = fun _ => 0 :=
  funext fun a => by match a with | ⟨0, _⟩ => rfl | ⟨1, _⟩ => rfl

/-- The rectifier against the zero splat, entry by entry. -/
theorem reluK_apply {s : Shape} (a : FVec Ideal s .f32) (i : s.Idx) :
    maximumf a (broadcast s (Scalar.ofBits .f32 0x00000000#32)) i = max (a i) 0 := by
  rw [maximumf_apply, broadcast_apply]
  exact congrArg (max (a i)) Ideal.ofBits_zero_f32

/-- The kernels' matrix product record for a block of 5120 rows is the plain product's. -/
theorem dot5120 : dot_S5120x128_S128x128_S5120x128_1_0_0_1_n_n = DotDims.plain 5120 128 128 := rfl

/-- The block region 0 writes back is its one store's payload of the loaded blocks. -/
theorem out0_13_eq (x0 : Vec Ideal S5120x128 .f32) (x1 x2 : Vec Ideal S5120x128 .bf16) (x3 x4 x5 : Vec Ideal S128x128 .f32)
    (x6 : Vec Ideal S1x128 .f32) (x7 : Vec Ideal S128x128 .f32) (x8 : Vec Ideal S1x128 .f32) (x9 : Vec Ideal S128x128 .f32)
    (x10 x11 x12 : Vec Ideal S1x128 .f32) :
    out0_13 (F := Ideal) x0 x1 x2 x3 x4 x5 x6 x7 x8 x9 x10 x11 x12
      = k0_pay1 (F := Ideal) (k0_pay2 (F := Ideal) x0 x1 x2 x3 x4 x5 x6 x7 x8) (k0_pay3 (F := Ideal)) x9 x10 x11 x12 := by
  unfold out0_13
  rw [View.canon_unit_zero hz2]
  simp only [View.ld_unit_zero (S := S5120x128) hz2, View.ld_unit_zero (S := S128x128) hz2, View.ld_unit_zero (S := S1x128) hz2]

/-! ## The two payloads at `(p, j)` -/

/-- The first payload — three products against the three slices of `W1`, bias, rectifier, second affine layer — at
    `(p, j)`: the second layer's row, before its rectifier, of row `p` of the three loaded blocks. -/
theorem pay2_apply (v0 : FVec Ideal S5120x128 .f32) (v2 v4 : FVec Ideal S5120x128 .bf16) (v6 v9 v12 : FVec Ideal S128x128 .f32)
    (v20 : FVec Ideal S1x128 .f32) (v27 : FVec Ideal S128x128 .f32) (v30 : FVec Ideal S1x128 .f32) (p : Fin 5120) (j : Fin 128)
    (W1 : Mat 384) (h6 : ∀ k j : Fin 128, v6 (ix2 k j) = W1 (ix2 ⟨0 + k.val, by omega⟩ j))
    (h9 : ∀ k j : Fin 128, v9 (ix2 k j) = W1 (ix2 ⟨128 + k.val, by omega⟩ j))
    (h12 : ∀ k j : Fin 128, v12 (ix2 k j) = W1 (ix2 ⟨256 + k.val, by omega⟩ j))
    (b1 : Vec1) (h20 : ∀ q : Fin 128, v20 (ix2 (0 : Fin 1) q) = b1 (ix1 q))
    (W2 : Mat 128) (h27 : ∀ k j : Fin 128, v27 (ix2 k j) = W2 (ix2 k j))
    (b2 : Vec1) (h30 : ∀ q : Fin 128, v30 (ix2 (0 : Fin 1) q) = b2 (ix1 q)) :
    k0_pay2 (F := Ideal) v0 v2 v4 v6 v9 v12 v20 v27 v30 (ix2 p j)
      = aff (relu (edgeL1 (fun k => v0 (ix2 p k)) (fun k => v2 (ix2 p k)) (fun k => v4 (ix2 p k)) W1 b1)) W2 b2 j := by
  unfold k0_pay2
  refine affK_apply dot_S5120x128_S128x128_S5120x128_1_0_0_1_n_n dot5120 _ _ v30 shapeCasts_S1x128_S1x128
    broadcasts_S1x128_S5120x128 p j _ (fun k => ?_) W2 (fun k j => h27 k j) b2 h30
  rw [truncf_apply, reluK_apply]
  unfold relu
  refine congrArg (max · 0) ?_
  rw [addf_apply, addf_apply, addf_apply, rowSpread_apply, h20]
  unfold edgeL1
  refine congrArg (· + b1 (ix1 k)) (congrArg₂ (· + ·) (congrArg₂ (· + ·) ?_ ?_) ?_)
  · exact dotK_apply _ dot5120 _ _ p k _ (fun _ => rfl) W1 0 (by omega) (fun k j => by rw [truncf_apply, shapeCast_self]; exact h6 k j)
  · exact dotK_apply _ dot5120 _ _ p k _ (fun _ => by rw [shapeCast_self]) W1 128 (by omega)
      (fun k j => by rw [truncf_apply, shapeCast_self]; exact h9 k j)
  · exact dotK_apply _ dot5120 _ _ p k _ (fun _ => by rw [shapeCast_self]) W1 256 (by omega)
      (fun k j => by rw [truncf_apply, shapeCast_self]; exact h12 k j)

/-- The second payload — rectifier, third affine layer, layer normalisation — at `(p, j)`, from the second layer's
    row `row` before its rectifier. -/
theorem pay1_apply (v33 : FVec Ideal S5120x128 .f32) (v37 : FVec Ideal S128x128 .f32) (v40 v44 v46 : FVec Ideal S1x128 .f32)
    (p : Fin 5120) (j : Fin 128) (row : Row) (hrow : ∀ k, v33 (ix2 p k) = row k)
    (W3 : Mat 128) (h37 : ∀ k j : Fin 128, v37 (ix2 k j) = W3 (ix2 k j))
    (b3 : Vec1) (h40 : ∀ q : Fin 128, v40 (ix2 (0 : Fin 1) q) = b3 (ix1 q))
    (g : Vec1) (h44 : ∀ q : Fin 128, v44 (ix2 (0 : Fin 1) q) = g (ix1 q))
    (be : Vec1) (h46 : ∀ q : Fin 128, v46 (ix2 (0 : Fin 1) q) = be (ix1 q)) :
    k0_pay1 (F := Ideal) v33 (k0_pay3 (F := Ideal)) v37 v40 v44 v46 (ix2 p j) = ln (aff (relu row) W3 b3) g be j := by
  unfold k0_pay1 k0_pay3
  refine lnK_apply _ v44 v46 reduces_S5120x128_S5120 _ _ shapeCasts_S5120_S5120x1 broadcasts_S5120x1_S5120x128
    shapeCasts_S1x128_S1x128 broadcasts_S1x128_S5120x128 p j (aff (relu row) W3 b3) (fun k => ?_) g be h44 h46
  refine affK_apply dot_S5120x128_S128x128_S5120x128_1_0_0_1_n_n dot5120 _ _ v40 shapeCasts_S1x128_S1x128
    broadcasts_S1x128_S5120x128 p k (relu row) (fun k' => ?_) W3 (fun k j => h37 k j) b3 h40
  rw [truncf_apply, reluK_apply, hrow]
  rfl

/-- The block region 0 writes back, at `(p, j)`: the specification's edge network of row `p` of the three loaded
    blocks, each other operand named by what it holds. -/
theorem edge_block (x0 : FVec Ideal S5120x128 .f32) (x1 x2 : FVec Ideal S5120x128 .bf16) (x3 x4 x5 : FVec Ideal S128x128 .f32)
    (x6 : FVec Ideal S1x128 .f32) (x7 : FVec Ideal S128x128 .f32) (x8 : FVec Ideal S1x128 .f32) (x9 : FVec Ideal S128x128 .f32)
    (x10 x11 x12 : FVec Ideal S1x128 .f32) (p : Fin 5120) (j : Fin 128)
    (W1 : Mat 384) (h3 : ∀ k j : Fin 128, x3 (ix2 k j) = W1 (ix2 ⟨0 + k.val, by omega⟩ j))
    (h4 : ∀ k j : Fin 128, x4 (ix2 k j) = W1 (ix2 ⟨128 + k.val, by omega⟩ j))
    (h5 : ∀ k j : Fin 128, x5 (ix2 k j) = W1 (ix2 ⟨256 + k.val, by omega⟩ j))
    (b1 : Vec1) (h6 : ∀ q : Fin 128, x6 (ix2 (0 : Fin 1) q) = b1 (ix1 q))
    (W2 : Mat 128) (h7 : ∀ k j : Fin 128, x7 (ix2 k j) = W2 (ix2 k j))
    (b2 : Vec1) (h8 : ∀ q : Fin 128, x8 (ix2 (0 : Fin 1) q) = b2 (ix1 q))
    (W3 : Mat 128) (h9 : ∀ k j : Fin 128, x9 (ix2 k j) = W3 (ix2 k j))
    (b3 : Vec1) (h10 : ∀ q : Fin 128, x10 (ix2 (0 : Fin 1) q) = b3 (ix1 q))
    (g : Vec1) (h11 : ∀ q : Fin 128, x11 (ix2 (0 : Fin 1) q) = g (ix1 q))
    (be : Vec1) (h12 : ∀ q : Fin 128, x12 (ix2 (0 : Fin 1) q) = be (ix1 q)) :
    out0_13 (F := Ideal) x0 x1 x2 x3 x4 x5 x6 x7 x8 x9 x10 x11 x12 (ix2 p j)
      = edgeRow (fun k => x0 (ix2 p k)) (fun k => x1 (ix2 p k)) (fun k => x2 (ix2 p k)) W1 b1 W2 b2 W3 b3 g be j := by
  rw [out0_13_eq]
  unfold edgeRow tail
  exact pay1_apply _ x9 x10 x11 x12 p j _
    (fun k => pay2_apply x0 x1 x2 x3 x4 x5 x6 x7 x8 p k W1 h3 h4 h5 b1 h6 W2 h7 b2 h8) W3 h9 b3 h10 g h11 be h12

end Cert.KernelIdeal.KBody

end
-- ==== Proof.KBlocks.lean ====
/-
  What each window's block holds: the region's input blocks read from the arrays the region finds.

  Region 0 walks the 640000 edges in 125 blocks of 5120 rows, region 1 the 100000 nodes in 25 blocks of 4000 rows; at
  point `t` a row-blocked window's block is rows `B·t … B·t + B - 1` of its array (all 128 columns), and a weight
  matrix's or a bias row's window is the whole array at every point. A block's coordinate on an axis is always the
  block index times the block's extent plus the coordinate inside the block; the block indices are decided once over
  the grid.
-/
import proofs.«412242_j86088324481849_2_alg».proof.Proof.Gen.KernelIdeal.Frame
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## Region 0 -/

/-- The row-blocked windows' index maps, decided over the grid: point `t` takes block `t` of the rows and the one block of
    the columns. -/
theorem idxRows0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The whole-array windows' index maps, decided over the grid: every point takes the one block. -/
theorem idxWhole0 : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Window 0's block at point `t` is rows `5120·t … 5120·t + 5119` of its array. -/
theorem blk0_0 (c : Dev nD) (t : Fin cfg0.N) (p : Fin 5120) (k : Fin 128) :
    (iblk0 V c 0 t : Vec Ideal S5120x128 .f32) (ix2 p k)
      = (V c main_arg2 : Vec Ideal S640000x128 .f32) (ix2 ⟨t.val * 5120 + p.val, by have := t.isLt; have := p.isLt; have hN : cfg0.N = 125 := N_0; omega⟩ k) := by
  show V c main_arg2 (((cfg0.win 0).blk t).view.emb (ix2 p k)) = _
  refine congrArg (V c main_arg2) (funext fun a => Fin.ext ?_)
  have h0 := (idxRows0 t).1
  have h1 := (idxRows0 t).2.1
  match a with
  | ⟨0, _⟩ => show win0_0.index t (0 : Fin 2) * 5120 + 1 * p.val = t.val * 5120 + p.val; rw [h0, Nat.one_mul]
  | ⟨1, _⟩ => show win0_0.index t (1 : Fin 2) * 128 + 1 * k.val = k.val; rw [h1, Nat.zero_mul, Nat.zero_add, Nat.one_mul]

/-- Window 1's block at point `t` is rows `5120·t … 5120·t + 5119` of its array. -/
theorem blk0_1 (c : Dev nD) (t : Fin cfg0.N) (p : Fin 5120) (k : Fin 128) :
    (iblk0 V c 1 t : Vec Ideal S5120x128 .bf16) (ix2 p k)
      = (V c main_v5 : Vec Ideal S640000x128 .bf16) (ix2 ⟨t.val * 5120 + p.val, by have := t.isLt; have := p.isLt; have hN : cfg0.N = 125 := N_0; omega⟩ k) := by
  show V c main_v5 (((cfg0.win 1).blk t).view.emb (ix2 p k)) = _
  refine congrArg (V c main_v5) (funext fun a => Fin.ext ?_)
  have h0 := (idxRows0 t).2.2.1
  have h1 := (idxRows0 t).2.2.2.1
  match a with
  | ⟨0, _⟩ => show win0_1.index t (0 : Fin 2) * 5120 + 1 * p.val = t.val * 5120 + p.val; rw [h0, Nat.one_mul]
  | ⟨1, _⟩ => show win0_1.index t (1 : Fin 2) * 128 + 1 * k.val = k.val; rw [h1, Nat.zero_mul, Nat.zero_add, Nat.one_mul]

/-- Window 2's block at point `t` is rows `5120·t … 5120·t + 5119` of its array. -/
theorem blk0_2 (c : Dev nD) (t : Fin cfg0.N) (p : Fin 5120) (k : Fin 128) :
    (iblk0 V c 2 t : Vec Ideal S5120x128 .bf16) (ix2 p k)
      = (V c main_v7 : Vec Ideal S640000x128 .bf16) (ix2 ⟨t.val * 5120 + p.val, by have := t.isLt; have := p.isLt; have hN : cfg0.N = 125 := N_0; omega⟩ k) := by
  show V c main_v7 (((cfg0.win 2).blk t).view.emb (ix2 p k)) = _
  refine congrArg (V c main_v7) (funext fun a => Fin.ext ?_)
  have h0 := (idxRows0 t).2.2.2.2.1
  have h1 := (idxRows0 t).2.2.2.2.2.1
  match a with
  | ⟨0, _⟩ => show win0_2.index t (0 : Fin 2) * 5120 + 1 * p.val = t.val * 5120 + p.val; rw [h0, Nat.one_mul]
  | ⟨1, _⟩ => show win0_2.index t (1 : Fin 2) * 128 + 1 * k.val = k.val; rw [h1, Nat.zero_mul, Nat.zero_add, Nat.one_mul]

/-- Window 3's block at every point is its whole array. -/
theorem blk0_3 (c : Dev nD) (t : Fin cfg0.N) (k : Fin 128) (j : Fin 128) :
    (iblk0 V c 3 t : Vec Ideal S128x128 .f32) (ix2 k j) = (V c main_v8 : Vec Ideal S128x128 .f32) (ix2 k j) := by
  show V c main_v8 (((cfg0.win 3).blk t).view.emb (ix2 k j)) = _
  refine congrArg (V c main_v8) (funext fun a => Fin.ext ?_)
  have h0 := (idxWhole0 t).1
  have h1 := (idxWhole0 t).2.1
  match a with
  | ⟨0, _⟩ => show win0_3.index t (0 : Fin 2) * 128 + 1 * k.val = k.val; rw [h0, Nat.zero_mul, Nat.zero_add, Nat.one_mul]
  | ⟨1, _⟩ => show win0_3.index t (1 : Fin 2) * 128 + 1 * j.val = j.val; rw [h1, Nat.zero_mul, Nat.zero_add, Nat.one_mul]

/-- Window 4's block at every point is its whole array. -/
theorem blk0_4 (c : Dev nD) (t : Fin cfg0.N) (k : Fin 128) (j : Fin 128) :
    (iblk0 V c 4 t : Vec Ideal S128x128 .f32) (ix2 k j) = (V c main_v9 : Vec Ideal S128x128 .f32) (ix2 k j) := by
  show V c main_v9 (((cfg0.win 4).blk t).view.emb (ix2 k j)) = _
  refine congrArg (V c main_v9) (funext fun a => Fin.ext ?_)
  have h0 := (idxWhole0 t).2.2.1
  have h1 := (idxWhole0 t).2.2.2.1
  match a with
  | ⟨0, _⟩ => show win0_4.index t (0 : Fin 2) * 128 + 1 * k.val = k.val; rw [h0, Nat.zero_mul, Nat.zero_add, Nat.one_mul]
  | ⟨1, _⟩ => show win0_4.index t (1 : Fin 2) * 128 + 1 * j.val = j.val; rw [h1, Nat.zero_mul, Nat.zero_add, Nat.one_mul]

/-- Window 5's block at every point is its whole array. -/
theorem blk0_5 (c : Dev nD) (t : Fin cfg0.N) (k : Fin 128) (j : Fin 128) :
    (iblk0 V c 5 t : Vec Ideal S128x128 .f32) (ix2 k j) = (V c main_v10 : Vec Ideal S128x128 .f32) (ix2 k j) := by
  show V c main_v10 (((cfg0.win 5).blk t).view.emb (ix2 k j)) = _
  refine congrArg (V c main_v10) (funext fun a => Fin.ext ?_)
  have h0 := (idxWhole0 t).2.2.2.2.1
  have h1 := (idxWhole0 t).2.2.2.2.2.1
  match a with
  | ⟨0, _⟩ => show win0_5.index t (0 : Fin 2) * 128 + 1 * k.val = k.val; rw [h0, Nat.zero_mul, Nat.zero_add, Nat.one_mul]
  | ⟨1, _⟩ => show win0_5.index t (1 : Fin 2) * 128 + 1 * j.val = j.val; rw [h1, Nat.zero_mul, Nat.zero_add, Nat.one_mul]

/-- Window 6's block at every point is its whole array. -/
theorem blk0_6 (c : Dev nD) (t : Fin cfg0.N) (k : Fin 1) (j : Fin 128) :
    (iblk0 V c 6 t : Vec Ideal S1x128 .f32) (ix2 k j) = (V c main_v11 : Vec Ideal S1x128 .f32) (ix2 k j) := by
  show V c main_v11 (((cfg0.win 6).blk t).view.emb (ix2 k j)) = _
  refine congrArg (V c main_v11) (funext fun a => Fin.ext ?_)
  have h0 := (idxWhole0 t).2.2.2.2.2.2.1
  have h1 := (idxWhole0 t).2.2.2.2.2.2.2.1
  match a with
  | ⟨0, _⟩ => show win0_6.index t (0 : Fin 2) * 1 + 1 * k.val = k.val; rw [h0, Nat.zero_mul, Nat.zero_add, Nat.one_mul]
  | ⟨1, _⟩ => show win0_6.index t (1 : Fin 2) * 128 + 1 * j.val = j.val; rw [h1, Nat.zero_mul, Nat.zero_add, Nat.one_mul]

/-- Window 7's block at every point is its whole array. -/
theorem blk0_7 (c : Dev nD) (t : Fin cfg0.N) (k : Fin 128) (j : Fin 128) :
    (iblk0 V c 7 t : Vec Ideal S128x128 .f32) (ix2 k j) = (V c main_arg5 : Vec Ideal S128x128 .f32) (ix2 k j) := by
  show V c main_arg5 (((cfg0.win 7).blk t).view.emb (ix2 k j)) = _
  refine congrArg (V c main_arg5) (funext fun a => Fin.ext ?_)
  have h0 := (idxWhole0 t).2.2.2.2.2.2.2.2.1
  have h1 := (idxWhole0 t).2.2.2.2.2.2.2.2.2.1
  match a with
  | ⟨0, _⟩ => show win0_7.index t (0 : Fin 2) * 128 + 1 * k.val = k.val; rw [h0, Nat.zero_mul, Nat.zero_add, Nat.one_mul]
  | ⟨1, _⟩ => show win0_7.index t (1 : Fin 2) * 128 + 1 * j.val = j.val; rw [h1, Nat.zero_mul, Nat.zero_add, Nat.one_mul]

/-- Window 8's block at every point is its whole array. -/
theorem blk0_8 (c : Dev nD) (t : Fin cfg0.N) (k : Fin 1) (j : Fin 128) :
    (iblk0 V c 8 t : Vec Ideal S1x128 .f32) (ix2 k j) = (V c main_v12 : Vec Ideal S1x128 .f32) (ix2 k j) := by
  show V c main_v12 (((cfg0.win 8).blk t).view.emb (ix2 k j)) = _
  refine congrArg (V c main_v12) (funext fun a => Fin.ext ?_)
  have h0 := (idxWhole0 t).2.2.2.2.2.2.2.2.2.2.1
  have h1 := (idxWhole0 t).2.2.2.2.2.2.2.2.2.2.2.1
  match a with
  | ⟨0, _⟩ => show win0_8.index t (0 : Fin 2) * 1 + 1 * k.val = k.val; rw [h0, Nat.zero_mul, Nat.zero_add, Nat.one_mul]
  | ⟨1, _⟩ => show win0_8.index t (1 : Fin 2) * 128 + 1 * j.val = j.val; rw [h1, Nat.zero_mul, Nat.zero_add, Nat.one_mul]

/-- Window 9's block at every point is its whole array. -/
theorem blk0_9 (c : Dev nD) (t : Fin cfg0.N) (k : Fin 128) (j : Fin 128) :
    (iblk0 V c 9 t : Vec Ideal S128x128 .f32) (ix2 k j) = (V c main_arg7 : Vec Ideal S128x128 .f32) (ix2 k j) := by
  show V c main_arg7 (((cfg0.win 9).blk t).view.emb (ix2 k j)) = _
  refine congrArg (V c main_arg7) (funext fun a => Fin.ext ?_)
  have h0 := (idxWhole0 t).2.2.2.2.2.2.2.2.2.2.2.2.1
  have h1 := (idxWhole0 t).2.2.2.2.2.2.2.2.2.2.2.2.2.1
  match a with
  | ⟨0, _⟩ => show win0_9.index t (0 : Fin 2) * 128 + 1 * k.val = k.val; rw [h0, Nat.zero_mul, Nat.zero_add, Nat.one_mul]
  | ⟨1, _⟩ => show win0_9.index t (1 : Fin 2) * 128 + 1 * j.val = j.val; rw [h1, Nat.zero_mul, Nat.zero_add, Nat.one_mul]

/-- Window 10's block at every point is its whole array. -/
theorem blk0_10 (c : Dev nD) (t : Fin cfg0.N) (k : Fin 1) (j : Fin 128) :
    (iblk0 V c 10 t : Vec Ideal S1x128 .f32) (ix2 k j) = (V c main_v13 : Vec Ideal S1x128 .f32) (ix2 k j) := by
  show V c main_v13 (((cfg0.win 10).blk t).view.emb (ix2 k j)) = _
  refine congrArg (V c main_v13) (funext fun a => Fin.ext ?_)
  have h0 := (idxWhole0 t).2.2.2.2.2.2.2.2.2.2.2.2.2.2.1
  have h1 := (idxWhole0 t).2.2.2.2.2.2.2.2.2.2.2.2.2.2.2.1
  match a with
  | ⟨0, _⟩ => show win0_10.index t (0 : Fin 2) * 1 + 1 * k.val = k.val; rw [h0, Nat.zero_mul, Nat.zero_add, Nat.one_mul]
  | ⟨1, _⟩ => show win0_10.index t (1 : Fin 2) * 128 + 1 * j.val = j.val; rw [h1, Nat.zero_mul, Nat.zero_add, Nat.one_mul]

/-- Window 11's block at every point is its whole array. -/
theorem blk0_11 (c : Dev nD) (t : Fin cfg0.N) (k : Fin 1) (j : Fin 128) :
    (iblk0 V c 11 t : Vec Ideal S1x128 .f32) (ix2 k j) = (V c main_v14 : Vec Ideal S1x128 .f32) (ix2 k j) := by
  show V c main_v14 (((cfg0.win 11).blk t).view.emb (ix2 k j)) = _
  refine congrArg (V c main_v14) (funext fun a => Fin.ext ?_)
  have h0 := (idxWhole0 t).2.2.2.2.2.2.2.2.2.2.2.2.2.2.2.2.1
  have h1 := (idxWhole0 t).2.2.2.2.2.2.2.2.2.2.2.2.2.2.2.2.2.1
  match a with
  | ⟨0, _⟩ => show win0_11.index t (0 : Fin 2) * 1 + 1 * k.val = k.val; rw [h0, Nat.zero_mul, Nat.zero_add, Nat.one_mul]
  | ⟨1, _⟩ => show win0_11.index t (1 : Fin 2) * 128 + 1 * j.val = j.val; rw [h1, Nat.zero_mul, Nat.zero_add, Nat.one_mul]

/-- Window 12's block at every point is its whole array. -/
theorem blk0_12 (c : Dev nD) (t : Fin cfg0.N) (k : Fin 1) (j : Fin 128) :
    (iblk0 V c 12 t : Vec Ideal S1x128 .f32) (ix2 k j) = (V c main_v15 : Vec Ideal S1x128 .f32) (ix2 k j) := by
  show V c main_v15 (((cfg0.win 12).blk t).view.emb (ix2 k j)) = _
  refine congrArg (V c main_v15) (funext fun a => Fin.ext ?_)
  have h0 := (idxWhole0 t).2.2.2.2.2.2.2.2.2.2.2.2.2.2.2.2.2.2.1
  have h1 := (idxWhole0 t).2.2.2.2.2.2.2.2.2.2.2.2.2.2.2.2.2.2.2
  match a with
  | ⟨0, _⟩ => show win0_12.index t (0 : Fin 2) * 1 + 1 * k.val = k.val; rw [h0, Nat.zero_mul, Nat.zero_add, Nat.one_mul]
  | ⟨1, _⟩ => show win0_12.index t (1 : Fin 2) * 128 + 1 * j.val = j.val; rw [h1, Nat.zero_mul, Nat.zero_add, Nat.one_mul]

/-! ## Region 1 -/

/-- The row-blocked windows' index maps, decided over the grid: point `t` takes block `t` of the rows and the one block of
    the columns. -/
theorem idxRows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_11.index t (0 : Fin 2) = t.val ∧ win1_11.index t (1 : Fin 2) = 0 :=
  (by decide +kernel : ∀ t : Fin grid1.N, _)

/-- The whole-array windows' index maps, decided over the grid: every point takes the one block. -/
theorem idxWhole1 : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- Window 0's block at point `t` is rows `4000·t … 4000·t + 3999` of its array. -/
theorem blk1_0 (c : Dev nD) (t : Fin cfg1.N) (p : Fin 4000) (k : Fin 128) :
    (iblk1 V c 0 t : Vec Ideal S4000x128 .f32) (ix2 p k)
      = (V c main_arg0 : Vec Ideal S100000x128 .f32) (ix2 ⟨t.val * 4000 + p.val, by have := t.isLt; have := p.isLt; have hN : cfg1.N = 25 := N_1; omega⟩ k) := by
  show V c main_arg0 (((cfg1.win 0).blk t).view.emb (ix2 p k)) = _
  refine congrArg (V c main_arg0) (funext fun a => Fin.ext ?_)
  have h0 := (idxRows1 t).1
  have h1 := (idxRows1 t).2.1
  match a with
  | ⟨0, _⟩ => show win1_0.index t (0 : Fin 2) * 4000 + 1 * p.val = t.val * 4000 + p.val; rw [h0, Nat.one_mul]
  | ⟨1, _⟩ => show win1_0.index t (1 : Fin 2) * 128 + 1 * k.val = k.val; rw [h1, Nat.zero_mul, Nat.zero_add, Nat.one_mul]

/-- Window 1's block at point `t` is rows `4000·t … 4000·t + 3999` of its array. -/
theorem blk1_1 (c : Dev nD) (t : Fin cfg1.N) (p : Fin 4000) (k : Fin 128) :
    (iblk1 V c 1 t : Vec Ideal S4000x128 .f32) (ix2 p k)
      = (V c main_v19 : Vec Ideal S100000x128 .f32) (ix2 ⟨t.val * 4000 + p.val, by have := t.isLt; have := p.isLt; have hN : cfg1.N = 25 := N_1; omega⟩ k) := by
  show V c main_v19 (((cfg1.win 1).blk t).view.emb (ix2 p k)) = _
  refine congrArg (V c main_v19) (funext fun a => Fin.ext ?_)
  have h0 := (idxRows1 t).2.2.1
  have h1 := (idxRows1 t).2.2.2.1
  match a with
  | ⟨0, _⟩ => show win1_1.index t (0 : Fin 2) * 4000 + 1 * p.val = t.val * 4000 + p.val; rw [h0, Nat.one_mul]
  | ⟨1, _⟩ => show win1_1.index t (1 : Fin 2) * 128 + 1 * k.val = k.val; rw [h1, Nat.zero_mul, Nat.zero_add, Nat.one_mul]

/-- Window 2's block at every point is its whole array. -/
theorem blk1_2 (c : Dev nD) (t : Fin cfg1.N) (k : Fin 128) (j : Fin 128) :
    (iblk1 V c 2 t : Vec Ideal S128x128 .f32) (ix2 k j) = (V c main_v20 : Vec Ideal S128x128 .f32) (ix2 k j) := by
  show V c main_v20 (((cfg1.win 2).blk t).view.emb (ix2 k j)) = _
  refine congrArg (V c main_v20) (funext fun a => Fin.ext ?_)
  have h0 := (idxWhole1 t).1
  have h1 := (idxWhole1 t).2.1
  match a with
  | ⟨0, _⟩ => show win1_2.index t (0 : Fin 2) * 128 + 1 * k.val = k.val; rw [h0, Nat.zero_mul, Nat.zero_add, Nat.one_mul]
  | ⟨1, _⟩ => show win1_2.index t (1 : Fin 2) * 128 + 1 * j.val = j.val; rw [h1, Nat.zero_mul, Nat.zero_add, Nat.one_mul]

/-- Window 3's block at every point is its whole array. -/
theorem blk1_3 (c : Dev nD) (t : Fin cfg1.N) (k : Fin 128) (j : Fin 128) :
    (iblk1 V c 3 t : Vec Ideal S128x128 .f32) (ix2 k j) = (V c main_v21 : Vec Ideal S128x128 .f32) (ix2 k j) := by
  show V c main_v21 (((cfg1.win 3).blk t).view.emb (ix2 k j)) = _
  refine congrArg (V c main_v21) (funext fun a => Fin.ext ?_)
  have h0 := (idxWhole1 t).2.2.1
  have h1 := (idxWhole1 t).2.2.2.1
  match a with
  | ⟨0, _⟩ => show win1_3.index t (0 : Fin 2) * 128 + 1 * k.val = k.val; rw [h0, Nat.zero_mul, Nat.zero_add, Nat.one_mul]
  | ⟨1, _⟩ => show win1_3.index t (1 : Fin 2) * 128 + 1 * j.val = j.val; rw [h1, Nat.zero_mul, Nat.zero_add, Nat.one_mul]

/-- Window 4's block at every point is its whole array. -/
theorem blk1_4 (c : Dev nD) (t : Fin cfg1.N) (k : Fin 1) (j : Fin 128) :
    (iblk1 V c 4 t : Vec Ideal S1x128 .f32) (ix2 k j) = (V c main_v22 : Vec Ideal S1x128 .f32) (ix2 k j) := by
  show V c main_v22 (((cfg1.win 4).blk t).view.emb (ix2 k j)) = _
  refine congrArg (V c main_v22) (funext fun a => Fin.ext ?_)
  have h0 := (idxWhole1 t).2.2.2.2.1
  have h1 := (idxWhole1 t).2.2.2.2.2.1
  match a with
  | ⟨0, _⟩ => show win1_4.index t (0 : Fin 2) * 1 + 1 * k.val = k.val; rw [h0, Nat.zero_mul, Nat.zero_add, Nat.one_mul]
  | ⟨1, _⟩ => show win1_4.index t (1 : Fin 2) * 128 + 1 * j.val = j.val; rw [h1, Nat.zero_mul, Nat.zero_add, Nat.one_mul]

/-- Window 5's block at every point is its whole array. -/
theorem blk1_5 (c : Dev nD) (t : Fin cfg1.N) (k : Fin 128) (j : Fin 128) :
    (iblk1 V c 5 t : Vec Ideal S128x128 .f32) (ix2 k j) = (V c main_arg13 : Vec Ideal S128x128 .f32) (ix2 k j) := by
  show V c main_arg13 (((cfg1.win 5).blk t).view.emb (ix2 k j)) = _
  refine congrArg (V c main_arg13) (funext fun a => Fin.ext ?_)
  have h0 := (idxWhole1 t).2.2.2.2.2.2.1
  have h1 := (idxWhole1 t).2.2.2.2.2.2.2.1
  match a with
  | ⟨0, _⟩ => show win1_5.index t (0 : Fin 2) * 128 + 1 * k.val = k.val; rw [h0, Nat.zero_mul, Nat.zero_add, Nat.one_mul]
  | ⟨1, _⟩ => show win1_5.index t (1 : Fin 2) * 128 + 1 * j.val = j.val; rw [h1, Nat.zero_mul, Nat.zero_add, Nat.one_mul]

/-- Window 6's block at every point is its whole array. -/
theorem blk1_6 (c : Dev nD) (t : Fin cfg1.N) (k : Fin 1) (j : Fin 128) :
    (iblk1 V c 6 t : Vec Ideal S1x128 .f32) (ix2 k j) = (V c main_v23 : Vec Ideal S1x128 .f32) (ix2 k j) := by
  show V c main_v23 (((cfg1.win 6).blk t).view.emb (ix2 k j)) = _
  refine congrArg (V c main_v23) (funext fun a => Fin.ext ?_)
  have h0 := (idxWhole1 t).2.2.2.2.2.2.2.2.1
  have h1 := (idxWhole1 t).2.2.2.2.2.2.2.2.2.1
  match a with
  | ⟨0, _⟩ => show win1_6.index t (0 : Fin 2) * 1 + 1 * k.val = k.val; rw [h0, Nat.zero_mul, Nat.zero_add, Nat.one_mul]
  | ⟨1, _⟩ => show win1_6.index t (1 : Fin 2) * 128 + 1 * j.val = j.val; rw [h1, Nat.zero_mul, Nat.zero_add, Nat.one_mul]

/-- Window 7's block at every point is its whole array. -/
theorem blk1_7 (c : Dev nD) (t : Fin cfg1.N) (k : Fin 128) (j : Fin 128) :
    (iblk1 V c 7 t : Vec Ideal S128x128 .f32) (ix2 k j) = (V c main_arg15 : Vec Ideal S128x128 .f32) (ix2 k j) := by
  show V c main_arg15 (((cfg1.win 7).blk t).view.emb (ix2 k j)) = _
  refine congrArg (V c main_arg15) (funext fun a => Fin.ext ?_)
  have h0 := (idxWhole1 t).2.2.2.2.2.2.2.2.2.2.1
  have h1 := (idxWhole1 t).2.2.2.2.2.2.2.2.2.2.2.1
  match a with
  | ⟨0, _⟩ => show win1_7.index t (0 : Fin 2) * 128 + 1 * k.val = k.val; rw [h0, Nat.zero_mul, Nat.zero_add, Nat.one_mul]
  | ⟨1, _⟩ => show win1_7.index t (1 : Fin 2) * 128 + 1 * j.val = j.val; rw [h1, Nat.zero_mul, Nat.zero_add, Nat.one_mul]

/-- Window 8's block at every point is its whole array. -/
theorem blk1_8 (c : Dev nD) (t : Fin cfg1.N) (k : Fin 1) (j : Fin 128) :
    (iblk1 V c 8 t : Vec Ideal S1x128 .f32) (ix2 k j) = (V c main_v24 : Vec Ideal S1x128 .f32) (ix2 k j) := by
  show V c main_v24 (((cfg1.win 8).blk t).view.emb (ix2 k j)) = _
  refine congrArg (V c main_v24) (funext fun a => Fin.ext ?_)
  have h0 := (idxWhole1 t).2.2.2.2.2.2.2.2.2.2.2.2.1
  have h1 := (idxWhole1 t).2.2.2.2.2.2.2.2.2.2.2.2.2.1
  match a with
  | ⟨0, _⟩ => show win1_8.index t (0 : Fin 2) * 1 + 1 * k.val = k.val; rw [h0, Nat.zero_mul, Nat.zero_add, Nat.one_mul]
  | ⟨1, _⟩ => show win1_8.index t (1 : Fin 2) * 128 + 1 * j.val = j.val; rw [h1, Nat.zero_mul, Nat.zero_add, Nat.one_mul]

/-- Window 9's block at every point is its whole array. -/
theorem blk1_9 (c : Dev nD) (t : Fin cfg1.N) (k : Fin 1) (j : Fin 128) :
    (iblk1 V c 9 t : Vec Ideal S1x128 .f32) (ix2 k j) = (V c main_v25 : Vec Ideal S1x128 .f32) (ix2 k j) := by
  show V c main_v25 (((cfg1.win 9).blk t).view.emb (ix2 k j)) = _
  refine congrArg (V c main_v25) (funext fun a => Fin.ext ?_)
  have h0 := (idxWhole1 t).2.2.2.2.2.2.2.2.2.2.2.2.2.2.1
  have h1 := (idxWhole1 t).2.2.2.2.2.2.2.2.2.2.2.2.2.2.2.1
  match a with
  | ⟨0, _⟩ => show win1_9.index t (0 : Fin 2) * 1 + 1 * k.val = k.val; rw [h0, Nat.zero_mul, Nat.zero_add, Nat.one_mul]
  | ⟨1, _⟩ => show win1_9.index t (1 : Fin 2) * 128 + 1 * j.val = j.val; rw [h1, Nat.zero_mul, Nat.zero_add, Nat.one_mul]

/-- Window 10's block at every point is its whole array. -/
theorem blk1_10 (c : Dev nD) (t : Fin cfg1.N) (k : Fin 1) (j : Fin 128) :
    (iblk1 V c 10 t : Vec Ideal S1x128 .f32) (ix2 k j) = (V c main_v26 : Vec Ideal S1x128 .f32) (ix2 k j) := by
  show V c main_v26 (((cfg1.win 10).blk t).view.emb (ix2 k j)) = _
  refine congrArg (V c main_v26) (funext fun a => Fin.ext ?_)
  have h0 := (idxWhole1 t).2.2.2.2.2.2.2.2.2.2.2.2.2.2.2.2.1
  have h1 := (idxWhole1 t).2.2.2.2.2.2.2.2.2.2.2.2.2.2.2.2.2
  match a with
  | ⟨0, _⟩ => show win1_10.index t (0 : Fin 2) * 1 + 1 * k.val = k.val; rw [h0, Nat.zero_mul, Nat.zero_add, Nat.one_mul]
  | ⟨1, _⟩ => show win1_10.index t (1 : Fin 2) * 128 + 1 * j.val = j.val; rw [h1, Nat.zero_mul, Nat.zero_add, Nat.one_mul]

end Cert.KernelIdeal.KBlocks

end
-- ==== Proof.KEdgeArr.lean ====
/-
  Region 0's result array: the edge network of every edge.

  Point `t` of region 0 writes back block `t` — rows `5120·t … 5120·t + 5119` — of ONE function of the arrays the
  region finds: row `e` of it is the specification's edge network of row `e` of the edge features and of the two
  gathered arrays. The 125 blocks tile the 640000 rows (row `e` lies in block `e / 5120`), so after the region the
  result array IS that function.
-/
import proofs.«412242_j86088324481849_2_alg».proof.Proof.KEdge
import proofs.«412242_j86088324481849_2_alg».proof.Proof.KBlocks

noncomputable section

namespace Cert.KernelIdeal.KArr

open Cert.KernelIdeal Cert.KernelIdeal.Gen Cert.KernelIdeal.KBody Cert.KernelIdeal.KBlocks Cert.GNN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The edge network of every row of the three row-blocked arrays region 0 finds. -/
def edgeG (c : Dev nD) (W1 : Mat 384) (b1 : Vec1) (W2 : Mat 128) (b2 : Vec1) (W3 : Mat 128) (b3 g be : Vec1) :
    S640000x128.Idx → EReal := fun i =>
  edgeRow (fun k => (V c main_arg2 : Vec Ideal S640000x128 .f32) (ix2 (⟨(i 0).val, (i 0).isLt⟩ : Fin 640000) k))
    (fun k => (V c main_v5 : Vec Ideal S640000x128 .bf16) (ix2 (⟨(i 0).val, (i 0).isLt⟩ : Fin 640000) k))
    (fun k => (V c main_v7 : Vec Ideal S640000x128 .bf16) (ix2 (⟨(i 0).val, (i 0).isLt⟩ : Fin 640000) k))
    W1 b1 W2 b2 W3 b3 g be (⟨(i 1).val, (i 1).isLt⟩ : Fin 128)

/-- That function at `(e, j)`. -/
theorem edgeG_ix2 (c : Dev nD) (W1 : Mat 384) (b1 : Vec1) (W2 : Mat 128) (b2 : Vec1) (W3 : Mat 128) (b3 g be : Vec1)
    (e : Fin 640000) (j : Fin 128) :
    edgeG V c W1 b1 W2 b2 W3 b3 g be (ix2 e j)
      = edgeRow (fun k => (V c main_arg2 : Vec Ideal S640000x128 .f32) (ix2 e k))
          (fun k => (V c main_v5 : Vec Ideal S640000x128 .bf16) (ix2 e k))
          (fun k => (V c main_v7 : Vec Ideal S640000x128 .bf16) (ix2 e k)) W1 b1 W2 b2 W3 b3 g be j := rfl

/-- The result block's index `(p, j)` at point `t` is the array index `(5120·t + p, j)`. -/
theorem emb0_13 (t : Fin cfg0.N) (p : Fin 5120) (j : Fin 128) :
    ((cfg0.win 13).blk t).view.emb (ix2 p j)
      = (ix2 (⟨t.val * 5120 + p.val, by have := t.isLt; have := p.isLt; have hN : cfg0.N = 125 := N_0; omega⟩ : Fin 640000) j : S640000x128.Idx) := by
  funext a; apply Fin.ext
  have h0 := (idxRows0 t).2.2.2.2.2.2.1
  have h1 := (idxRows0 t).2.2.2.2.2.2.2
  match a with
  | ⟨0, _⟩ => show win0_13.index t (0 : Fin 2) * 5120 + 1 * p.val = t.val * 5120 + p.val; rw [h0, Nat.one_mul]
  | ⟨1, _⟩ => show win0_13.index t (1 : Fin 2) * 128 + 1 * j.val = j.val; rw [h1, Nat.zero_mul, Nat.zero_add, Nat.one_mul]

/-- One point of the grid, over the literal block types: the written block at any index `y` is a whole-array function
    `G` at `y`'s place in the array, as soon as `G` there is the edge network of the loaded rows. -/
theorem edge_point (x0 : FVec Ideal S5120x128 .f32) (x1 x2 : FVec Ideal S5120x128 .bf16) (x3 x4 x5 : FVec Ideal S128x128 .f32)
    (x6 : FVec Ideal S1x128 .f32) (x7 : FVec Ideal S128x128 .f32) (x8 : FVec Ideal S1x128 .f32) (x9 : FVec Ideal S128x128 .f32)
    (x10 x11 x12 : FVec Ideal S1x128 .f32) (G : S640000x128.Idx → EReal) (emb : S5120x128.Idx → S640000x128.Idx)
    (W1 : Mat 384) (h3 : ∀ k j : Fin 128, x3 (ix2 k j) = W1 (ix2 ⟨0 + k.val, by omega⟩ j))
    (h4 : ∀ k j : Fin 128, x4 (ix2 k j) = W1 (ix2 ⟨128 + k.val, by omega⟩ j))
    (h5 : ∀ k j : Fin 128, x5 (ix2 k j) = W1 (ix2 ⟨256 + k.val, by omega⟩ j))
    (b1 : Vec1) (h6 : ∀ q : Fin 128, x6 (ix2 (0 : Fin 1) q) = b1 (ix1 q))
    (W2 : Mat 128) (h7 : ∀ k j : Fin 128, x7 (ix2 k j) = W2 (ix2 k j))
    (b2 : Vec1) (h8 : ∀ q : Fin 128, x8 (ix2 (0 : Fin 1) q) = b2 (ix1 q))
    (W3 : Mat 128) (h9 : ∀ k j : Fin 128, x9 (ix2 k j) = W3 (ix2 k j))
    (b3 : Vec1) (h10 : ∀ q : Fin 128, x10 (ix2 (0 : Fin 1) q) = b3 (ix1 q))
    (g : Vec1) (h11 : ∀ q : Fin 128, x11 (ix2 (0 : Fin 1) q) = g (ix1 q))
    (be : Vec1) (h12 : ∀ q : Fin 128, x12 (ix2 (0 : Fin 1) q) = be (ix1 q))
    (r0 r1 r2 : Fin 5120 → Row) (hr0 : ∀ p k, x0 (ix2 p k) = r0 p k) (hr1 : ∀ p k, x1 (ix2 p k) = r1 p k)
    (hr2 : ∀ p k, x2 (ix2 p k) = r2 p k)
    (hG : ∀ (p : Fin 5120) (j : Fin 128), G (emb (ix2 p j)) = edgeRow (r0 p) (r1 p) (r2 p) W1 b1 W2 b2 W3 b3 g be j)
    (y : S5120x128.Idx) :
    out0_13 (F := Ideal) x0 x1 x2 x3 x4 x5 x6 x7 x8 x9 x10 x11 x12 y = G (emb y) := by
  obtain ⟨p, j, rfl⟩ : ∃ (p : Fin 5120) (j : Fin 128), y = ix2 p j := ⟨y 0, y 1, eq_ix2 y⟩
  have e0 : (fun k => x0 (ix2 p k)) = r0 p := funext (hr0 p)
  have e1 : (fun k => x1 (ix2 p k)) = r1 p := funext (hr1 p)
  have e2 : (fun k => x2 (ix2 p k)) = r2 p := funext (hr2 p)
  rw [hG p j, ← e0, ← e1, ← e2]
  exact edge_block x0 x1 x2 x3 x4 x5 x6 x7 x8 x9 x10 x11 x12 p j W1 h3 h4 h5 b1 h6 W2 h7 b2 h8 W3 h9 b3 h10 g h11 be h12

/-- WHAT POINT `t` WRITES BACK is block `t` of the edge network of the arrays' rows. -/
theorem flushed0_13 (c : Dev nD) (W1 : Mat 384) (h3 : ∀ k j : Fin 128, (V c main_v8 : Vec Ideal S128x128 .f32) (ix2 k j) = W1 (ix2 ⟨0 + k.val, by omega⟩ j))
    (h4 : ∀ k j : Fin 128, (V c main_v9 : Vec Ideal S128x128 .f32) (ix2 k j) = W1 (ix2 ⟨128 + k.val, by omega⟩ j))
    (h5 : ∀ k j : Fin 128, (V c main_v10 : Vec Ideal S128x128 .f32) (ix2 k j) = W1 (ix2 ⟨256 + k.val, by omega⟩ j))
    (b1 : Vec1) (h6 : ∀ q : Fin 128, (V c main_v11 : Vec Ideal S1x128 .f32) (ix2 (0 : Fin 1) q) = b1 (ix1 q))
    (W2 : Mat 128) (h7 : ∀ k j : Fin 128, (V c main_arg5 : Vec Ideal S128x128 .f32) (ix2 k j) = W2 (ix2 k j))
    (b2 : Vec1) (h8 : ∀ q : Fin 128, (V c main_v12 : Vec Ideal S1x128 .f32) (ix2 (0 : Fin 1) q) = b2 (ix1 q))
    (W3 : Mat 128) (h9 : ∀ k j : Fin 128, (V c main_arg7 : Vec Ideal S128x128 .f32) (ix2 k j) = W3 (ix2 k j))
    (b3 : Vec1) (h10 : ∀ q : Fin 128, (V c main_v13 : Vec Ideal S1x128 .f32) (ix2 (0 : Fin 1) q) = b3 (ix1 q))
    (g : Vec1) (h11 : ∀ q : Fin 128, (V c main_v14 : Vec Ideal S1x128 .f32) (ix2 (0 : Fin 1) q) = g (ix1 q))
    (be : Vec1) (h12 : ∀ q : Fin 128, (V c main_v15 : Vec Ideal S1x128 .f32) (ix2 (0 : Fin 1) q) = be (ix1 q))
    (t : Fin cfg0.N) :
    (dat0 V c).flushed 13 t = ((cfg0.win 13).blk t).view.read (Elt Ideal) (edgeG V c W1 b1 W2 b2 W3 b3 g be) := by
  show (cfg0.win 13).cut (grid0.coords t) ((dat0 V c).after 13 t) = _
  rw [after0_13]
  funext y
  exact edge_point (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (edgeG V c W1 b1 W2 b2 W3 b3 g be) (((cfg0.win 13).blk t).view.emb)
    W1 (fun k j => (blk0_3 V c t k j).trans (h3 k j)) (fun k j => (blk0_4 V c t k j).trans (h4 k j))
    (fun k j => (blk0_5 V c t k j).trans (h5 k j)) b1 (fun q => (blk0_6 V c t 0 q).trans (h6 q))
    W2 (fun k j => (blk0_7 V c t k j).trans (h7 k j)) b2 (fun q => (blk0_8 V c t 0 q).trans (h8 q))
    W3 (fun k j => (blk0_9 V c t k j).trans (h9 k j)) b3 (fun q => (blk0_10 V c t 0 q).trans (h10 q))
    g (fun q => (blk0_11 V c t 0 q).trans (h11 q)) be (fun q => (blk0_12 V c t 0 q).trans (h12 q))
    (fun p k => (V c main_arg2 : Vec Ideal S640000x128 .f32) (ix2 (⟨t.val * 5120 + p.val, by have := t.isLt; have := p.isLt; have hN : cfg0.N = 125 := N_0; omega⟩ : Fin 640000) k))
    (fun p k => (V c main_v5 : Vec Ideal S640000x128 .bf16) (ix2 (⟨t.val * 5120 + p.val, by have := t.isLt; have := p.isLt; have hN : cfg0.N = 125 := N_0; omega⟩ : Fin 640000) k))
    (fun p k => (V c main_v7 : Vec Ideal S640000x128 .bf16) (ix2 (⟨t.val * 5120 + p.val, by have := t.isLt; have := p.isLt; have hN : cfg0.N = 125 := N_0; omega⟩ : Fin 640000) k))
    (blk0_0 V c t) (blk0_1 V c t) (blk0_2 V c t)
    (fun p j => by rw [emb0_13 t p j, edgeG_ix2]) y

/-- An index of the result array is in point `t`'s block iff each coordinate is in the block's range on its axis. -/
theorem mem_blk0_13 (t : Fin cfg0.N) (i : S640000x128.Idx) :
    i ∈ ((cfg0.win 13).blk t).view.set ↔ ∀ a : Fin 2, win0_13.index t a * S5120x128.size a ≤ (i a).val
      ∧ (i a).val < win0_13.index t a * S5120x128.size a + S5120x128.size a := by
  show i ∈ ((View.whole main_v16).slice (win0_13.rect t)).set ↔ _
  rw [View.set_slice_whole, Rect.mem_set_unit]
  exact Iff.rfl

/-- The 125 blocks tile the result array: row `e` lies in block `e / 5120`. -/
theorem cover0_13' (i : S640000x128.Idx) :
    ∃ t : Fin cfg0.N, (cfg0.win 13).flush t = true ∧ i ∈ ((cfg0.win 13).blk t).view.set := by
  have hi0 : (i 0).val < 640000 := (i 0).isLt
  have hi1 : (i 1).val < 128 := (i 1).isLt
  have hN : cfg0.N = 125 := N_0
  let t : Fin cfg0.N := ⟨(i 0).val / 5120, by omega⟩
  have h0 : win0_13.index t (0 : Fin 2) = (i 0).val / 5120 := (idxRows0 t).2.2.2.2.2.2.1
  have h1 : win0_13.index t (1 : Fin 2) = 0 := (idxRows0 t).2.2.2.2.2.2.2
  refine ⟨t, flush0_13 t, ?_⟩
  rw [mem_blk0_13]
  intro a
  match a with
  | ⟨0, _⟩ =>
    show win0_13.index t (0 : Fin 2) * 5120 ≤ (i 0).val ∧ (i 0).val < win0_13.index t (0 : Fin 2) * 5120 + 5120
    rw [h0]; omega
  | ⟨1, _⟩ =>
    show win0_13.index t (1 : Fin 2) * 128 ≤ (i 1).val ∧ (i 1).val < win0_13.index t (1 : Fin 2) * 128 + 128
    rw [h1]; omega

/-- THE RESULT ARRAY after region 0: the edge network of every edge. -/
theorem arr0_13 (c : Dev nD) (W1 : Mat 384) (h3 : ∀ k j : Fin 128, (V c main_v8 : Vec Ideal S128x128 .f32) (ix2 k j) = W1 (ix2 ⟨0 + k.val, by omega⟩ j))
    (h4 : ∀ k j : Fin 128, (V c main_v9 : Vec Ideal S128x128 .f32) (ix2 k j) = W1 (ix2 ⟨128 + k.val, by omega⟩ j))
    (h5 : ∀ k j : Fin 128, (V c main_v10 : Vec Ideal S128x128 .f32) (ix2 k j) = W1 (ix2 ⟨256 + k.val, by omega⟩ j))
    (b1 : Vec1) (h6 : ∀ q : Fin 128, (V c main_v11 : Vec Ideal S1x128 .f32) (ix2 (0 : Fin 1) q) = b1 (ix1 q))
    (W2 : Mat 128) (h7 : ∀ k j : Fin 128, (V c main_arg5 : Vec Ideal S128x128 .f32) (ix2 k j) = W2 (ix2 k j))
    (b2 : Vec1) (h8 : ∀ q : Fin 128, (V c main_v12 : Vec Ideal S1x128 .f32) (ix2 (0 : Fin 1) q) = b2 (ix1 q))
    (W3 : Mat 128) (h9 : ∀ k j : Fin 128, (V c main_arg7 : Vec Ideal S128x128 .f32) (ix2 k j) = W3 (ix2 k j))
    (b3 : Vec1) (h10 : ∀ q : Fin 128, (V c main_v13 : Vec Ideal S1x128 .f32) (ix2 (0 : Fin 1) q) = b3 (ix1 q))
    (g : Vec1) (h11 : ∀ q : Fin 128, (V c main_v14 : Vec Ideal S1x128 .f32) (ix2 (0 : Fin 1) q) = g (ix1 q))
    (be : Vec1) (h12 : ∀ q : Fin 128, (V c main_v15 : Vec Ideal S1x128 .f32) (ix2 (0 : Fin 1) q) = be (ix1 q)) :
    (dat0 V c).arrAt 13 cfg0.N = edgeG V c W1 b1 W2 b2 W3 b3 g be :=
  (dat0 V c).arrAt_eq_of_cover 13 (edgeG V c W1 b1 W2 b2 W3 b3 g be)
    (fun t _ => flushed0_13 V c W1 h3 h4 h5 b1 h6 W2 h7 b2 h8 W3 h9 b3 h10 g h11 be h12 t) (cover0_13')

end Cert.KernelIdeal.KArr

end
-- ==== Proof.KOperands.lean ====
import proofs.«412242_j86088324481849_2_alg».proof.Proof.Gen.KernelIdeal.Frame
import Idealize.ShloMosaic.Lib.StableHlo.Run

/-!
# What each region finds in its operand arrays, as terms of the launch memory

The program runs five stretches of host operations, then region 0, then one more stretch, then region 1. The
contents of the TensorCore's buffers at each boundary are a fold of the stretches over the launch memory `m`.
Here that fold is read at every array a region stages through an input window: each is either an argument of
the program untouched (no stretch and no region writes it), or the composed term of the few host operations that
produced it — a slice of a weight matrix, a bias recast from `[128]` to `[1,128]`, the fill-mode gather of
node rows by one row of the edge list rounded to bf16, and, for region 1, the scatter-add of region 0's result
into a zero array.
-/

set_option maxRecDepth 16384

noncomputable section

namespace Cert.KernelIdeal.KOperands

open Idealize.ShloMosaic Idealize.ShloMosaic.TcCoe
open Cert.KernelIdeal
open Facts₀ Facts

variable {F : FTy → Type} [FloatOps F]
variable (m : (ℓ : Loc nD τ sig) → Buf (Elt F) ℓ) (ρ : Dev nD → PrngReg)

/-- One stretch of host operations that does not write a buffer leaves its contents as they were: every
    operation of a stretch writes exactly one buffer, and that buffer is a different reference. -/
local macro "stretch_keeps" : tactic => `(tactic| (
  refine StableHlo.after_of_forall_not_mem _ _ (List.forall_iff_forall_mem.mp ?_)
  simp only [Gen.hostOps0, Gen.hostOps0_1, Gen.hostOps0_2, Gen.hostOps0_3, Gen.hostOps0_4, Gen.hostOps1,
    List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments are never written

No stretch before region 0 writes an argument of the program, and region 0 writes only its result array, so an
argument's buffer holds the launch contents when region 0 is entered and still when region 0 is left. -/

theorem W5_arg0 (c : Dev nD) : Gen.W5 m ρ c (Proc.devRef .tc main_arg0) = m ((c : Thread nD τ).loc main_arg0) :=
  calc Gen.W5 m ρ c (Proc.devRef .tc main_arg0)
    _ = Gen.W4 m ρ c (Proc.devRef .tc main_arg0) := by stretch_keeps
    _ = Gen.W3 m ρ c (Proc.devRef .tc main_arg0) := by stretch_keeps
    _ = Gen.W2 m ρ c (Proc.devRef .tc main_arg0) := by stretch_keeps
    _ = Gen.W1 m ρ c (Proc.devRef .tc main_arg0) := by stretch_keeps
    _ = Gen.W0 m ρ c (Proc.devRef .tc main_arg0) := by stretch_keeps
    _ = m ((c : Thread nD τ).loc main_arg0) := rfl

theorem W5_arg2 (c : Dev nD) : Gen.W5 m ρ c (Proc.devRef .tc main_arg2) = m ((c : Thread nD τ).loc main_arg2) :=
  calc Gen.W5 m ρ c (Proc.devRef .tc main_arg2)
    _ = Gen.W4 m ρ c (Proc.devRef .tc main_arg2) := by stretch_keeps
    _ = Gen.W3 m ρ c (Proc.devRef .tc main_arg2) := by stretch_keeps
    _ = Gen.W2 m ρ c (Proc.devRef .tc main_arg2) := by stretch_keeps
    _ = Gen.W1 m ρ c (Proc.devRef .tc main_arg2) := by stretch_keeps
    _ = Gen.W0 m ρ c (Proc.devRef .tc main_arg2) := by stretch_keeps
    _ = m ((c : Thread nD τ).loc main_arg2) := rfl

theorem W5_arg3 (c : Dev nD) : Gen.W5 m ρ c (Proc.devRef .tc main_arg3) = m ((c : Thread nD τ).loc main_arg3) :=
  calc Gen.W5 m ρ c (Proc.devRef .tc main_arg3)
    _ = Gen.W4 m ρ c (Proc.devRef .tc main_arg3) := by stretch_keeps
    _ = Gen.W3 m ρ c (Proc.devRef .tc main_arg3) := by stretch_keeps
    _ = Gen.W2 m ρ c (Proc.devRef .tc main_arg3) := by stretch_keeps
    _ = Gen.W1 m ρ c (Proc.devRef .tc main_arg3) := by stretch_keeps
    _ = Gen.W0 m ρ c (Proc.devRef .tc main_arg3) := by stretch_keeps
    _ = m ((c : Thread nD τ).loc main_arg3) := rfl

theorem W5_arg4 (c : Dev nD) : Gen.W5 m ρ c (Proc.devRef .tc main_arg4) = m ((c : Thread nD τ).loc main_arg4) :=
  calc Gen.W5 m ρ c (Proc.devRef .tc main_arg4)
    _ = Gen.W4 m ρ c (Proc.devRef .tc main_arg4) := by stretch_keeps
    _ = Gen.W3 m ρ c (Proc.devRef .tc main_arg4) := by stretch_keeps
    _ = Gen.W2 m ρ c (Proc.devRef .tc main_arg4) := by stretch_keeps
    _ = Gen.W1 m ρ c (Proc.devRef .tc main_arg4) := by stretch_keeps
    _ = Gen.W0 m ρ c (Proc.devRef .tc main_arg4) := by stretch_keeps
    _ = m ((c : Thread nD τ).loc main_arg4) := rfl

theorem W5_arg5 (c : Dev nD) : Gen.W5 m ρ c (Proc.devRef .tc main_arg5) = m ((c : Thread nD τ).loc main_arg5) :=
  calc Gen.W5 m ρ c (Proc.devRef .tc main_arg5)
    _ = Gen.W4 m ρ c (Proc.devRef .tc main_arg5) := by stretch_keeps
    _ = Gen.W3 m ρ c (Proc.devRef .tc main_arg5) := by stretch_keeps
    _ = Gen.W2 m ρ c (Proc.devRef .tc main_arg5) := by stretch_keeps
    _ = Gen.W1 m ρ c (Proc.devRef .tc main_arg5) := by stretch_keeps
    _ = Gen.W0 m ρ c (Proc.devRef .tc main_arg5) := by stretch_keeps
    _ = m ((c : Thread nD τ).loc main_arg5) := rfl

theorem W5_arg6 (c : Dev nD) : Gen.W5 m ρ c (Proc.devRef .tc main_arg6) = m ((c : Thread nD τ).loc main_arg6) :=
  calc Gen.W5 m ρ c (Proc.devRef .tc main_arg6)
    _ = Gen.W4 m ρ c (Proc.devRef .tc main_arg6) := by stretch_keeps
    _ = Gen.W3 m ρ c (Proc.devRef .tc main_arg6) := by stretch_keeps
    _ = Gen.W2 m ρ c (Proc.devRef .tc main_arg6) := by stretch_keeps
    _ = Gen.W1 m ρ c (Proc.devRef .tc main_arg6) := by stretch_keeps
    _ = Gen.W0 m ρ c (Proc.devRef .tc main_arg6) := by stretch_keeps
    _ = m ((c : Thread nD τ).loc main_arg6) := rfl

theorem W5_arg7 (c : Dev nD) : Gen.W5 m ρ c (Proc.devRef .tc main_arg7) = m ((c : Thread nD τ).loc main_arg7) :=
  calc Gen.W5 m ρ c (Proc.devRef .tc main_arg7)
    _ = Gen.W4 m ρ c (Proc.devRef .tc main_arg7) := by stretch_keeps
    _ = Gen.W3 m ρ c (Proc.devRef .tc main_arg7) := by stretch_keeps
    _ = Gen.W2 m ρ c (Proc.devRef .tc main_arg7) := by stretch_keeps
    _ = Gen.W1 m ρ c (Proc.devRef .tc main_arg7) := by stretch_keeps
    _ = Gen.W0 m ρ c (Proc.devRef .tc main_arg7) := by stretch_keeps
    _ = m ((c : Thread nD τ).loc main_arg7) := rfl

theorem W5_arg8 (c : Dev nD) : Gen.W5 m ρ c (Proc.devRef .tc main_arg8) = m ((c : Thread nD τ).loc main_arg8) :=
  calc Gen.W5 m ρ c (Proc.devRef .tc main_arg8)
    _ = Gen.W4 m ρ c (Proc.devRef .tc main_arg8) := by stretch_keeps
    _ = Gen.W3 m ρ c (Proc.devRef .tc main_arg8) := by stretch_keeps
    _ = Gen.W2 m ρ c (Proc.devRef .tc main_arg8) := by stretch_keeps
    _ = Gen.W1 m ρ c (Proc.devRef .tc main_arg8) := by stretch_keeps
    _ = Gen.W0 m ρ c (Proc.devRef .tc main_arg8) := by stretch_keeps
    _ = m ((c : Thread nD τ).loc main_arg8) := rfl

theorem W5_arg9 (c : Dev nD) : Gen.W5 m ρ c (Proc.devRef .tc main_arg9) = m ((c : Thread nD τ).loc main_arg9) :=
  calc Gen.W5 m ρ c (Proc.devRef .tc main_arg9)
    _ = Gen.W4 m ρ c (Proc.devRef .tc main_arg9) := by stretch_keeps
    _ = Gen.W3 m ρ c (Proc.devRef .tc main_arg9) := by stretch_keeps
    _ = Gen.W2 m ρ c (Proc.devRef .tc main_arg9) := by stretch_keeps
    _ = Gen.W1 m ρ c (Proc.devRef .tc main_arg9) := by stretch_keeps
    _ = Gen.W0 m ρ c (Proc.devRef .tc main_arg9) := by stretch_keeps
    _ = m ((c : Thread nD τ).loc main_arg9) := rfl

theorem W5_arg10 (c : Dev nD) : Gen.W5 m ρ c (Proc.devRef .tc main_arg10) = m ((c : Thread nD τ).loc main_arg10) :=
  calc Gen.W5 m ρ c (Proc.devRef .tc main_arg10)
    _ = Gen.W4 m ρ c (Proc.devRef .tc main_arg10) := by stretch_keeps
    _ = Gen.W3 m ρ c (Proc.devRef .tc main_arg10) := by stretch_keeps
    _ = Gen.W2 m ρ c (Proc.devRef .tc main_arg10) := by stretch_keeps
    _ = Gen.W1 m ρ c (Proc.devRef .tc main_arg10) := by stretch_keeps
    _ = Gen.W0 m ρ c (Proc.devRef .tc main_arg10) := by stretch_keeps
    _ = m ((c : Thread nD τ).loc main_arg10) := rfl

theorem W5_arg11 (c : Dev nD) : Gen.W5 m ρ c (Proc.devRef .tc main_arg11) = m ((c : Thread nD τ).loc main_arg11) :=
  calc Gen.W5 m ρ c (Proc.devRef .tc main_arg11)
    _ = Gen.W4 m ρ c (Proc.devRef .tc main_arg11) := by stretch_keeps
    _ = Gen.W3 m ρ c (Proc.devRef .tc main_arg11) := by stretch_keeps
    _ = Gen.W2 m ρ c (Proc.devRef .tc main_arg11) := by stretch_keeps
    _ = Gen.W1 m ρ c (Proc.devRef .tc main_arg11) := by stretch_keeps
    _ = Gen.W0 m ρ c (Proc.devRef .tc main_arg11) := by stretch_keeps
    _ = m ((c : Thread nD τ).loc main_arg11) := rfl

theorem W5_arg12 (c : Dev nD) : Gen.W5 m ρ c (Proc.devRef .tc main_arg12) = m ((c : Thread nD τ).loc main_arg12) :=
  calc Gen.W5 m ρ c (Proc.devRef .tc main_arg12)
    _ = Gen.W4 m ρ c (Proc.devRef .tc main_arg12) := by stretch_keeps
    _ = Gen.W3 m ρ c (Proc.devRef .tc main_arg12) := by stretch_keeps
    _ = Gen.W2 m ρ c (Proc.devRef .tc main_arg12) := by stretch_keeps
    _ = Gen.W1 m ρ c (Proc.devRef .tc main_arg12) := by stretch_keeps
    _ = Gen.W0 m ρ c (Proc.devRef .tc main_arg12) := by stretch_keeps
    _ = m ((c : Thread nD τ).loc main_arg12) := rfl

theorem W5_arg13 (c : Dev nD) : Gen.W5 m ρ c (Proc.devRef .tc main_arg13) = m ((c : Thread nD τ).loc main_arg13) :=
  calc Gen.W5 m ρ c (Proc.devRef .tc main_arg13)
    _ = Gen.W4 m ρ c (Proc.devRef .tc main_arg13) := by stretch_keeps
    _ = Gen.W3 m ρ c (Proc.devRef .tc main_arg13) := by stretch_keeps
    _ = Gen.W2 m ρ c (Proc.devRef .tc main_arg13) := by stretch_keeps
    _ = Gen.W1 m ρ c (Proc.devRef .tc main_arg13) := by stretch_keeps
    _ = Gen.W0 m ρ c (Proc.devRef .tc main_arg13) := by stretch_keeps
    _ = m ((c : Thread nD τ).loc main_arg13) := rfl

theorem W5_arg14 (c : Dev nD) : Gen.W5 m ρ c (Proc.devRef .tc main_arg14) = m ((c : Thread nD τ).loc main_arg14) :=
  calc Gen.W5 m ρ c (Proc.devRef .tc main_arg14)
    _ = Gen.W4 m ρ c (Proc.devRef .tc main_arg14) := by stretch_keeps
    _ = Gen.W3 m ρ c (Proc.devRef .tc main_arg14) := by stretch_keeps
    _ = Gen.W2 m ρ c (Proc.devRef .tc main_arg14) := by stretch_keeps
    _ = Gen.W1 m ρ c (Proc.devRef .tc main_arg14) := by stretch_keeps
    _ = Gen.W0 m ρ c (Proc.devRef .tc main_arg14) := by stretch_keeps
    _ = m ((c : Thread nD τ).loc main_arg14) := rfl

theorem W5_arg15 (c : Dev nD) : Gen.W5 m ρ c (Proc.devRef .tc main_arg15) = m ((c : Thread nD τ).loc main_arg15) :=
  calc Gen.W5 m ρ c (Proc.devRef .tc main_arg15)
    _ = Gen.W4 m ρ c (Proc.devRef .tc main_arg15) := by stretch_keeps
    _ = Gen.W3 m ρ c (Proc.devRef .tc main_arg15) := by stretch_keeps
    _ = Gen.W2 m ρ c (Proc.devRef .tc main_arg15) := by stretch_keeps
    _ = Gen.W1 m ρ c (Proc.devRef .tc main_arg15) := by stretch_keeps
    _ = Gen.W0 m ρ c (Proc.devRef .tc main_arg15) := by stretch_keeps
    _ = m ((c : Thread nD τ).loc main_arg15) := rfl

theorem W5_arg16 (c : Dev nD) : Gen.W5 m ρ c (Proc.devRef .tc main_arg16) = m ((c : Thread nD τ).loc main_arg16) :=
  calc Gen.W5 m ρ c (Proc.devRef .tc main_arg16)
    _ = Gen.W4 m ρ c (Proc.devRef .tc main_arg16) := by stretch_keeps
    _ = Gen.W3 m ρ c (Proc.devRef .tc main_arg16) := by stretch_keeps
    _ = Gen.W2 m ρ c (Proc.devRef .tc main_arg16) := by stretch_keeps
    _ = Gen.W1 m ρ c (Proc.devRef .tc main_arg16) := by stretch_keeps
    _ = Gen.W0 m ρ c (Proc.devRef .tc main_arg16) := by stretch_keeps
    _ = m ((c : Thread nD τ).loc main_arg16) := rfl

theorem W5_arg17 (c : Dev nD) : Gen.W5 m ρ c (Proc.devRef .tc main_arg17) = m ((c : Thread nD τ).loc main_arg17) :=
  calc Gen.W5 m ρ c (Proc.devRef .tc main_arg17)
    _ = Gen.W4 m ρ c (Proc.devRef .tc main_arg17) := by stretch_keeps
    _ = Gen.W3 m ρ c (Proc.devRef .tc main_arg17) := by stretch_keeps
    _ = Gen.W2 m ρ c (Proc.devRef .tc main_arg17) := by stretch_keeps
    _ = Gen.W1 m ρ c (Proc.devRef .tc main_arg17) := by stretch_keeps
    _ = Gen.W0 m ρ c (Proc.devRef .tc main_arg17) := by stretch_keeps
    _ = m ((c : Thread nD τ).loc main_arg17) := rfl

theorem W5_arg18 (c : Dev nD) : Gen.W5 m ρ c (Proc.devRef .tc main_arg18) = m ((c : Thread nD τ).loc main_arg18) :=
  calc Gen.W5 m ρ c (Proc.devRef .tc main_arg18)
    _ = Gen.W4 m ρ c (Proc.devRef .tc main_arg18) := by stretch_keeps
    _ = Gen.W3 m ρ c (Proc.devRef .tc main_arg18) := by stretch_keeps
    _ = Gen.W2 m ρ c (Proc.devRef .tc main_arg18) := by stretch_keeps
    _ = Gen.W1 m ρ c (Proc.devRef .tc main_arg18) := by stretch_keeps
    _ = Gen.W0 m ρ c (Proc.devRef .tc main_arg18) := by stretch_keeps
    _ = m ((c : Thread nD τ).loc main_arg18) := rfl

theorem W6_arg0 (c : Dev nD) : Gen.W6 m ρ c (Proc.devRef .tc main_arg0) = m ((c : Thread nD τ).loc main_arg0) :=
  (Gen.W6_of_ne m ρ c main_arg0 (by decide)).trans (W5_arg0 m ρ c)

theorem W6_arg11 (c : Dev nD) : Gen.W6 m ρ c (Proc.devRef .tc main_arg11) = m ((c : Thread nD τ).loc main_arg11) :=
  (Gen.W6_of_ne m ρ c main_arg11 (by decide)).trans (W5_arg11 m ρ c)

theorem W6_arg12 (c : Dev nD) : Gen.W6 m ρ c (Proc.devRef .tc main_arg12) = m ((c : Thread nD τ).loc main_arg12) :=
  (Gen.W6_of_ne m ρ c main_arg12 (by decide)).trans (W5_arg12 m ρ c)

theorem W6_arg13 (c : Dev nD) : Gen.W6 m ρ c (Proc.devRef .tc main_arg13) = m ((c : Thread nD τ).loc main_arg13) :=
  (Gen.W6_of_ne m ρ c main_arg13 (by decide)).trans (W5_arg13 m ρ c)

theorem W6_arg14 (c : Dev nD) : Gen.W6 m ρ c (Proc.devRef .tc main_arg14) = m ((c : Thread nD τ).loc main_arg14) :=
  (Gen.W6_of_ne m ρ c main_arg14 (by decide)).trans (W5_arg14 m ρ c)

theorem W6_arg15 (c : Dev nD) : Gen.W6 m ρ c (Proc.devRef .tc main_arg15) = m ((c : Thread nD τ).loc main_arg15) :=
  (Gen.W6_of_ne m ρ c main_arg15 (by decide)).trans (W5_arg15 m ρ c)

theorem W6_arg16 (c : Dev nD) : Gen.W6 m ρ c (Proc.devRef .tc main_arg16) = m ((c : Thread nD τ).loc main_arg16) :=
  (Gen.W6_of_ne m ρ c main_arg16 (by decide)).trans (W5_arg16 m ρ c)

theorem W6_arg17 (c : Dev nD) : Gen.W6 m ρ c (Proc.devRef .tc main_arg17) = m ((c : Thread nD τ).loc main_arg17) :=
  (Gen.W6_of_ne m ρ c main_arg17 (by decide)).trans (W5_arg17 m ρ c)

theorem W6_arg18 (c : Dev nD) : Gen.W6 m ρ c (Proc.devRef .tc main_arg18) = m ((c : Thread nD τ).loc main_arg18) :=
  (Gen.W6_of_ne m ρ c main_arg18 (by decide)).trans (W5_arg18 m ρ c)

/-! ## Region 0's input arrays, as region 0 is entered -/

/-- Window 0 stages the edge features, an argument. -/
theorem r0_w0 (c : Dev nD) : (Gen.V5 m ρ c (Pipeline.arrRef spec0 0) : (⟨S640000x128, .f32⟩ : BufTy).Contents (Elt F)) = m ((c : Thread nD τ).loc main_arg2) :=
  W5_arg2 m ρ c

/-- Window 3 stages rows 0 … 127 of the first layer's weights. -/
theorem r0_w3 (c : Dev nD) :
    (Gen.V5 m ρ c (Pipeline.arrRef spec0 3) : (⟨S128x128, .f32⟩ : BufTy).Contents (Elt F))
      = extractStridedSlice S128x128 ![0, 0] (m ((c : Thread nD τ).loc main_arg3)) slices_S384x128_S128x128_0_0 := by
  show Gen.W5 m ρ c (Proc.devRef .tc main_v8) = _
  dsimp only [Gen.W5]
  after_results

/-- Window 4 stages rows 128 … 255 of the first layer's weights. -/
theorem r0_w4 (c : Dev nD) :
    (Gen.V5 m ρ c (Pipeline.arrRef spec0 4) : (⟨S128x128, .f32⟩ : BufTy).Contents (Elt F))
      = extractStridedSlice S128x128 ![128, 0] (m ((c : Thread nD τ).loc main_arg3)) slices_S384x128_S128x128_128_0 := by
  show Gen.W5 m ρ c (Proc.devRef .tc main_v9) = _
  dsimp only [Gen.W5]
  after_results

/-- Window 5 stages rows 256 … 383 of the first layer's weights. -/
theorem r0_w5 (c : Dev nD) :
    (Gen.V5 m ρ c (Pipeline.arrRef spec0 5) : (⟨S128x128, .f32⟩ : BufTy).Contents (Elt F))
      = extractStridedSlice S128x128 ![256, 0] (m ((c : Thread nD τ).loc main_arg3)) slices_S384x128_S128x128_256_0 := by
  show Gen.W5 m ρ c (Proc.devRef .tc main_v10) = _
  dsimp only [Gen.W5]
  after_results

/-- Window 6 stages the first layer's bias, recast from `[128]` to `[1,128]`. -/
theorem r0_w6 (c : Dev nD) :
    (Gen.V5 m ρ c (Pipeline.arrRef spec0 6) : (⟨S1x128, .f32⟩ : BufTy).Contents (Elt F))
      = shapeCast S1x128 (m ((c : Thread nD τ).loc main_arg4)) shapeCasts_S128_S1x128 := by
  show Gen.W5 m ρ c (Proc.devRef .tc main_v11) = _
  dsimp only [Gen.W5]
  after_results
  rfl

/-- Window 7 stages the second layer's weights, an argument. -/
theorem r0_w7 (c : Dev nD) : (Gen.V5 m ρ c (Pipeline.arrRef spec0 7) : (⟨S128x128, .f32⟩ : BufTy).Contents (Elt F)) = m ((c : Thread nD τ).loc main_arg5) :=
  W5_arg5 m ρ c

/-- Window 8 stages the second layer's bias, recast from `[128]` to `[1,128]`. -/
theorem r0_w8 (c : Dev nD) :
    (Gen.V5 m ρ c (Pipeline.arrRef spec0 8) : (⟨S1x128, .f32⟩ : BufTy).Contents (Elt F))
      = shapeCast S1x128 (m ((c : Thread nD τ).loc main_arg6)) shapeCasts_S128_S1x128 := by
  show Gen.W5 m ρ c (Proc.devRef .tc main_v12) = _
  dsimp only [Gen.W5]
  after_results
  rfl

/-- Window 9 stages the third layer's weights, an argument. -/
theorem r0_w9 (c : Dev nD) : (Gen.V5 m ρ c (Pipeline.arrRef spec0 9) : (⟨S128x128, .f32⟩ : BufTy).Contents (Elt F)) = m ((c : Thread nD τ).loc main_arg7) :=
  W5_arg7 m ρ c

/-- Window 10 stages the third layer's bias, recast from `[128]` to `[1,128]`. -/
theorem r0_w10 (c : Dev nD) :
    (Gen.V5 m ρ c (Pipeline.arrRef spec0 10) : (⟨S1x128, .f32⟩ : BufTy).Contents (Elt F))
      = shapeCast S1x128 (m ((c : Thread nD τ).loc main_arg8)) shapeCasts_S128_S1x128 := by
  show Gen.W5 m ρ c (Proc.devRef .tc main_v13) = _
  dsimp only [Gen.W5]
  after_results
  rfl

/-- Window 11 stages the normalisation's scale, recast from `[128]` to `[1,128]`. -/
theorem r0_w11 (c : Dev nD) :
    (Gen.V5 m ρ c (Pipeline.arrRef spec0 11) : (⟨S1x128, .f32⟩ : BufTy).Contents (Elt F))
      = shapeCast S1x128 (m ((c : Thread nD τ).loc main_arg9)) shapeCasts_S128_S1x128 := by
  show Gen.W5 m ρ c (Proc.devRef .tc main_v14) = _
  dsimp only [Gen.W5]
  after_results
  rfl

/-- Window 12 stages the normalisation's shift, recast from `[128]` to `[1,128]`. -/
theorem r0_w12 (c : Dev nD) :
    (Gen.V5 m ρ c (Pipeline.arrRef spec0 12) : (⟨S1x128, .f32⟩ : BufTy).Contents (Elt F))
      = shapeCast S1x128 (m ((c : Thread nD τ).loc main_arg10)) shapeCasts_S128_S1x128 := by
  show Gen.W5 m ρ c (Proc.devRef .tc main_v15) = _
  dsimp only [Gen.W5]
  after_results
  rfl

/-! ## Region 1's input arrays, as region 1 is entered

The last stretch reads arguments out of the contents region 0 leaves; region 0 writes none of them. -/

/-- Window 0 stages the node features, an argument. -/
theorem r1_w0 (c : Dev nD) : (Gen.V7 m ρ c (Pipeline.arrRef spec1 0) : (⟨S100000x128, .f32⟩ : BufTy).Contents (Elt F)) = m ((c : Thread nD τ).loc main_arg0) :=
  calc Gen.W7 m ρ c (Proc.devRef .tc main_arg0)
    _ = Gen.W6 m ρ c (Proc.devRef .tc main_arg0) := by stretch_keeps
    _ = m ((c : Thread nD τ).loc main_arg0) := W6_arg0 m ρ c

/-- Window 2 stages rows 0 … 127 of the first layer's weights. -/
theorem r1_w2 (c : Dev nD) :
    (Gen.V7 m ρ c (Pipeline.arrRef spec1 2) : (⟨S128x128, .f32⟩ : BufTy).Contents (Elt F))
      = extractStridedSlice S128x128 ![0, 0] (m ((c : Thread nD τ).loc main_arg11)) slices_S256x128_S128x128_0_0 := by
  show Gen.W7 m ρ c (Proc.devRef .tc main_v20) = _
  dsimp only [Gen.W7]
  after_results
  rw [W6_arg11]

/-- Window 3 stages rows 128 … 255 of the first layer's weights. -/
theorem r1_w3 (c : Dev nD) :
    (Gen.V7 m ρ c (Pipeline.arrRef spec1 3) : (⟨S128x128, .f32⟩ : BufTy).Contents (Elt F))
      = extractStridedSlice S128x128 ![128, 0] (m ((c : Thread nD τ).loc main_arg11)) slices_S256x128_S128x128_128_0 := by
  show Gen.W7 m ρ c (Proc.devRef .tc main_v21) = _
  dsimp only [Gen.W7]
  after_results
  rw [W6_arg11]

/-- Window 4 stages the first layer's bias, recast from `[128]` to `[1,128]`. -/
theorem r1_w4 (c : Dev nD) :
    (Gen.V7 m ρ c (Pipeline.arrRef spec1 4) : (⟨S1x128, .f32⟩ : BufTy).Contents (Elt F))
      = shapeCast S1x128 (m ((c : Thread nD τ).loc main_arg12)) shapeCasts_S128_S1x128 := by
  show Gen.W7 m ρ c (Proc.devRef .tc main_v22) = _
  dsimp only [Gen.W7]
  after_results
  rw [W6_arg12]
  rfl

/-- Window 5 stages the second layer's weights, an argument. -/
theorem r1_w5 (c : Dev nD) : (Gen.V7 m ρ c (Pipeline.arrRef spec1 5) : (⟨S128x128, .f32⟩ : BufTy).Contents (Elt F)) = m ((c : Thread nD τ).loc main_arg13) :=
  calc Gen.W7 m ρ c (Proc.devRef .tc main_arg13)
    _ = Gen.W6 m ρ c (Proc.devRef .tc main_arg13) := by stretch_keeps
    _ = m ((c : Thread nD τ).loc main_arg13) := W6_arg13 m ρ c

/-- Window 6 stages the second layer's bias, recast from `[128]` to `[1,128]`. -/
theorem r1_w6 (c : Dev nD) :
    (Gen.V7 m ρ c (Pipeline.arrRef spec1 6) : (⟨S1x128, .f32⟩ : BufTy).Contents (Elt F))
      = shapeCast S1x128 (m ((c : Thread nD τ).loc main_arg14)) shapeCasts_S128_S1x128 := by
  show Gen.W7 m ρ c (Proc.devRef .tc main_v23) = _
  dsimp only [Gen.W7]
  after_results
  rw [W6_arg14]
  rfl

/-- Window 7 stages the third layer's weights, an argument. -/
theorem r1_w7 (c : Dev nD) : (Gen.V7 m ρ c (Pipeline.arrRef spec1 7) : (⟨S128x128, .f32⟩ : BufTy).Contents (Elt F)) = m ((c : Thread nD τ).loc main_arg15) :=
  calc Gen.W7 m ρ c (Proc.devRef .tc main_arg15)
    _ = Gen.W6 m ρ c (Proc.devRef .tc main_arg15) := by stretch_keeps
    _ = m ((c : Thread nD τ).loc main_arg15) := W6_arg15 m ρ c

/-- Window 8 stages the third layer's bias, recast from `[128]` to `[1,128]`. -/
theorem r1_w8 (c : Dev nD) :
    (Gen.V7 m ρ c (Pipeline.arrRef spec1 8) : (⟨S1x128, .f32⟩ : BufTy).Contents (Elt F))
      = shapeCast S1x128 (m ((c : Thread nD τ).loc main_arg16)) shapeCasts_S128_S1x128 := by
  show Gen.W7 m ρ c (Proc.devRef .tc main_v24) = _
  dsimp only [Gen.W7]
  after_results
  rw [W6_arg16]
  rfl

/-- Window 9 stages the normalisation's scale, recast from `[128]` to `[1,128]`. -/
theorem r1_w9 (c : Dev nD) :
    (Gen.V7 m ρ c (Pipeline.arrRef spec1 9) : (⟨S1x128, .f32⟩ : BufTy).Contents (Elt F))
      = shapeCast S1x128 (m ((c : Thread nD τ).loc main_arg17)) shapeCasts_S128_S1x128 := by
  show Gen.W7 m ρ c (Proc.devRef .tc main_v25) = _
  dsimp only [Gen.W7]
  after_results
  rw [W6_arg17]
  rfl

/-- Window 10 stages the normalisation's shift, recast from `[128]` to `[1,128]`. -/
theorem r1_w10 (c : Dev nD) :
    (Gen.V7 m ρ c (Pipeline.arrRef spec1 10) : (⟨S1x128, .f32⟩ : BufTy).Contents (Elt F))
      = shapeCast S1x128 (m ((c : Thread nD τ).loc main_arg18)) shapeCasts_S128_S1x128 := by
  show Gen.W7 m ρ c (Proc.devRef .tc main_v26) = _
  dsimp only [Gen.W7]
  after_results
  rw [W6_arg18]
  rfl

/-! ## Each stretch's results, from any contents `V` it starts at

Stated over an arbitrary valuation, so that a stretch's composed term is computed once, apart from the stretches
before it. -/

/-- The first stretch slices row 0 out of the edge list and recasts it to a vector. -/
theorem row0_of (V : Valuation τ sig (Elt F)) :
    (StableHlo.after Gen.hostOps0 V (Proc.devRef .tc main_v1) : (⟨S640000, .i32⟩ : BufTy).Contents (Elt F))
      = shapeCast S640000 (extractStridedSlice S1x640000 ![0, 0] (V (Proc.devRef .tc main_arg1)) slices_S2x640000_S1x640000_0_0) shapeCasts_S1x640000_S640000 := by
  after_results
  rfl

/-- The first stretch slices row 1 out of the edge list and recasts it to a vector. -/
theorem row1_of (V : Valuation τ sig (Elt F)) :
    (StableHlo.after Gen.hostOps0 V (Proc.devRef .tc main_v3) : (⟨S640000, .i32⟩ : BufTy).Contents (Elt F))
      = shapeCast S640000 (extractStridedSlice S1x640000 ![1, 0] (V (Proc.devRef .tc main_arg1)) slices_S2x640000_S1x640000_1_0) shapeCasts_S1x640000_S640000 := by
  after_results
  rfl

/-- The second stretch is the fill-mode gather of the node features' rows by the index vector in `main_v1`. -/
theorem take0_of (V : Valuation τ sig (Elt F)) :
    (StableHlo.after Gen.hostOps0_1 V (Proc.devRef .tc main_v4) : (⟨S640000x128, .f32⟩ : BufTy).Contents (Elt F))
      = (select (broadcastInDim S640000x128 ![0] bcast_S640000_S640000x128_0 (Host.reduce IntOp.andi (andi (cmpi .sge (broadcastInDim S640000x1 ![0] bcast_S640000_S640000x1_0 (select (cmpi .slt (V (Proc.devRef .tc main_v1)) (broadcastInDim S640000 ![] bcast_S_S640000 (constantI S_ 32 0#32))) (addi (V (Proc.devRef .tc main_v1)) (broadcastInDim S640000 ![] bcast_S_S640000 (constantI S_ 32 100000#32))) (V (Proc.devRef .tc main_v1)))) (broadcastInDim S640000x1 ![] bcast_S_S640000x1 (constantI S_ 32 0#32))) (cmpi .sle (broadcastInDim S640000x1 ![0] bcast_S640000_S640000x1_0 (select (cmpi .slt (V (Proc.devRef .tc main_v1)) (broadcastInDim S640000 ![] bcast_S_S640000 (constantI S_ 32 0#32))) (addi (V (Proc.devRef .tc main_v1)) (broadcastInDim S640000 ![] bcast_S_S640000 (constantI S_ 32 100000#32))) (V (Proc.devRef .tc main_v1)))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (V (Proc.devRef .tc main_arg0)) (broadcastInDim S640000x1 ![0] bcast_S640000_S640000x1_0 (select (cmpi .slt (V (Proc.devRef .tc main_v1)) (broadcastInDim S640000 ![] bcast_S_S640000 (constantI S_ 32 0#32))) (addi (V (Proc.devRef .tc main_v1)) (broadcastInDim S640000 ![] bcast_S_S640000 (constantI S_ 32 100000#32))) (V (Proc.devRef .tc main_v1))))) (broadcastInDim S640000x128 ![] bcast_S_S640000x128 (constant (F := F) S_ .f32 0x7FC00000#32))) := by
  after_results_simp
  simp only [StableHlo.TRef.ofBuf, StableHlo.TRef.toBuf, cast_eq]

/-- The third stretch rounds the first gather to bf16. -/
theorem trunc0_of (V : Valuation τ sig (Elt F)) :
    (StableHlo.after Gen.hostOps0_2 V (Proc.devRef .tc main_v5) : (⟨S640000x128, .bf16⟩ : BufTy).Contents (Elt F))
      = truncf .bf16 (V (Proc.devRef .tc main_v4)) bitsLt_bf16_f32 := by
  after_results

/-- The fourth stretch is the same fill-mode gather by the index vector in `main_v3`. -/
theorem take1_of (V : Valuation τ sig (Elt F)) :
    (StableHlo.after Gen.hostOps0_3 V (Proc.devRef .tc main_v6) : (⟨S640000x128, .f32⟩ : BufTy).Contents (Elt F))
      = (select (broadcastInDim S640000x128 ![0] bcast_S640000_S640000x128_0 (Host.reduce IntOp.andi (andi (cmpi .sge (broadcastInDim S640000x1 ![0] bcast_S640000_S640000x1_0 (select (cmpi .slt (V (Proc.devRef .tc main_v3)) (broadcastInDim S640000 ![] bcast_S_S640000 (constantI S_ 32 0#32))) (addi (V (Proc.devRef .tc main_v3)) (broadcastInDim S640000 ![] bcast_S_S640000 (constantI S_ 32 100000#32))) (V (Proc.devRef .tc main_v3)))) (broadcastInDim S640000x1 ![] bcast_S_S640000x1 (constantI S_ 32 0#32))) (cmpi .sle (broadcastInDim S640000x1 ![0] bcast_S640000_S640000x1_0 (select (cmpi .slt (V (Proc.devRef .tc main_v3)) (broadcastInDim S640000 ![] bcast_S_S640000 (constantI S_ 32 0#32))) (addi (V (Proc.devRef .tc main_v3)) (broadcastInDim S640000 ![] bcast_S_S640000 (constantI S_ 32 100000#32))) (V (Proc.devRef .tc main_v3)))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (V (Proc.devRef .tc main_arg0)) (broadcastInDim S640000x1 ![0] bcast_S640000_S640000x1_0 (select (cmpi .slt (V (Proc.devRef .tc main_v3)) (broadcastInDim S640000 ![] bcast_S_S640000 (constantI S_ 32 0#32))) (addi (V (Proc.devRef .tc main_v3)) (broadcastInDim S640000 ![] bcast_S_S640000 (constantI S_ 32 100000#32))) (V (Proc.devRef .tc main_v3))))) (broadcastInDim S640000x128 ![] bcast_S_S640000x128 (constant (F := F) S_ .f32 0x7FC00000#32))) := by
  after_results_simp
  simp only [StableHlo.TRef.ofBuf, StableHlo.TRef.toBuf, cast_eq]

/-- The fifth stretch first rounds the second gather to bf16. -/
theorem trunc1_of (V : Valuation τ sig (Elt F)) :
    (StableHlo.after Gen.hostOps0_4 V (Proc.devRef .tc main_v7) : (⟨S640000x128, .bf16⟩ : BufTy).Contents (Elt F))
      = truncf .bf16 (V (Proc.devRef .tc main_v6)) bitsLt_bf16_f32 := by
  after_results

/-- The stretch between the regions scatter-adds the rows in `main_v16` into a zero array, at the indices in `main_v3`. -/
theorem scatter_of (V : Valuation τ sig (Elt F)) :
    (StableHlo.after Gen.hostOps1 V (Proc.devRef .tc main_v19) : (⟨S100000x128, .f32⟩ : BufTy).Contents (Elt F))
      = Host.scatterAdd scatter_S100000x128_S640000x1_S640000x128_1_0_0_1 (broadcastInDim S100000x128 ![] bcast_S_S100000x128 (constant (F := F) S_ .f32 0x00000000#32)) (broadcastInDim S640000x1 ![0] bcast_S640000_S640000x1_0 (V (Proc.devRef .tc main_v3))) (V (Proc.devRef .tc main_v16)) := by
  after_results

/-! ## The two index vectors and the node features, along the fold -/

theorem W1_v1 (c : Dev nD) : (Gen.W1 m ρ c (Proc.devRef .tc main_v1) : (⟨S640000, .i32⟩ : BufTy).Contents (Elt F)) = (shapeCast S640000 (extractStridedSlice S1x640000 ![0, 0] (m ((c : Thread nD τ).loc main_arg1)) slices_S2x640000_S1x640000_0_0) shapeCasts_S1x640000_S640000) :=
  row0_of (Gen.W0 m ρ c)

theorem W1_v3 (c : Dev nD) : (Gen.W1 m ρ c (Proc.devRef .tc main_v3) : (⟨S640000, .i32⟩ : BufTy).Contents (Elt F)) = (shapeCast S640000 (extractStridedSlice S1x640000 ![1, 0] (m ((c : Thread nD τ).loc main_arg1)) slices_S2x640000_S1x640000_1_0) shapeCasts_S1x640000_S640000) :=
  row1_of (Gen.W0 m ρ c)

theorem W1_arg0 (c : Dev nD) : Gen.W1 m ρ c (Proc.devRef .tc main_arg0) = m ((c : Thread nD τ).loc main_arg0) :=
  calc Gen.W1 m ρ c (Proc.devRef .tc main_arg0)
    _ = Gen.W0 m ρ c (Proc.devRef .tc main_arg0) := by stretch_keeps
    _ = m ((c : Thread nD τ).loc main_arg0) := rfl

theorem W3_arg0 (c : Dev nD) : Gen.W3 m ρ c (Proc.devRef .tc main_arg0) = m ((c : Thread nD τ).loc main_arg0) :=
  calc Gen.W3 m ρ c (Proc.devRef .tc main_arg0)
    _ = Gen.W2 m ρ c (Proc.devRef .tc main_arg0) := by stretch_keeps
    _ = Gen.W1 m ρ c (Proc.devRef .tc main_arg0) := by stretch_keeps
    _ = m ((c : Thread nD τ).loc main_arg0) := W1_arg0 m ρ c

theorem W3_v3 (c : Dev nD) : (Gen.W3 m ρ c (Proc.devRef .tc main_v3) : (⟨S640000, .i32⟩ : BufTy).Contents (Elt F)) = (shapeCast S640000 (extractStridedSlice S1x640000 ![1, 0] (m ((c : Thread nD τ).loc main_arg1)) slices_S2x640000_S1x640000_1_0) shapeCasts_S1x640000_S640000) :=
  calc Gen.W3 m ρ c (Proc.devRef .tc main_v3)
    _ = Gen.W2 m ρ c (Proc.devRef .tc main_v3) := by stretch_keeps
    _ = Gen.W1 m ρ c (Proc.devRef .tc main_v3) := by stretch_keeps
    _ = (shapeCast S640000 (extractStridedSlice S1x640000 ![1, 0] (m ((c : Thread nD τ).loc main_arg1)) slices_S2x640000_S1x640000_1_0) shapeCasts_S1x640000_S640000) := W1_v3 m ρ c

theorem W6_v3 (c : Dev nD) : (Gen.W6 m ρ c (Proc.devRef .tc main_v3) : (⟨S640000, .i32⟩ : BufTy).Contents (Elt F)) = (shapeCast S640000 (extractStridedSlice S1x640000 ![1, 0] (m ((c : Thread nD τ).loc main_arg1)) slices_S2x640000_S1x640000_1_0) shapeCasts_S1x640000_S640000) :=
  calc Gen.W6 m ρ c (Proc.devRef .tc main_v3)
    _ = Gen.W5 m ρ c (Proc.devRef .tc main_v3) := Gen.W6_of_ne m ρ c main_v3 (by decide)
    _ = Gen.W4 m ρ c (Proc.devRef .tc main_v3) := by stretch_keeps
    _ = Gen.W3 m ρ c (Proc.devRef .tc main_v3) := by stretch_keeps
    _ = (shapeCast S640000 (extractStridedSlice S1x640000 ![1, 0] (m ((c : Thread nD τ).loc main_arg1)) slices_S2x640000_S1x640000_1_0) shapeCasts_S1x640000_S640000) := W3_v3 m ρ c

/-! ## The gathered node rows

Row `r` of the edge list is sliced out and recast to a vector of 640000 indices. The fill-mode gather wraps a
negative index by adding 100000, gathers that row of the node features, and keeps it where the wrapped index lies
in `0 … 99999`, a NaN elsewhere; the result is rounded to bf16. -/

/-- The first gather, before rounding, as a term of the launch memory. -/
theorem W2_v4 (c : Dev nD) :
    (Gen.W2 m ρ c (Proc.devRef .tc main_v4) : (⟨S640000x128, .f32⟩ : BufTy).Contents (Elt F)) = (select (broadcastInDim S640000x128 ![0] bcast_S640000_S640000x128_0 (Host.reduce IntOp.andi (andi (cmpi .sge (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000))) (broadcastInDim S640000x1 ![] bcast_S_S640000x1 (constantI S_ 32 0#32))) (cmpi .sle (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (m ((c : Thread nD τ).loc main_arg0)) (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000)))) (broadcastInDim S640000x128 ![] bcast_S_S640000x128 (constant (F := F) S_ .f32 0x7FC00000#32))) :=
  (take0_of (Gen.W1 m ρ c)).trans (by rw [W1_arg0 m ρ c, W1_v1 m ρ c])

/-- The second gather, before rounding, as a term of the launch memory. -/
theorem W4_v6 (c : Dev nD) :
    (Gen.W4 m ρ c (Proc.devRef .tc main_v6) : (⟨S640000x128, .f32⟩ : BufTy).Contents (Elt F)) = (select (broadcastInDim S640000x128 ![0] bcast_S640000_S640000x128_0 (Host.reduce IntOp.andi (andi (cmpi .sge (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000))) (broadcastInDim S640000x1 ![] bcast_S_S640000x1 (constantI S_ 32 0#32))) (cmpi .sle (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (m ((c : Thread nD τ).loc main_arg0)) (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000)))) (broadcastInDim S640000x128 ![] bcast_S_S640000x128 (constant (F := F) S_ .f32 0x7FC00000#32))) :=
  (take1_of (Gen.W3 m ρ c)).trans (by rw [W3_arg0 m ρ c, W3_v3 m ρ c])

/-- Window 1 stages the node rows gathered by row 0 of the edge list, rounded to bf16. -/
theorem r0_w1 (c : Dev nD) :
    (Gen.V5 m ρ c (Pipeline.arrRef spec0 1) : (⟨S640000x128, .bf16⟩ : BufTy).Contents (Elt F))
      = truncf .bf16 (select (broadcastInDim S640000x128 ![0] bcast_S640000_S640000x128_0 (Host.reduce IntOp.andi (andi (cmpi .sge (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000))) (broadcastInDim S640000x1 ![] bcast_S_S640000x1 (constantI S_ 32 0#32))) (cmpi .sle (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (m ((c : Thread nD τ).loc main_arg0)) (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000)))) (broadcastInDim S640000x128 ![] bcast_S_S640000x128 (constant (F := F) S_ .f32 0x7FC00000#32))) bitsLt_bf16_f32 :=
  calc Gen.W5 m ρ c (Proc.devRef .tc main_v5)
    _ = Gen.W4 m ρ c (Proc.devRef .tc main_v5) := by stretch_keeps
    _ = Gen.W3 m ρ c (Proc.devRef .tc main_v5) := by stretch_keeps
    _ = truncf .bf16 (Gen.W2 m ρ c (Proc.devRef .tc main_v4)) bitsLt_bf16_f32 := trunc0_of (Gen.W2 m ρ c)
    _ = truncf .bf16 (select (broadcastInDim S640000x128 ![0] bcast_S640000_S640000x128_0 (Host.reduce IntOp.andi (andi (cmpi .sge (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000))) (broadcastInDim S640000x1 ![] bcast_S_S640000x1 (constantI S_ 32 0#32))) (cmpi .sle (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (m ((c : Thread nD τ).loc main_arg0)) (broadcastInDim S640000x1 ![0] bcast_S640000_S640000x1_0 (select (cmpi .slt (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast S640000 (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast S640000 (extractStridedSlice S1x640000 ![0, 0] (m ((c : Thread nD τ).loc main_arg1)) slices_S2x640000_S1x640000_0_0) shapeCasts_S1x640000_S640000)))) (broadcastInDim S640000x128 ![] bcast_S_S640000x128 (constant (F := F) S_ .f32 0x7FC00000#32))) bitsLt_bf16_f32 := by rw [W2_v4 m ρ c]

/-- Window 2 stages the node rows gathered by row 1 of the edge list, rounded to bf16. -/
theorem r0_w2 (c : Dev nD) :
    (Gen.V5 m ρ c (Pipeline.arrRef spec0 2) : (⟨S640000x128, .bf16⟩ : BufTy).Contents (Elt F))
      = truncf .bf16 (select (broadcastInDim S640000x128 ![0] bcast_S640000_S640000x128_0 (Host.reduce IntOp.andi (andi (cmpi .sge (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000))) (broadcastInDim S640000x1 ![] bcast_S_S640000x1 (constantI S_ 32 0#32))) (cmpi .sle (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (m ((c : Thread nD τ).loc main_arg0)) (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000)))) (broadcastInDim S640000x128 ![] bcast_S_S640000x128 (constant (F := F) S_ .f32 0x7FC00000#32))) bitsLt_bf16_f32 :=
  calc Gen.W5 m ρ c (Proc.devRef .tc main_v7)
    _ = truncf .bf16 (Gen.W4 m ρ c (Proc.devRef .tc main_v6)) bitsLt_bf16_f32 := trunc1_of (Gen.W4 m ρ c)
    _ = truncf .bf16 (select (broadcastInDim S640000x128 ![0] bcast_S640000_S640000x128_0 (Host.reduce IntOp.andi (andi (cmpi .sge (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000))) (broadcastInDim S640000x1 ![] bcast_S_S640000x1 (constantI S_ 32 0#32))) (cmpi .sle (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000))) (broadcastInDim S640000x1 ![0, 1] bcast_S1x1_S640000x1_0_1 (broadcastInDim S1x1 ![1] bcast_S1_S1x1_1 (constantI S1 32 99999#32))))) (constantI S_ 1 1#1) reducesTo_S640000x1_S640000_d1 h_S_)) (Host.gather gather_S100000x128_S640000x1_S640000x128_1_0_n_n_0_1_1128 (m ((c : Thread nD τ).loc main_arg0)) (broadcastInDim S640000x1 ![0] bcast_S640000_S640000x1_0 (select (cmpi .slt (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast S640000 (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast S640000 (extractStridedSlice S1x640000 ![1, 0] (m ((c : Thread nD τ).loc main_arg1)) slices_S2x640000_S1x640000_1_0) shapeCasts_S1x640000_S640000)))) (broadcastInDim S640000x128 ![] bcast_S_S640000x128 (constant (F := F) S_ .f32 0x7FC00000#32))) bitsLt_bf16_f32 := by rw [W4_v6 m ρ c]

/-! ## The aggregated edge results

Between the regions, region 0's result rows are added into a zero `[100000,128]` array at the rows named by
row 1 of the edge list. -/

/-- Window 1 of region 1 stages the scatter-add of region 0's result, read where the boundary after region 0 holds it. -/
theorem r1_w1 (c : Dev nD) :
    (Gen.V7 m ρ c (Pipeline.arrRef spec1 1) : (⟨S100000x128, .f32⟩ : BufTy).Contents (Elt F))
      = Host.scatterAdd scatter_S100000x128_S640000x1_S640000x128_1_0_0_1 (broadcastInDim S100000x128 ![] bcast_S_S100000x128 (constant (F := F) S_ .f32 0x00000000#32)) (broadcastInDim S640000x1 ![0] bcast_S640000_S640000x1_0 (shapeCast S640000 (extractStridedSlice S1x640000 ![1, 0] (m ((c : Thread nD τ).loc main_arg1)) slices_S2x640000_S1x640000_1_0) shapeCasts_S1x640000_S640000)) (Gen.W6 m ρ c (Proc.devRef .tc main_v16)) :=
  (scatter_of (Gen.W6 m ρ c)).trans (by rw [W6_v3 m ρ c])

/-- The same, with region 0's result as what its write-backs leave in its output array. -/
theorem r1_w1_arr (c : Dev nD) :
    (Gen.V7 m ρ c (Pipeline.arrRef spec1 1) : (⟨S100000x128, .f32⟩ : BufTy).Contents (Elt F))
      = Host.scatterAdd scatter_S100000x128_S640000x1_S640000x128_1_0_0_1 (broadcastInDim S100000x128 ![] bcast_S_S100000x128 (constant (F := F) S_ .f32 0x00000000#32)) (broadcastInDim S640000x1 ![0] bcast_S640000_S640000x1_0 (shapeCast S640000 (extractStridedSlice S1x640000 ![1, 0] (m ((c : Thread nD τ).loc main_arg1)) slices_S2x640000_S1x640000_1_0) shapeCasts_S1x640000_S640000)) ((Gen.dat0 (Gen.V5 m ρ) c).arrAt 13 cfg0.N) :=
  (r1_w1 m ρ c).trans (by rw [show Gen.W6 m ρ c (Proc.devRef .tc main_v16) = _ from Gen.W6_arr m ρ c 13])

end Cert.KernelIdeal.KOperands
end
-- ==== Proof.TakeMask.lean ====
/-
  The two fill-mode takes of node rows, and the index range under which each is a plain gather.

  One row of the edge index array is a vector `I` of 640000 signed 32-bit words. The take first wraps a negative
  index once, `w e = if I e < 0 then I e + 100000 else I e`, lays `w` out as a column, gathers the rows of the node
  array at that column, and then keeps a gathered row only where the wrapped index lies in `[0, 99999]`, writing
  a not-a-number row elsewhere. When every index satisfies `-100000 ≤ I e < 100000` the wrapped index always
  lies in `[0, 99999]`: for `I e < 0` the sum `I e + 100000` lies in `[0, 100000)` and does not wrap around as a
  32-bit word, and for `I e ≥ 0` the index is unchanged. So the in-range mask is one everywhere, and the take is
  the gather itself. The precondition of the statement gives exactly that range for both rows of the edge index
  array: its last two conjuncts are the two comparisons, each under a conjunction over all entries.
-/
import proofs.«412242_j86088324481849_2_alg».proof.KernelIdeal
import proofs.«412242_j86088324481849_2_alg».proof.Pre_finite_inputs
import proofs.«412242_j86088324481849_2_alg».proof.Proof.Gen.KernelIdeal
import proofs.«412242_j86088324481849_2_alg».proof.Proof.Gen.Pre_finite_inputs
import Idealize.ShloMosaic.Lib.ReduceAll
import Idealize.ShloMosaic.Lib.ValueIdx
import Idealize.ShloMosaic.Lib.Pipeline.Value

noncomputable section

namespace Cert.KernelIdeal.Take

open Idealize.ShloMosaic Idealize.ShloMosaic.ValueIdx
open Cert.KernelIdeal Cert.KernelIdeal.Facts₀ Cert.KernelIdeal.Facts

/-! ## Words: the four constants read signed, and the wrapped index -/

theorem toInt_zero32 : (0#32 : BitVec 32).toInt = 0 := by decide
theorem toInt_max32 : (99999#32 : BitVec 32).toInt = 99999 := by decide
theorem toInt_hi32 : (100000#32 : BitVec 32).toInt = 100000 := by decide
theorem toInt_lo32 : (4294867296#32 : BitVec 32).toInt = -100000 := by decide

/-- An index in `[-100000, 100000)`, wrapped once when negative, lies in `[0, 99999]`: the sum of a negative index
    and 100000 is in `[0, 100000)`, far from the ends of the signed 32-bit range, so the word addition is the
    integer addition. -/
theorem wrap_range (a : BitVec 32) (h : -100000 ≤ a.toInt ∧ a.toInt < 100000) :
    0 ≤ (Scalar.select (IntOp.cmpi .slt a 0#32) (IntOp.addi a 100000#32) a).toInt
      ∧ (Scalar.select (IntOp.cmpi .slt a 0#32) (IntOp.addi a 100000#32) a).toInt ≤ 99999 := by
  by_cases hn : a.toInt < 0
  · have hc : IntOp.cmpi .slt a 0#32 = 1#1 := IntOp.cmpi_slt.2 (by rw [toInt_zero32]; exact hn)
    rw [hc, select_one]
    show 0 ≤ (a + 100000#32).toInt ∧ (a + 100000#32).toInt ≤ 99999
    rw [BitVec.toInt_add, toInt_hi32, Int.bmod_eq_of_le (by omega) (by omega)]
    omega
  · have hc : IntOp.cmpi .slt a 0#32 = 0#1 :=
      eq_zero_of_ne_one fun h1 => hn (by have := IntOp.cmpi_slt.1 h1; rwa [toInt_zero32] at this)
    rw [hc, select_zero]
    omega

/-- A left fold by `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    show l.foldl (fun r n => IntOp.andi r (f n)) (IntOp.andi 1#1 (f a)) = 1#1
    rw [h1]
    exact foldl_andi_ones f hf l

/-- A one-bit mask that is one everywhere stays one everywhere when broadcast. -/
theorem bcast_ones {s t : Shape} (dims : Fin s.rank → Fin t.rank) (h : s.BroadcastsInDim t dims) (m : IVec s 1)
    (hm : ∀ k, m k = 1#1) (j : t.Idx) : broadcastInDim t dims h m j = 1#1 := hm _

variable [Cert.KernelIdeal.Facts]

/-! ## The operations, spelled as the program spells them -/

/-- Row 0 of the edge index array: the slice `[0:1, 0:640000]` reshaped to a vector. -/
def rowIdx0 (a1 : IVec S2x640000 32) : IVec S640000 32 :=
  shapeCast S640000 (extractStridedSlice S1x640000 ![0, 0] a1 slices_S2x640000_S1x640000_0_0) shapeCasts_S1x640000_S640000

/-- Row 1 of the edge index array: the slice `[1:2, 0:640000]` reshaped to a vector. -/
def rowIdx1 (a1 : IVec S2x640000 32) : IVec S640000 32 :=
  shapeCast S640000 (extractStridedSlice S1x640000 ![1, 0] a1 slices_S2x640000_S1x640000_1_0) shapeCasts_S1x640000_S640000

/-- The wrapped indices as a column: `if I e < 0 then I e + 100000 else I e` at `(e, 0)`. -/
def wrapCol (I1 : IVec S640000 32) : IVec S640000x1 32 :=
  broadcastInDim S640000x1 ![0] bcast_S640000_S640000x1_0
    (select (cmpi .slt I1 (broadcastInDim S640000 ![] bcast_S_S640000 (constantI S_ 32 0#32)))
      (addi I1 (broadcastInDim S640000 ![] bcast_S_S640000 (constantI S_ 32 100000#32))) I1)

/-- The fill-mode take: the gathered rows where the wrapped index is in range (`0 ≤ w` and `w ≤ 99999`, conjoined
    along the column's unit axis), a not-a-number row elsewhere. -/
def takeFill (x : FVec Ideal S100000x128 .f32) (I1 : IVec S640000 32) : FVec Ideal S640000x128 .f32 :=
  select (broadcastInDim S640000x128 ![0] bcast_S640000_S640000x128_0
    (Host.reduce IntOp.andi
      (andi (cmpi .sge (wrapCol I1) (broadcastInDim S640000x1 ![] bcast_S_S640000x1 (constantI S_ 32 0#32)))
        (cmpi .sle (wrapCol I1)
          (broadcastInDim S640000x1 ![0, 1] bcast_S1x1_S640000x1_0_1
            (broadcastInDim S1x1 ![1] bcast_S1_S1x1_1 (constantI S1 32 99999#32)))))
      (constantI S_ 1 1#1) reducesTo_S640000x1_S640000_d1 h_S_))
    (Host.gather gather_S100000x128_S640000x1_S640000x128_1_0_n_n_0_1_1128 x (wrapCol I1))
    (broadcastInDim S640000x128 ![] bcast_S_S640000x128 (constant (F := Ideal) S_ .f32 0x7FC00000#32))

/-! ## Under the index range the mask is one and the take is the gather -/

/-- Every entry of the wrapped column lies in `[0, 99999]`. -/
theorem wrapCol_range (I1 : IVec S640000 32)
    (hb : ∀ e : S640000.Idx, -100000 ≤ (I1 e).toInt ∧ (I1 e).toInt < 100000) (n : S640000x1.Idx) :
    0 ≤ (wrapCol I1 n).toInt ∧ (wrapCol I1 n).toInt ≤ 99999 :=
  wrap_range (I1 _) (hb _)

/-- The in-range mask is one at every edge. -/
theorem inRange_one (I1 : IVec S640000 32)
    (hb : ∀ e : S640000.Idx, -100000 ≤ (I1 e).toInt ∧ (I1 e).toInt < 100000) (k : S640000.Idx) :
    (Host.reduce IntOp.andi
      (andi (cmpi .sge (wrapCol I1) (broadcastInDim S640000x1 ![] bcast_S_S640000x1 (constantI S_ 32 0#32)))
        (cmpi .sle (wrapCol I1)
          (broadcastInDim S640000x1 ![0, 1] bcast_S1x1_S640000x1_0_1
            (broadcastInDim S1x1 ![1] bcast_S1_S1x1_1 (constantI S1 32 99999#32)))))
      (constantI S_ 1 1#1) reducesTo_S640000x1_S640000_d1 h_S_) k = 1#1 := by
  rw [Host.reduce_eq_foldl]
  refine foldl_andi_ones _ (fun n => ?_) _
  obtain ⟨h0, h1⟩ := wrapCol_range I1 hb n
  show IntOp.andi (IntOp.cmpi .sge (wrapCol I1 n) 0#32) (IntOp.cmpi .sle (wrapCol I1 n) 99999#32) = 1#1
  rw [IntOp.cmpi_sge.2 (by rw [toInt_zero32]; exact h0), IntOp.cmpi_sle.2 (by rw [toInt_max32]; exact h1)]
  decide

/-- With every index in `[-100000, 100000)` the fill-mode take is the gather at the wrapped column. -/
theorem takeFill_eq_gather (x : FVec Ideal S100000x128 .f32) (I1 : IVec S640000 32)
    (hb : ∀ e : S640000.Idx, -100000 ≤ (I1 e).toInt ∧ (I1 e).toInt < 100000) :
    takeFill x I1 = Host.gather gather_S100000x128_S640000x1_S640000x128_1_0_n_n_0_1_1128 x (wrapCol I1) := by
  funext i
  unfold takeFill
  rw [select_apply, bcast_ones _ _ _ (inRange_one I1 hb) i, select_one]

/-! ## The two rows of the edge index array, entry by entry -/

/-- Entry `e` of row 0 is the array's entry `(0, e)`. -/
theorem rowIdx0_apply (a1 : IVec S2x640000 32) (e : Fin 640000) : rowIdx0 a1 (ix1 e) = a1 (ix2 (0 : Fin 2) e) := by
  unfold rowIdx0
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · refine extractStridedSlice_apply ![0, 0] a1 slices_S2x640000_S1x640000_0_0 (ix2 (0 : Fin 1) e) (ix2 (0 : Fin 2) e) fun a => ?_
    match a with
    | ⟨0, _⟩ => rfl
    | ⟨1, _⟩ => exact (Nat.zero_add _).symm

/-- Entry `e` of row 1 is the array's entry `(1, e)`. -/
theorem rowIdx1_apply (a1 : IVec S2x640000 32) (e : Fin 640000) : rowIdx1 a1 (ix1 e) = a1 (ix2 (1 : Fin 2) e) := by
  unfold rowIdx1
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · refine extractStridedSlice_apply ![1, 0] a1 slices_S2x640000_S1x640000_1_0 (ix2 (0 : Fin 1) e) (ix2 (1 : Fin 2) e) fun a => ?_
    match a with
    | ⟨0, _⟩ => rfl
    | ⟨1, _⟩ => exact (Nat.zero_add _).symm

/-! ## The index range, from the precondition -/

section Pre
variable [Cert.Pre_finite_inputs.Facts]

/-- The precondition's last two conjuncts: every entry of the edge index array lies in `[-100000, 100000)`. The
    precondition is a chain of conjunctions whose last two members are the comparisons `a1 ≥ -100000` and
    `a1 < 100000`, each conjoined over all entries; the chain being one, each of the two is one, so each
    comparison is one at every entry. -/
theorem bounds_of_pre (a0 : FVec Ideal S100000x128 .f32) (a1 : IVec S2x640000 32) (a2 : FVec Ideal S640000x128 .f32)
    (a3 : FVec Ideal S384x128 .f32) (a4 : FVec Ideal S128 .f32) (a5 : FVec Ideal S128x128 .f32) (a6 : FVec Ideal S128 .f32)
    (a7 : FVec Ideal S128x128 .f32) (a8 a9 a10 : FVec Ideal S128 .f32) (a11 : FVec Ideal S256x128 .f32)
    (a12 : FVec Ideal S128 .f32) (a13 : FVec Ideal S128x128 .f32) (a14 : FVec Ideal S128 .f32)
    (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1)) :
    ∀ i : S2x640000.Idx, -100000 ≤ (a1 i).toInt ∧ (a1 i).toInt < 100000 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h92, h95⟩ := IntOp.andi_eq_one.1 h0
  obtain ⟨_, h91⟩ := IntOp.andi_eq_one.1 h92
  haveI : Subsingleton Cert.Pre_finite_inputs.S_.Idx := ⟨fun a b => funext fun d => d.elim0⟩
  intro i
  have e1 := Host.reduce_andi_all _ _ _ _ _ h91 i
  have e2 := Host.reduce_andi_all _ _ _ _ _ h95 i
  have g1 : IntOp.cmpi .sge (a1 i) 4294867296#32 = 1#1 := e1
  have g2 : IntOp.cmpi .slt (a1 i) 100000#32 = 1#1 := e2
  have l1 := IntOp.cmpi_sge.1 g1
  have l2 := IntOp.cmpi_slt.1 g2
  rw [toInt_lo32] at l1
  rw [toInt_hi32] at l2
  exact ⟨l1, l2⟩

/-- Under the precondition, the take along row 0 of the edge index array is the gather. -/
theorem takeFill_row0_of_pre (a0 : FVec Ideal S100000x128 .f32) (a1 : IVec S2x640000 32) (a2 : FVec Ideal S640000x128 .f32)
    (a3 : FVec Ideal S384x128 .f32) (a4 : FVec Ideal S128 .f32) (a5 : FVec Ideal S128x128 .f32) (a6 : FVec Ideal S128 .f32)
    (a7 : FVec Ideal S128x128 .f32) (a8 a9 a10 : FVec Ideal S128 .f32) (a11 : FVec Ideal S256x128 .f32)
    (a12 : FVec Ideal S128 .f32) (a13 : FVec Ideal S128x128 .f32) (a14 : FVec Ideal S128 .f32)
    (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1)) :
    takeFill a0 (rowIdx0 a1)
      = Host.gather gather_S100000x128_S640000x1_S640000x128_1_0_n_n_0_1_1128 a0 (wrapCol (rowIdx0 a1)) :=
  takeFill_eq_gather a0 (rowIdx0 a1) fun e => by
    obtain ⟨p, rfl⟩ : ∃ p : Fin 640000, e = ix1 p := ⟨e 0, eq_ix1 e⟩
    rw [rowIdx0_apply]
    exact bounds_of_pre a0 a1 a2 a3 a4 a5 a6 a7 a8 a9 a10 a11 a12 a13 a14 a15 a16 a17 a18 h _

/-- Under the precondition, the take along row 1 of the edge index array is the gather. -/
theorem takeFill_row1_of_pre (a0 : FVec Ideal S100000x128 .f32) (a1 : IVec S2x640000 32) (a2 : FVec Ideal S640000x128 .f32)
    (a3 : FVec Ideal S384x128 .f32) (a4 : FVec Ideal S128 .f32) (a5 : FVec Ideal S128x128 .f32) (a6 : FVec Ideal S128 .f32)
    (a7 : FVec Ideal S128x128 .f32) (a8 a9 a10 : FVec Ideal S128 .f32) (a11 : FVec Ideal S256x128 .f32)
    (a12 : FVec Ideal S128 .f32) (a13 : FVec Ideal S128x128 .f32) (a14 : FVec Ideal S128 .f32)
    (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1)) :
    takeFill a0 (rowIdx1 a1)
      = Host.gather gather_S100000x128_S640000x1_S640000x128_1_0_n_n_0_1_1128 a0 (wrapCol (rowIdx1 a1)) :=
  takeFill_eq_gather a0 (rowIdx1 a1) fun e => by
    obtain ⟨p, rfl⟩ : ∃ p : Fin 640000, e = ix1 p := ⟨e 0, eq_ix1 e⟩
    rw [rowIdx1_apply]
    exact bounds_of_pre a0 a1 a2 a3 a4 a5 a6 a7 a8 a9 a10 a11 a12 a13 a14 a15 a16 a17 a18 h _

end Pre

end Cert.KernelIdeal.Take

end
-- ==== Proof.RefEdge.lean ====
/-
  The reference's edge network, read one edge at a time.

  The reference computes its edge result for all 640000 edges at once. It lays the edge's own features and the two
  gathered node rows side by side into a row of 384 entries, multiplies that row by the first weight matrix, adds the
  bias and rectifies; applies two more affine layers, the first of them rectified; and normalises each row: it
  subtracts the row's mean, multiplies by the reciprocal square root of the row's variance plus a small constant,
  scales by one vector and shifts by another. Every one of these operations acts on each row by itself, so the
  result at the index (e, j) is the specification's edge network applied to row e of the three inputs. The sum over
  the 384-entry row splits into the three 128-entry sums of the specification's first layer (a finite sum in a
  commutative monoid splits at any point); everything after it is the same arithmetic, term by term.

  The two gathers are left as they stand: only their row e enters, as a row of 128 extended reals.
-/
import proofs.«412242_j86088324481849_2_alg».proof.Proof.Gen.ReferenceIdeal.Read
import proofs.«412242_j86088324481849_2_alg».proof.Proof.Spec
import proofs.«412242_j86088324481849_2_alg».proof.Proof.LibRowOps

noncomputable section

namespace Cert.ReferenceIdeal.RefValue

open Cert.ReferenceIdeal Cert.ReferenceIdeal.Read Cert.GNN Idealize.ShloMosaic Idealize.ShloMosaic.ValueIdx
open scoped BigOperators

/-! ## Three rows of 128 entries side by side

A [n, 384] array made of three [n, 128] arrays joined along the columns reads, at column o + k with o one of
0, 128, 256 and k below 128, the first, second or third array at column k of the same row. -/

section Cat
variable {α : Type} {n : ℕ}

/-- Columns 0 to 127 come from the first array. -/
theorem edge_cat3_first (a b c : (⟨2, ![n, 128]⟩ : Shape).Idx → α)
    (h : Shape.Concatenates [(⟨2, ![n, 128]⟩ : Shape), ⟨2, ![n, 128]⟩, ⟨2, ![n, 128]⟩] ⟨2, ![n, 384]⟩ 1) (p : Fin n) (k : Fin 128) :
    concatenate ⟨2, ![n, 384]⟩ 1 [⟨⟨2, ![n, 128]⟩, a⟩, ⟨⟨2, ![n, 128]⟩, b⟩, ⟨⟨2, ![n, 128]⟩, c⟩] h
        (ix2 p (⟨0 + k.val, by omega⟩ : Fin 384)) = a (ix2 p k) :=
  concatenate_apply_piece 1 [⟨⟨2, ![n, 128]⟩, a⟩, ⟨⟨2, ![n, 128]⟩, b⟩, ⟨⟨2, ![n, 128]⟩, c⟩] h
    (ix2 p (⟨0 + k.val, by omega⟩ : Fin 384)) 0 (by simp) ⟨2, ![n, 128]⟩ a rfl rfl 0 rfl (ix2 p k)
    (fun bb hb => by match bb with | ⟨0, _⟩ => rfl | ⟨1, _⟩ => exact absurd rfl hb)
    (by show 0 + k.val = 0 + k.val; rfl)

/-- Columns 128 to 255 come from the second array. -/
theorem edge_cat3_second (a b c : (⟨2, ![n, 128]⟩ : Shape).Idx → α)
    (h : Shape.Concatenates [(⟨2, ![n, 128]⟩ : Shape), ⟨2, ![n, 128]⟩, ⟨2, ![n, 128]⟩] ⟨2, ![n, 384]⟩ 1) (p : Fin n) (k : Fin 128) :
    concatenate ⟨2, ![n, 384]⟩ 1 [⟨⟨2, ![n, 128]⟩, a⟩, ⟨⟨2, ![n, 128]⟩, b⟩, ⟨⟨2, ![n, 128]⟩, c⟩] h
        (ix2 p (⟨128 + k.val, by omega⟩ : Fin 384)) = b (ix2 p k) :=
  concatenate_apply_piece 1 [⟨⟨2, ![n, 128]⟩, a⟩, ⟨⟨2, ![n, 128]⟩, b⟩, ⟨⟨2, ![n, 128]⟩, c⟩] h
    (ix2 p (⟨128 + k.val, by omega⟩ : Fin 384)) 1 (by simp) ⟨2, ![n, 128]⟩ b rfl rfl 128 rfl (ix2 p k)
    (fun bb hb => by match bb with | ⟨0, _⟩ => rfl | ⟨1, _⟩ => exact absurd rfl hb)
    (by show 128 + k.val = 128 + k.val; rfl)

/-- Columns 256 to 383 come from the third array. -/
theorem edge_cat3_third (a b c : (⟨2, ![n, 128]⟩ : Shape).Idx → α)
    (h : Shape.Concatenates [(⟨2, ![n, 128]⟩ : Shape), ⟨2, ![n, 128]⟩, ⟨2, ![n, 128]⟩] ⟨2, ![n, 384]⟩ 1) (p : Fin n) (k : Fin 128) :
    concatenate ⟨2, ![n, 384]⟩ 1 [⟨⟨2, ![n, 128]⟩, a⟩, ⟨⟨2, ![n, 128]⟩, b⟩, ⟨⟨2, ![n, 128]⟩, c⟩] h
        (ix2 p (⟨256 + k.val, by omega⟩ : Fin 384)) = c (ix2 p k) :=
  concatenate_apply_piece 1 [⟨⟨2, ![n, 128]⟩, a⟩, ⟨⟨2, ![n, 128]⟩, b⟩, ⟨⟨2, ![n, 128]⟩, c⟩] h
    (ix2 p (⟨256 + k.val, by omega⟩ : Fin 384)) 2 (by simp) ⟨2, ![n, 128]⟩ c rfl rfl 256 rfl (ix2 p k)
    (fun bb hb => by match bb with | ⟨0, _⟩ => rfl | ⟨1, _⟩ => exact absurd rfl hb)
    (by show 256 + k.val = 256 + k.val; rfl)

end Cat

/-! ## The first layer -/

section Edge
variable (x0 : (⟨S100000x128, .f32⟩ : BufTy).Contents (Elt Ideal)) (x1 : (⟨S2x640000, .i32⟩ : BufTy).Contents (Elt Ideal))
  (x2 : (⟨S640000x128, .f32⟩ : BufTy).Contents (Elt Ideal)) (x3 : (⟨S384x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 x9 x10 : (⟨S128, .f32⟩ : BufTy).Contents (Elt Ideal)) (e : Fin 640000)

/-- The long row of edge e, columns 0 to 127: the edge's own features. -/
theorem edge_cat_first (k : Fin 128) :
    val_main_v18 (F := Ideal) x0 x1 x2 (ix2 e (⟨0 + k.val, by omega⟩ : Fin 384)) = x2 (ix2 e k) := by
  unfold val_main_v18
  exact edge_cat3_first x2 (val_main_v10 (F := Ideal) x0 x1) (val_main_v17 (F := Ideal) x0 x1) _ e k

/-- The long row of edge e, columns 128 to 255: the first gathered node row. -/
theorem edge_cat_second (k : Fin 128) :
    val_main_v18 (F := Ideal) x0 x1 x2 (ix2 e (⟨128 + k.val, by omega⟩ : Fin 384)) = val_main_v10 (F := Ideal) x0 x1 (ix2 e k) := by
  unfold val_main_v18
  exact edge_cat3_second x2 (val_main_v10 (F := Ideal) x0 x1) (val_main_v17 (F := Ideal) x0 x1) _ e k

/-- The long row of edge e, columns 256 to 383: the second gathered node row. -/
theorem edge_cat_third (k : Fin 128) :
    val_main_v18 (F := Ideal) x0 x1 x2 (ix2 e (⟨256 + k.val, by omega⟩ : Fin 384)) = val_main_v17 (F := Ideal) x0 x1 (ix2 e k) := by
  unfold val_main_v18
  exact edge_cat3_third x2 (val_main_v10 (F := Ideal) x0 x1) (val_main_v17 (F := Ideal) x0 x1) _ e k

/-- The product of the long row with the first weight matrix: the sum over 384 entries, cut into its three thirds. -/
theorem edge_dot1 (j : Fin 128) :
    val_main_v19 (F := Ideal) x0 x1 x2 x3 (ix2 e j)
      = (dotAt (fun k => x2 (ix2 e k)) x3 0 (by omega) j
          + dotAt (fun k => val_main_v10 (F := Ideal) x0 x1 (ix2 e k)) x3 128 (by omega) j)
        + dotAt (fun k => val_main_v17 (F := Ideal) x0 x1 (ix2 e k)) x3 256 (by omega) j := by
  have hl : ∀ k : Fin 384, lidx_main_v19 (ix2 e j) k = ix2 e k := fun k =>
    funext fun a => Fin.ext (by match a with | ⟨0, _⟩ => rfl | ⟨1, _⟩ => rfl)
  have hr : ∀ k : Fin 384, ridx_main_v19 (ix2 e j) k = ix2 k j := fun k =>
    funext fun a => Fin.ext (by match a with | ⟨0, _⟩ => rfl | ⟨1, _⟩ => rfl)
  have h1 : val_main_v19 (F := Ideal) x0 x1 x2 x3 (ix2 e j)
      = ∑ k : Fin 384, val_main_v18 (F := Ideal) x0 x1 x2 (ix2 e k) * x3 (ix2 k j) := by
    rw [val_main_v19_apply]
    exact Finset.sum_congr rfl fun k _ => by rw [hl k, hr k]
  refine h1.trans ?_
  refine (sum384 fun k : Fin 384 => val_main_v18 (F := Ideal) x0 x1 x2 (ix2 e k) * x3 (ix2 k j)).trans ?_
  unfold dotAt
  refine congrArg₂ (· + ·) (congrArg₂ (· + ·) (Finset.sum_congr rfl fun k _ => ?_) (Finset.sum_congr rfl fun k _ => ?_))
    (Finset.sum_congr rfl fun k _ => ?_)
  · exact congrArg (fun t => t * x3 (ix2 (⟨0 + k.val, by omega⟩ : Fin 384) j)) (edge_cat_first x0 x1 x2 e k)
  · exact congrArg (fun t => t * x3 (ix2 (⟨128 + k.val, by omega⟩ : Fin 384) j)) (edge_cat_second x0 x1 x2 e k)
  · exact congrArg (fun t => t * x3 (ix2 (⟨256 + k.val, by omega⟩ : Fin 384) j)) (edge_cat_third x0 x1 x2 e k)

/-- A vector of 128 entries spread down the rows reads, at (e, j), its entry j: the first bias. -/
theorem edge_bias1 (j : Fin 128) : val_main_v21 (F := Ideal) x4 (ix2 e j) = x4 (ix1 j) := by
  rw [val_main_v21_apply, val_main_v20_apply]
  exact congrArg x4 (funext fun a => Fin.ext (by match a with | ⟨0, _⟩ => rfl))

/-- The second bias. -/
theorem edge_bias2 (j : Fin 128) : val_main_v26 (F := Ideal) x6 (ix2 e j) = x6 (ix1 j) := by
  rw [val_main_v26_apply, val_main_v25_apply]
  exact congrArg x6 (funext fun a => Fin.ext (by match a with | ⟨0, _⟩ => rfl))

/-- The third bias. -/
theorem edge_bias3 (j : Fin 128) : val_main_v31 (F := Ideal) x8 (ix2 e j) = x8 (ix1 j) := by
  rw [val_main_v31_apply, val_main_v30_apply]
  exact congrArg x8 (funext fun a => Fin.ext (by match a with | ⟨0, _⟩ => rfl))

/-- The normalisation's scale. -/
theorem edge_scale (j : Fin 128) : val_main_v52 (F := Ideal) x9 (ix2 e j) = x9 (ix1 j) := by
  rw [val_main_v52_apply, val_main_v51_apply]
  exact congrArg x9 (funext fun a => Fin.ext (by match a with | ⟨0, _⟩ => rfl))

/-- The normalisation's shift. -/
theorem edge_shift (j : Fin 128) : val_main_v55 (F := Ideal) x10 (ix2 e j) = x10 (ix1 j) := by
  rw [val_main_v55_apply, val_main_v54_apply]
  exact congrArg x10 (funext fun a => Fin.ext (by match a with | ⟨0, _⟩ => rfl))

/-- The first layer before its rectifier, on edge e: the specification's first layer of that edge's three rows. -/
theorem edge_layer1 (j : Fin 128) :
    val_main_v22 (F := Ideal) x0 x1 x2 x3 x4 (ix2 e j)
      = edgeL1 (fun k => x2 (ix2 e k)) (fun k => val_main_v10 (F := Ideal) x0 x1 (ix2 e k))
          (fun k => val_main_v17 (F := Ideal) x0 x1 (ix2 e k)) x3 x4 j := by
  rewrite [val_main_v22_apply, edge_dot1 x0 x1 x2 x3 e j, edge_bias1 x4 e j]
  rfl

/-! ## The rectifiers, and layers two and three

Each lemma takes the previous stage on edge e as a row h: a hypothesis says the stage at (e, k) is h k for every k. -/

/-- The rectifier's zero array, at any index. -/
theorem edge_zero0 (i : S640000x128.Idx) : val_main_call0_v0 (F := Ideal) i = (0 : EReal) := by
  rewrite [val_main_call0_v0_apply, val_main_call0_cst_apply, Ideal.ofBits_def, Ideal.ofBits_zero_f32]
  rfl

/-- The second rectifier's zero array, at any index. -/
theorem edge_zero1 (i : S640000x128.Idx) : val_main_call1_v0 (F := Ideal) i = (0 : EReal) := by
  rewrite [val_main_call1_v0_apply, val_main_call1_cst_apply, Ideal.ofBits_def, Ideal.ofBits_zero_f32]
  rfl

/-- The first rectifier on edge e. -/
theorem edge_relu1 (h : Row) (hh : ∀ k : Fin 128, val_main_v22 (F := Ideal) x0 x1 x2 x3 x4 (ix2 e k) = h k) (j : Fin 128) :
    val_main_v23 (F := Ideal) x0 x1 x2 x3 x4 (ix2 e j) = relu h j := by
  rewrite [val_main_v23_apply, hh j, edge_zero0]
  rfl

/-- The second layer before its rectifier on edge e: the rectified first row against the second weight matrix, plus the
    second bias. -/
theorem edge_layer2 (h : Row) (hh : ∀ k : Fin 128, val_main_v22 (F := Ideal) x0 x1 x2 x3 x4 (ix2 e k) = h k) (j : Fin 128) :
    val_main_v27 (F := Ideal) x0 x1 x2 x3 x4 x5 x6 (ix2 e j) = aff (relu h) x5 x6 j := by
  have hl : ∀ k : Fin 128, lidx_main_v24 (ix2 e j) k = ix2 e k := fun k =>
    funext fun a => Fin.ext (by match a with | ⟨0, _⟩ => rfl | ⟨1, _⟩ => rfl)
  have hr : ∀ k : Fin 128, ridx_main_v24 (ix2 e j) k = ix2 k j := fun k =>
    funext fun a => Fin.ext (by match a with | ⟨0, _⟩ => rfl | ⟨1, _⟩ => rfl)
  have hd : val_main_v24 (F := Ideal) x0 x1 x2 x3 x4 x5 (ix2 e j) = ∑ k : Fin 128, relu h k * x5 (ix2 k j) := by
    rw [val_main_v24_apply]
    exact Finset.sum_congr rfl fun k _ => by rw [hl k, hr k, edge_relu1 x0 x1 x2 x3 x4 e h hh k]
  rewrite [val_main_v27_apply, hd, edge_bias2 x6 e j]
  rfl

/-- The second rectifier on edge e. -/
theorem edge_relu2 (h : Row) (hh : ∀ k : Fin 128, val_main_v27 (F := Ideal) x0 x1 x2 x3 x4 x5 x6 (ix2 e k) = h k) (j : Fin 128) :
    val_main_v28 (F := Ideal) x0 x1 x2 x3 x4 x5 x6 (ix2 e j) = relu h j := by
  rewrite [val_main_v28_apply, hh j, edge_zero1]
  rfl

/-- The third layer on edge e: the rectified second row against the third weight matrix, plus the third bias. -/
theorem edge_layer3 (h : Row) (hh : ∀ k : Fin 128, val_main_v27 (F := Ideal) x0 x1 x2 x3 x4 x5 x6 (ix2 e k) = h k) (j : Fin 128) :
    val_main_v32 (F := Ideal) x0 x1 x2 x3 x4 x5 x6 x7 x8 (ix2 e j) = aff (relu h) x7 x8 j := by
  have hl : ∀ k : Fin 128, lidx_main_v29 (ix2 e j) k = ix2 e k := fun k =>
    funext fun a => Fin.ext (by match a with | ⟨0, _⟩ => rfl | ⟨1, _⟩ => rfl)
  have hr : ∀ k : Fin 128, ridx_main_v29 (ix2 e j) k = ix2 k j := fun k =>
    funext fun a => Fin.ext (by match a with | ⟨0, _⟩ => rfl | ⟨1, _⟩ => rfl)
  have hd : val_main_v29 (F := Ideal) x0 x1 x2 x3 x4 x5 x6 x7 (ix2 e j) = ∑ k : Fin 128, relu h k * x7 (ix2 k j) := by
    rw [val_main_v29_apply]
    exact Finset.sum_congr rfl fun k _ => by rw [hl k, hr k, edge_relu2 x0 x1 x2 x3 x4 x5 x6 e h hh k]
  rewrite [val_main_v32_apply, hd, edge_bias3 x8 e j]
  rfl

/-! ## The normalisation

Here h is the third layer's row on edge e. -/

/-- The sum of the row: the reference's sum along the columns, started from zero. -/
theorem edge_rowsum (h : Row) (hh : ∀ k : Fin 128, val_main_v32 (F := Ideal) x0 x1 x2 x3 x4 x5 x6 x7 x8 (ix2 e k) = h k) :
    val_main_v33 (F := Ideal) x0 x1 x2 x3 x4 x5 x6 x7 x8 (ix1 e) = ∑ k : Fin 128, h k := by
  rw [val_main_v33_apply, val_main_cst_apply, Ideal.ofBits_def, Ideal.ofBits_zero_f32, zero_add]
  refine Finset.sum_congr rfl fun k _ => ?_
  rw [show idx_main_v33 (ix1 e) k = ix2 e k from
    funext fun a => Fin.ext (by match a with | ⟨0, _⟩ => rfl | ⟨1, _⟩ => rfl)]
  exact hh k

/-- The mean of the row, as the one-entry column the reference keeps it in. -/
theorem edge_mean (h : Row) (hh : ∀ k : Fin 128, val_main_v32 (F := Ideal) x0 x1 x2 x3 x4 x5 x6 x7 x8 (ix2 e k) = h k) (u : Fin 1) :
    val_main_v36 (F := Ideal) x0 x1 x2 x3 x4 x5 x6 x7 x8 (ix2 e u) = mean h := by
  rewrite [val_main_v36_apply, val_main_v34_apply, val_main_v35_apply, val_main_cst_3_apply, Ideal.hostDivf_def, Ideal.ofBits_def,
    show idx_main_v34 (ix2 e u) = ix1 e from funext fun a => Fin.ext (by match a with | ⟨0, _⟩ => rfl),
    edge_rowsum x0 x1 x2 x3 x4 x5 x6 x7 x8 e h hh]
  rfl

/-- The deviation from the mean, as the variance reads it. -/
theorem edge_center (h : Row) (hh : ∀ k : Fin 128, val_main_v32 (F := Ideal) x0 x1 x2 x3 x4 x5 x6 x7 x8 (ix2 e k) = h k) (j : Fin 128) :
    val_main_v38 (F := Ideal) x0 x1 x2 x3 x4 x5 x6 x7 x8 (ix2 e j) = h j - mean h := by
  rewrite [val_main_v38_apply, val_main_v37_apply,
    show idx_main_v37 (ix2 e j) = ix2 e (0 : Fin 1) from
      funext fun a => Fin.ext (by match a with | ⟨0, _⟩ => rfl | ⟨1, _⟩ => rfl),
    edge_mean x0 x1 x2 x3 x4 x5 x6 x7 x8 e h hh (0 : Fin 1), hh j]
  rfl

/-- The variance of the row: the mean of the squared deviations. -/
theorem edge_var (h : Row) (hh : ∀ k : Fin 128, val_main_v32 (F := Ideal) x0 x1 x2 x3 x4 x5 x6 x7 x8 (ix2 e k) = h k) (u : Fin 1) :
    val_main_v43 (F := Ideal) x0 x1 x2 x3 x4 x5 x6 x7 x8 (ix2 e u) = var h := by
  have hs : val_main_v40 (F := Ideal) x0 x1 x2 x3 x4 x5 x6 x7 x8 (ix1 e) = ∑ k : Fin 128, (h k - mean h) * (h k - mean h) := by
    rw [val_main_v40_apply, val_main_cst_4_apply, Ideal.ofBits_def, Ideal.ofBits_zero_f32, zero_add]
    refine Finset.sum_congr rfl fun k _ => ?_
    rewrite [show idx_main_v40 (ix1 e) k = ix2 e k from
      funext fun a => Fin.ext (by match a with | ⟨0, _⟩ => rfl | ⟨1, _⟩ => rfl),
      val_main_v39_apply, edge_center x0 x1 x2 x3 x4 x5 x6 x7 x8 e h hh k]
    rfl
  rewrite [val_main_v43_apply, val_main_v41_apply, val_main_v42_apply, val_main_cst_5_apply, Ideal.hostDivf_def, Ideal.ofBits_def,
    show idx_main_v41 (ix2 e u) = ix1 e from funext fun a => Fin.ext (by match a with | ⟨0, _⟩ => rfl),
    hs]
  rfl

/-- The reciprocal square root of the variance plus the small constant. -/
theorem edge_rstd (h : Row) (hh : ∀ k : Fin 128, val_main_v32 (F := Ideal) x0 x1 x2 x3 x4 x5 x6 x7 x8 (ix2 e k) = h k) (u : Fin 1) :
    val_main_v48 (F := Ideal) x0 x1 x2 x3 x4 x5 x6 x7 x8 (ix2 e u) = Ideal.rsqrt (var h + ceps) := by
  rewrite [val_main_v48_apply, val_main_v47_apply, val_main_v46_apply, val_main_cst_6_apply, Ideal.hostUnary_rsqrt_def,
    Ideal.ofBits_def, edge_var x0 x1 x2 x3 x4 x5 x6 x7 x8 e h hh u]
  rfl

/-- The normalised, scaled and shifted row. -/
theorem edge_norm (h : Row) (hh : ∀ k : Fin 128, val_main_v32 (F := Ideal) x0 x1 x2 x3 x4 x5 x6 x7 x8 (ix2 e k) = h k) (j : Fin 128) :
    val_main_v56 (F := Ideal) x0 x1 x2 x3 x4 x5 x6 x7 x8 x9 x10 (ix2 e j) = ln h x9 x10 j := by
  rewrite [val_main_v56_apply, val_main_v53_apply, val_main_v50_apply, val_main_v45_apply, val_main_v44_apply, val_main_v49_apply,
    show idx_main_v44 (ix2 e j) = ix2 e (0 : Fin 1) from
      funext fun a => Fin.ext (by match a with | ⟨0, _⟩ => rfl | ⟨1, _⟩ => rfl),
    show idx_main_v49 (ix2 e j) = ix2 e (0 : Fin 1) from
      funext fun a => Fin.ext (by match a with | ⟨0, _⟩ => rfl | ⟨1, _⟩ => rfl),
    edge_mean x0 x1 x2 x3 x4 x5 x6 x7 x8 e h hh (0 : Fin 1), edge_rstd x0 x1 x2 x3 x4 x5 x6 x7 x8 e h hh (0 : Fin 1), hh j,
    edge_scale x9 e j, edge_shift x10 e j]
  rfl

end Edge

/-! ## The edge result -/

/-- The reference's edge result at (e, j) is the specification's edge network on row e of the edge features and of the two
    gathered node arrays. -/
theorem edge_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (e : Fin 640000) (j : Fin 128) :
    val_main_v56 (F := Ideal) x0 x1 x2 x3 x4 x5 x6 x7 x8 x9 x10 (ix2 e j)
      = edgeRow (fun k => x2 (ix2 e k)) (fun k => val_main_v10 (F := Ideal) x0 x1 (ix2 e k)) (fun k => val_main_v17 (F := Ideal) x0 x1 (ix2 e k)) x3 x4 x5 x6 x7 x8 x9 x10 j := by
  unfold edgeRow tail
  have h1 := fun k : Fin 128 => edge_layer1 x0 x1 x2 x3 x4 e k
  have h2 := fun k : Fin 128 => edge_layer2 x0 x1 x2 x3 x4 x5 x6 e _ h1 k
  have h3 := fun k : Fin 128 => edge_layer3 x0 x1 x2 x3 x4 x5 x6 x7 x8 e _ h2 k
  exact edge_norm x0 x1 x2 x3 x4 x5 x6 x7 x8 x9 x10 e _ h3 j

end Cert.ReferenceIdeal.RefValue

end
-- ==== Proof.EdgeFinal.lean ====
/-
  The kernel's edge result is the reference's edge result.

  Region 0 of the kernel writes, block by block, the specification's edge network of every edge: of row e of the
  edge features and of row e of the two arrays of gathered node rows it finds at its entry, with the weights it finds
  there. The reference's edge result at (e, j) is the same network of row e of the edge features and of its own two
  gathers. This module joins the two. The arrays the region finds are the launch arguments carried through a few
  host operations: slices of the first weight matrix, biases recast to one row, and the two fill-mode takes of node
  rows. Under the precondition every edge index is in range, so each take is the plain gather, and that gather is
  term for term the reference's; the takes' narrowing to a shorter float format is the identity on extended reals.
  With the operands identified, the two results are the same function of the launch arguments.
-/
import proofs.«412242_j86088324481849_2_alg».proof.Proof.KEdgeArr
import proofs.«412242_j86088324481849_2_alg».proof.Proof.KOperands
import proofs.«412242_j86088324481849_2_alg».proof.Proof.TakeMask
import proofs.«412242_j86088324481849_2_alg».proof.Proof.RefEdge

noncomputable section

namespace Cert.KFinal

open Cert.KernelIdeal Cert.KernelIdeal.Gen Cert.GNN
open Idealize.ShloMosaic Idealize.ShloMosaic.TcCoe Idealize.ShloMosaic.ValueIdx Idealize.SL.Sem

/-! ## The two takes are the reference's two gathers

Under the precondition every edge index lies in [-100000, 100000), so each fill-mode take is the plain gather at the
wrapped index column; and that gather is, operation for operation, the one the reference writes: the same slice of
the edge index array cast to a vector, the same comparison with zero, the same addition of 100000, the same choice
between them, the same column, the same gather. The two programs name the shapes and their shape facts apart, but
the terms are the same. -/

section Takes
variable [Cert.Pre_finite_inputs.Facts]

/-- The take along the first row of the edge index array is the reference's first gather. -/
theorem take_row0 (a0 : FVec Ideal S100000x128 .f32) (a1 : IVec S2x640000 32) (a2 : FVec Ideal S640000x128 .f32) (a3 : FVec Ideal S384x128 .f32) (a4 : FVec Ideal S128 .f32) (a5 : FVec Ideal S128x128 .f32) (a6 : FVec Ideal S128 .f32) (a7 : FVec Ideal S128x128 .f32) (a8 a9 a10 : FVec Ideal S128 .f32) (a11 : FVec Ideal S256x128 .f32) (a12 : FVec Ideal S128 .f32) (a13 : FVec Ideal S128x128 .f32) (a14 : FVec Ideal S128 .f32) (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1)) :
    Take.takeFill a0 (Take.rowIdx0 a1) = Cert.ReferenceIdeal.Read.val_main_v10 (F := Ideal) a0 a1 := by
  rw [Take.takeFill_row0_of_pre a0 a1 a2 a3 a4 a5 a6 a7 a8 a9 a10 a11 a12 a13 a14 a15 a16 a17 a18 h]
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0
    Cert.ReferenceIdeal.Read.val_main_v5 Cert.ReferenceIdeal.Read.val_main_v4 Cert.ReferenceIdeal.Read.val_main_c Cert.ReferenceIdeal.Read.val_main_v1 Cert.ReferenceIdeal.Read.val_main_v0 Take.wrapCol Take.rowIdx0
  rfl

/-- The take along the second row of the edge index array is the reference's second gather. -/
theorem take_row1 (a0 : FVec Ideal S100000x128 .f32) (a1 : IVec S2x640000 32) (a2 : FVec Ideal S640000x128 .f32) (a3 : FVec Ideal S384x128 .f32) (a4 : FVec Ideal S128 .f32) (a5 : FVec Ideal S128x128 .f32) (a6 : FVec Ideal S128 .f32) (a7 : FVec Ideal S128x128 .f32) (a8 a9 a10 : FVec Ideal S128 .f32) (a11 : FVec Ideal S256x128 .f32) (a12 : FVec Ideal S128 .f32) (a13 : FVec Ideal S128x128 .f32) (a14 : FVec Ideal S128 .f32) (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1)) :
    Take.takeFill a0 (Take.rowIdx1 a1) = Cert.ReferenceIdeal.Read.val_main_v17 (F := Ideal) a0 a1 := by
  rw [Take.takeFill_row1_of_pre a0 a1 a2 a3 a4 a5 a6 a7 a8 a9 a10 a11 a12 a13 a14 a15 a16 a17 a18 h]
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_c_2
    Cert.ReferenceIdeal.Read.val_main_v12 Cert.ReferenceIdeal.Read.val_main_v11 Cert.ReferenceIdeal.Read.val_main_c_1 Cert.ReferenceIdeal.Read.val_main_v3 Cert.ReferenceIdeal.Read.val_main_v2 Take.wrapCol Take.rowIdx1
  rfl

end Takes

/-! ## The kernel's edge result is the reference's, given what the region finds in its arrays

The region's result array is the specification's edge network of the rows of the three row-blocked arrays it
finds, with the weights it finds; the reference's edge result at (e, j) is the same network of row e of the edge
features and of its two gathers. So the two arrays agree as soon as the region's row-blocked arrays are the edge
features and the two gathers, and its weight windows are the pieces of the reference's weights. -/

/-- The region's result array is the reference's edge result, for any contents V at the region's entry whose arrays
    are the reference's operands: the three thirds of the first weight matrix, the biases as one-row arrays, the
    other weights as they are, the edge features, and the two gathers. -/
theorem edge_core (V : (c : Dev nD) → (b : Ref sig .tc) → Buf (Elt Ideal) ((c : Thread nD τ).loc b)) (c : Dev nD)
    (a0 : FVec Ideal S100000x128 .f32) (a1 : IVec S2x640000 32) (a2 : FVec Ideal S640000x128 .f32) (a3 : FVec Ideal S384x128 .f32) (a4 : FVec Ideal S128 .f32) (a5 : FVec Ideal S128x128 .f32) (a6 : FVec Ideal S128 .f32) (a7 : FVec Ideal S128x128 .f32) (a8 a9 a10 : FVec Ideal S128 .f32)
    (h3 : ∀ k j : Fin 128, (V c main_v8 : Vec Ideal S128x128 .f32) (ix2 k j) = a3 (ix2 ⟨0 + k.val, by omega⟩ j))
    (h4 : ∀ k j : Fin 128, (V c main_v9 : Vec Ideal S128x128 .f32) (ix2 k j) = a3 (ix2 ⟨128 + k.val, by omega⟩ j))
    (h5 : ∀ k j : Fin 128, (V c main_v10 : Vec Ideal S128x128 .f32) (ix2 k j) = a3 (ix2 ⟨256 + k.val, by omega⟩ j))
    (h6 : ∀ q : Fin 128, (V c main_v11 : Vec Ideal S1x128 .f32) (ix2 (0 : Fin 1) q) = a4 (ix1 q))
    (h7 : ∀ k j : Fin 128, (V c main_arg5 : Vec Ideal S128x128 .f32) (ix2 k j) = a5 (ix2 k j))
    (h8 : ∀ q : Fin 128, (V c main_v12 : Vec Ideal S1x128 .f32) (ix2 (0 : Fin 1) q) = a6 (ix1 q))
    (h9 : ∀ k j : Fin 128, (V c main_arg7 : Vec Ideal S128x128 .f32) (ix2 k j) = a7 (ix2 k j))
    (h10 : ∀ q : Fin 128, (V c main_v13 : Vec Ideal S1x128 .f32) (ix2 (0 : Fin 1) q) = a8 (ix1 q))
    (h11 : ∀ q : Fin 128, (V c main_v14 : Vec Ideal S1x128 .f32) (ix2 (0 : Fin 1) q) = a9 (ix1 q))
    (h12 : ∀ q : Fin 128, (V c main_v15 : Vec Ideal S1x128 .f32) (ix2 (0 : Fin 1) q) = a10 (ix1 q))
    (hr0 : ∀ i : S640000x128.Idx, (V c main_arg2 : Vec Ideal S640000x128 .f32) i = a2 i)
    (hr1 : ∀ i : S640000x128.Idx, (V c main_v5 : Vec Ideal S640000x128 .bf16) i = Cert.ReferenceIdeal.Read.val_main_v10 (F := Ideal) a0 a1 i)
    (hr2 : ∀ i : S640000x128.Idx, (V c main_v7 : Vec Ideal S640000x128 .bf16) i = Cert.ReferenceIdeal.Read.val_main_v17 (F := Ideal) a0 a1 i) :
    (dat0 V c).arrAt 13 cfg0.N = Cert.ReferenceIdeal.Read.val_main_v56 (F := Ideal) a0 a1 a2 a3 a4 a5 a6 a7 a8 a9 a10 := by
  rw [KArr.arr0_13 V c a3 h3 h4 h5 a4 h6 a5 h7 a6 h8 a7 h9 a8 h10 a9 h11 a10 h12]
  refine funext fun (i : S640000x128.Idx) => ?_
  obtain ⟨e, j, rfl⟩ : ∃ (e : Fin 640000) (j : Fin 128), i = ix2 e j := ⟨i 0, i 1, eq_ix2 i⟩
  rw [KArr.edgeG_ix2, Cert.ReferenceIdeal.RefValue.edge_apply]
  have e0 : (fun k : Fin 128 => (V c main_arg2 : Vec Ideal S640000x128 .f32) (ix2 e k)) = fun k => a2 (ix2 e k) :=
    funext fun k => hr0 (ix2 e k)
  have e1 : (fun k : Fin 128 => (V c main_v5 : Vec Ideal S640000x128 .bf16) (ix2 e k))
      = fun k => Cert.ReferenceIdeal.Read.val_main_v10 (F := Ideal) a0 a1 (ix2 e k) := funext fun k => hr1 (ix2 e k)
  have e2 : (fun k : Fin 128 => (V c main_v7 : Vec Ideal S640000x128 .bf16) (ix2 e k))
      = fun k => Cert.ReferenceIdeal.Read.val_main_v17 (F := Ideal) a0 a1 (ix2 e k) := funext fun k => hr2 (ix2 e k)
  rw [e0, e1, e2]

/-! ## The takes as the region finds them: narrowed to the shorter format

On extended reals a narrowing of the float format is the identity, so the narrowed take is still the gather. -/

section Narrow
variable [Cert.Pre_finite_inputs.Facts]

/-- The narrowed take along the first row of the edge index array, entry by entry. -/
theorem take_row0_narrow (a0 : FVec Ideal S100000x128 .f32) (a1 : IVec S2x640000 32) (a2 : FVec Ideal S640000x128 .f32) (a3 : FVec Ideal S384x128 .f32) (a4 : FVec Ideal S128 .f32) (a5 : FVec Ideal S128x128 .f32) (a6 : FVec Ideal S128 .f32) (a7 : FVec Ideal S128x128 .f32) (a8 a9 a10 : FVec Ideal S128 .f32) (a11 : FVec Ideal S256x128 .f32) (a12 : FVec Ideal S128 .f32) (a13 : FVec Ideal S128x128 .f32) (a14 : FVec Ideal S128 .f32) (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1))
    (hb : FTy.bf16.bits < FTy.f32.bits) (i : S640000x128.Idx) :
    (truncf .bf16 (Take.takeFill a0 (Take.rowIdx0 a1)) hb : FVec Ideal S640000x128 .bf16) i
      = Cert.ReferenceIdeal.Read.val_main_v10 (F := Ideal) a0 a1 i :=
  (truncf_apply (ψ := .bf16) (Take.takeFill a0 (Take.rowIdx0 a1)) hb i).trans
    (congrFun (take_row0 a0 a1 a2 a3 a4 a5 a6 a7 a8 a9 a10 a11 a12 a13 a14 a15 a16 a17 a18 h) i)

/-- The narrowed take along the second row of the edge index array, entry by entry. -/
theorem take_row1_narrow (a0 : FVec Ideal S100000x128 .f32) (a1 : IVec S2x640000 32) (a2 : FVec Ideal S640000x128 .f32) (a3 : FVec Ideal S384x128 .f32) (a4 : FVec Ideal S128 .f32) (a5 : FVec Ideal S128x128 .f32) (a6 : FVec Ideal S128 .f32) (a7 : FVec Ideal S128x128 .f32) (a8 a9 a10 : FVec Ideal S128 .f32) (a11 : FVec Ideal S256x128 .f32) (a12 : FVec Ideal S128 .f32) (a13 : FVec Ideal S128x128 .f32) (a14 : FVec Ideal S128 .f32) (a15 : FVec Ideal S128x128 .f32) (a16 a17 a18 : FVec Ideal S128 .f32)
    (h : Cert.Pre_finite_inputs.fn (F := Ideal) a0 a1 a2 a3 a4 a5 a6 a7 a8 a9 a10 a11 a12 a13 a14 a15 a16 a17 a18 = (fun _ => 1#1))
    (hb : FTy.bf16.bits < FTy.f32.bits) (i : S640000x128.Idx) :
    (truncf .bf16 (Take.takeFill a0 (Take.rowIdx1 a1)) hb : FVec Ideal S640000x128 .bf16) i
      = Cert.ReferenceIdeal.Read.val_main_v17 (F := Ideal) a0 a1 i :=
  (truncf_apply (ψ := .bf16) (Take.takeFill a0 (Take.rowIdx1 a1)) hb i).trans
    (congrFun (take_row1 a0 a1 a2 a3 a4 a5 a6 a7 a8 a9 a10 a11 a12 a13 a14 a15 a16 a17 a18 h) i)

end Narrow

/-! ## What region 0 finds in its arrays

Each array of the region, read back through the stretches of host operations to the launch memory m, at an index:
the three 128-row slices of the first weight matrix; the biases and the normalisation's scale and shift recast from
128 entries to one row of 128; the other two weight matrices and the edge features as they are; and the two narrowed
takes, which under the precondition are the reference's two gathers. -/

section Windows
variable (m : (ℓ : Loc nD τ sig) → Buf (Elt Ideal) ℓ) (ρ : Dev nD → PrngReg) (c : Dev nD)

/-- Rows 0 to 127 of the first weight matrix. -/
theorem win_w1a (k j : Fin 128) :
    (Gen.V5 m ρ c main_v8 : Vec Ideal S128x128 .f32) (ix2 k j)
      = ((m ((c.tc : Thread nD τ).loc main_arg3)) : FVec Ideal S384x128 .f32) (ix2 ⟨0 + k.val, by omega⟩ j) :=
  (congrFun (KOperands.r0_w3 m ρ c) (ix2 k j)).trans (slice2_axis0_apply 0 _ _ k j ⟨0 + k.val, by omega⟩ rfl)

/-- Rows 128 to 255 of the first weight matrix. -/
theorem win_w1b (k j : Fin 128) :
    (Gen.V5 m ρ c main_v9 : Vec Ideal S128x128 .f32) (ix2 k j)
      = ((m ((c.tc : Thread nD τ).loc main_arg3)) : FVec Ideal S384x128 .f32) (ix2 ⟨128 + k.val, by omega⟩ j) :=
  (congrFun (KOperands.r0_w4 m ρ c) (ix2 k j)).trans (slice2_axis0_apply 128 _ _ k j ⟨128 + k.val, by omega⟩ rfl)

/-- Rows 256 to 383 of the first weight matrix. -/
theorem win_w1c (k j : Fin 128) :
    (Gen.V5 m ρ c main_v10 : Vec Ideal S128x128 .f32) (ix2 k j)
      = ((m ((c.tc : Thread nD τ).loc main_arg3)) : FVec Ideal S384x128 .f32) (ix2 ⟨256 + k.val, by omega⟩ j) :=
  (congrFun (KOperands.r0_w5 m ρ c) (ix2 k j)).trans (slice2_axis0_apply 256 _ _ k j ⟨256 + k.val, by omega⟩ rfl)

/-- The first bias, as one row. -/
theorem win_b1 (q : Fin 128) :
    (Gen.V5 m ρ c main_v11 : Vec Ideal S1x128 .f32) (ix2 (0 : Fin 1) q) = ((m ((c.tc : Thread nD τ).loc main_arg4)) : FVec Ideal S128 .f32) (ix1 q) :=
  (congrFun (KOperands.r0_w6 m ρ c) (ix2 (0 : Fin 1) q)).trans (shapeCast_a_1a_apply _ _ (0 : Fin 1) q)

/-- The second weight matrix. -/
theorem win_w2 (k j : Fin 128) :
    (Gen.V5 m ρ c main_arg5 : Vec Ideal S128x128 .f32) (ix2 k j) = ((m ((c.tc : Thread nD τ).loc main_arg5)) : FVec Ideal S128x128 .f32) (ix2 k j) :=
  congrFun (KOperands.r0_w7 m ρ c) (ix2 k j)

/-- The second bias, as one row. -/
theorem win_b2 (q : Fin 128) :
    (Gen.V5 m ρ c main_v12 : Vec Ideal S1x128 .f32) (ix2 (0 : Fin 1) q) = ((m ((c.tc : Thread nD τ).loc main_arg6)) : FVec Ideal S128 .f32) (ix1 q) :=
  (congrFun (KOperands.r0_w8 m ρ c) (ix2 (0 : Fin 1) q)).trans (shapeCast_a_1a_apply _ _ (0 : Fin 1) q)

/-- The third weight matrix. -/
theorem win_w3 (k j : Fin 128) :
    (Gen.V5 m ρ c main_arg7 : Vec Ideal S128x128 .f32) (ix2 k j) = ((m ((c.tc : Thread nD τ).loc main_arg7)) : FVec Ideal S128x128 .f32) (ix2 k j) :=
  congrFun (KOperands.r0_w9 m ρ c) (ix2 k j)

/-- The third bias, as one row. -/
theorem win_b3 (q : Fin 128) :
    (Gen.V5 m ρ c main_v13 : Vec Ideal S1x128 .f32) (ix2 (0 : Fin 1) q) = ((m ((c.tc : Thread nD τ).loc main_arg8)) : FVec Ideal S128 .f32) (ix1 q) :=
  (congrFun (KOperands.r0_w10 m ρ c) (ix2 (0 : Fin 1) q)).trans (shapeCast_a_1a_apply _ _ (0 : Fin 1) q)

/-- The normalisation's scale, as one row. -/
theorem win_scale (q : Fin 128) :
    (Gen.V5 m ρ c main_v14 : Vec Ideal S1x128 .f32) (ix2 (0 : Fin 1) q) = ((m ((c.tc : Thread nD τ).loc main_arg9)) : FVec Ideal S128 .f32) (ix1 q) :=
  (congrFun (KOperands.r0_w11 m ρ c) (ix2 (0 : Fin 1) q)).trans (shapeCast_a_1a_apply _ _ (0 : Fin 1) q)

/-- The normalisation's shift, as one row. -/
theorem win_shift (q : Fin 128) :
    (Gen.V5 m ρ c main_v15 : Vec Ideal S1x128 .f32) (ix2 (0 : Fin 1) q) = ((m ((c.tc : Thread nD τ).loc main_arg10)) : FVec Ideal S128 .f32) (ix1 q) :=
  (congrFun (KOperands.r0_w12 m ρ c) (ix2 (0 : Fin 1) q)).trans (shapeCast_a_1a_apply _ _ (0 : Fin 1) q)

/-- The edge features. -/
theorem win_attr (i : S640000x128.Idx) :
    (Gen.V5 m ρ c main_arg2 : Vec Ideal S640000x128 .f32) i = ((m ((c.tc : Thread nD τ).loc main_arg2)) : FVec Ideal S640000x128 .f32) i :=
  congrFun (KOperands.r0_w0 m ρ c) i

variable [Cert.Pre_finite_inputs.Facts]

/-- The rows gathered along the first row of the edge index array. -/
theorem win_send (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = (fun _ => 1#1)) (i : S640000x128.Idx) :
    (Gen.V5 m ρ c main_v5 : Vec Ideal S640000x128 .bf16) i = Cert.ReferenceIdeal.Read.val_main_v10 (F := Ideal) (m ((c.tc : Thread nD τ).loc main_arg0)) (m ((c.tc : Thread nD τ).loc main_arg1)) i :=
  (congrFun (KOperands.r0_w1 m ρ c) i).trans (take_row0_narrow _ _ _ _ _ _ _ _ _ _ _ _ _ _ _ _ _ _ _ hpre _ i)

/-- The rows gathered along the second row of the edge index array. -/
theorem win_recv (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = (fun _ => 1#1)) (i : S640000x128.Idx) :
    (Gen.V5 m ρ c main_v7 : Vec Ideal S640000x128 .bf16) i = Cert.ReferenceIdeal.Read.val_main_v17 (F := Ideal) (m ((c.tc : Thread nD τ).loc main_arg0)) (m ((c.tc : Thread nD τ).loc main_arg1)) i :=
  (congrFun (KOperands.r0_w2 m ρ c) i).trans (take_row1_narrow _ _ _ _ _ _ _ _ _ _ _ _ _ _ _ _ _ _ _ hpre _ i)

end Windows

/-! ## The kernel's edge result is the reference's -/

section Final
variable [Cert.Pre_finite_inputs.Facts]

/-- After region 0 the kernel's edge result array is the reference's edge result, on every core, for launch contents
    that satisfy the precondition. -/
theorem edge_final (m : (ℓ : Loc Cert.KernelIdeal.nD Cert.KernelIdeal.τ Cert.KernelIdeal.sig) → Buf (Elt Ideal) ℓ) (ρ : Dev Cert.KernelIdeal.nD → PrngReg) (c : Dev Cert.KernelIdeal.nD) (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) = (fun _ => 1#1)) :
      (Cert.KernelIdeal.Gen.dat0 (Cert.KernelIdeal.Gen.V5 m ρ) c).arrAt 13 Cert.KernelIdeal.cfg0.N
        = Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
  edge_core (Gen.V5 m ρ) c _ _ _ _ _ _ _ _ _ _ _ (win_w1a m ρ c) (win_w1b m ρ c) (win_w1c m ρ c) (win_b1 m ρ c)
    (win_w2 m ρ c) (win_b2 m ρ c) (win_w3 m ρ c) (win_b3 m ρ c) (win_scale m ρ c) (win_shift m ρ c)
    (win_attr m ρ c) (win_send m ρ c hpre) (win_recv m ρ c hpre)

end Final

end Cert.KFinal

end
-- ==== Proof.KNode.lean ====
/-
  Region 1's body, one node at a time.

  The body of the node network's kernel loads a block of 4000 nodes — the node's own features and the messages
  summed into it — with the two 128-row slices of the first weight matrix, the other weights and the biases as
  `[1, 128]` rows, and stores one block: two products summed, bias, rectifier, a second affine layer, rectifier, a third
  product, its bias, and the layer normalisation. Read at `(p, j)`, with each operand named by what it holds (a slice
  of `W1`, a bias …), the stored block is the specification's node network of row `p` of the two loaded blocks.

  The body's text is cut after the third PRODUCT: the first payload ends in the bare product and the second adds the
  third bias before normalising, so the third affine layer is assembled across the two.
-/
import proofs.«412242_j86088324481849_2_alg».proof.Proof.Gen.KernelIdeal.Frame
import proofs.«412242_j86088324481849_2_alg».proof.Proof.KLayers

noncomputable section

namespace Cert.KernelIdeal.KBodyN

open Cert.KernelIdeal Cert.KernelIdeal.Gen Cert.KernelIdeal.Facts Cert.GNN Idealize.ShloMosaic Idealize.ShloMosaic.ValueIdx
open scoped BigOperators

/-- Both offsets of a rank-2 whole-buffer rectangle are zero. -/
theorem hz2 : (![0, 0] : Fin 2 → ℕ) = fun _ => 0 :=
  funext fun a => by match a with | ⟨0, _⟩ => rfl | ⟨1, _⟩ => rfl

/-- The rectifier against the zero splat, entry by entry. -/
theorem reluK_apply {s : Shape} (a : FVec Ideal s .f32) (i : s.Idx) :
    maximumf a (broadcast s (Scalar.ofBits .f32 0x00000000#32)) i = max (a i) 0 := by
  rw [maximumf_apply, broadcast_apply]
  exact congrArg (max (a i)) Ideal.ofBits_zero_f32

/-- The kernels' matrix product record for a block of 4000 rows is the plain product's. -/
theorem dot4000 : dot_S4000x128_S128x128_S4000x128_1_0_0_1_n_n = DotDims.plain 4000 128 128 := rfl

/-- The block region 1 writes back is its one store's payload of the loaded blocks. -/
theorem out1_11_eq (x0 x1 : Vec Ideal S4000x128 .f32) (x2 x3 : Vec Ideal S128x128 .f32) (x4 : Vec Ideal S1x128 .f32)
    (x5 : Vec Ideal S128x128 .f32) (x6 : Vec Ideal S1x128 .f32) (x7 : Vec Ideal S128x128 .f32) (x8 x9 x10 : Vec Ideal S1x128 .f32) :
    out1_11 (F := Ideal) x0 x1 x2 x3 x4 x5 x6 x7 x8 x9 x10
      = k1_pay1 (F := Ideal) (k1_pay2 (F := Ideal) x0 x1 x2 x3 x4 x5 x6 x7) x8 x9 x10 := by
  unfold out1_11
  rw [View.canon_unit_zero hz2]
  simp only [View.ld_unit_zero (S := S4000x128) hz2, View.ld_unit_zero (S := S128x128) hz2, View.ld_unit_zero (S := S1x128) hz2]

/-! ## The two payloads at `(p, j)` -/

/-- The first payload — two products against the two slices of `W1`, bias, rectifier, second affine layer,
    rectifier, third product — at `(p, j)`: the second layer's rectified row of row `p` of the two loaded blocks,
    against column `j` of `W3`; the third bias is not yet added. -/
theorem pay2_apply (v0 v2 : FVec Ideal S4000x128 .f32) (v5 v8 : FVec Ideal S128x128 .f32) (v14 : FVec Ideal S1x128 .f32)
    (v21 : FVec Ideal S128x128 .f32) (v24 : FVec Ideal S1x128 .f32) (v31 : FVec Ideal S128x128 .f32) (p : Fin 4000) (j : Fin 128)
    (W1 : Mat 256) (h5 : ∀ k j : Fin 128, v5 (ix2 k j) = W1 (ix2 ⟨0 + k.val, by omega⟩ j))
    (h8 : ∀ k j : Fin 128, v8 (ix2 k j) = W1 (ix2 ⟨128 + k.val, by omega⟩ j))
    (b1 : Vec1) (h14 : ∀ q : Fin 128, v14 (ix2 (0 : Fin 1) q) = b1 (ix1 q))
    (W2 : Mat 128) (h21 : ∀ k j : Fin 128, v21 (ix2 k j) = W2 (ix2 k j))
    (b2 : Vec1) (h24 : ∀ q : Fin 128, v24 (ix2 (0 : Fin 1) q) = b2 (ix1 q))
    (W3 : Mat 128) (h31 : ∀ k j : Fin 128, v31 (ix2 k j) = W3 (ix2 k j)) :
    k1_pay2 (F := Ideal) v0 v2 v5 v8 v14 v21 v24 v31 (ix2 p j)
      = ∑ k : Fin 128, relu (aff (relu (nodeL1 (fun k => v0 (ix2 p k)) (fun k => v2 (ix2 p k)) W1 b1)) W2 b2) k * W3 (ix2 k j) := by
  unfold k1_pay2
  -- the third product, from the second layer's rectified row
  refine (Cert.LibRowOps.prod_apply dot_S4000x128_S128x128_S4000x128_1_0_0_1_n_n dot4000 _ _ p j
    (relu (aff (relu (nodeL1 (fun k => v0 (ix2 p k)) (fun k => v2 (ix2 p k)) W1 b1)) W2 b2)) (fun k => ?_)).trans
    (Finset.sum_congr rfl fun k _ => by rw [truncf_apply, h31])
  -- the second layer's rectifier, then its affine layer from the first layer's rectified row
  rw [truncf_apply, reluK_apply]
  refine congrArg (max · 0) ?_
  refine affK_apply dot_S4000x128_S128x128_S4000x128_1_0_0_1_n_n dot4000 _ _ v24 shapeCasts_S1x128_S1x128
    broadcasts_S1x128_S4000x128 p k (relu (nodeL1 (fun k => v0 (ix2 p k)) (fun k => v2 (ix2 p k)) W1 b1)) (fun k' => ?_) W2 (fun k j => by rw [truncf_apply]; exact h21 k j) b2 h24
  -- the first layer's rectifier, then its two products and the bias
  rw [truncf_apply, reluK_apply]
  refine congrArg (max · 0) ?_
  rw [addf_apply, addf_apply, rowSpread_apply, h14]
  unfold nodeL1
  refine congrArg (· + b1 (ix1 k')) (congrArg₂ (· + ·) ?_ ?_)
  · exact dotK_apply _ dot4000 _ _ p k' _ (fun _ => rfl) W1 0 (by omega) (fun k j => by rw [truncf_apply, shapeCast_self]; exact h5 k j)
  · exact dotK_apply _ dot4000 _ _ p k' _ (fun _ => by rw [truncf_apply, shapeCast_self]) W1 128 (by omega)
      (fun k j => by rw [truncf_apply, shapeCast_self]; exact h8 k j)

/-- The second payload — the third bias added, then the layer normalisation — at `(p, j)`, from the third product's
    row `d`. -/
theorem pay1_apply (v33 : FVec Ideal S4000x128 .f32) (v34 v38 v40 : FVec Ideal S1x128 .f32) (p : Fin 4000) (j : Fin 128)
    (d : Row) (hd : ∀ k, v33 (ix2 p k) = d k)
    (b3 : Vec1) (h34 : ∀ q : Fin 128, v34 (ix2 (0 : Fin 1) q) = b3 (ix1 q))
    (g : Vec1) (h38 : ∀ q : Fin 128, v38 (ix2 (0 : Fin 1) q) = g (ix1 q))
    (be : Vec1) (h40 : ∀ q : Fin 128, v40 (ix2 (0 : Fin 1) q) = be (ix1 q)) :
    k1_pay1 (F := Ideal) v33 v34 v38 v40 (ix2 p j) = ln (fun k => d k + b3 (ix1 k)) g be j := by
  unfold k1_pay1
  refine lnK_apply _ v38 v40 reduces_S4000x128_S4000 _ _ shapeCasts_S4000_S4000x1 broadcasts_S4000x1_S4000x128
    shapeCasts_S1x128_S1x128 broadcasts_S1x128_S4000x128 p j (fun k => d k + b3 (ix1 k)) (fun k => ?_) g be h38 h40
  rw [addf_apply, rowSpread_apply, h34, hd]

/-- The block region 1 writes back, at `(p, j)`: the specification's node network of row `p` of the two loaded
    blocks, each other operand named by what it holds. -/
theorem node_block (x0 x1 : FVec Ideal S4000x128 .f32) (x2 x3 : FVec Ideal S128x128 .f32) (x4 : FVec Ideal S1x128 .f32)
    (x5 : FVec Ideal S128x128 .f32) (x6 : FVec Ideal S1x128 .f32) (x7 : FVec Ideal S128x128 .f32) (x8 x9 x10 : FVec Ideal S1x128 .f32)
    (p : Fin 4000) (j : Fin 128)
    (W1 : Mat 256) (h2 : ∀ k j : Fin 128, x2 (ix2 k j) = W1 (ix2 ⟨0 + k.val, by omega⟩ j))
    (h3 : ∀ k j : Fin 128, x3 (ix2 k j) = W1 (ix2 ⟨128 + k.val, by omega⟩ j))
    (b1 : Vec1) (h4 : ∀ q : Fin 128, x4 (ix2 (0 : Fin 1) q) = b1 (ix1 q))
    (W2 : Mat 128) (h5 : ∀ k j : Fin 128, x5 (ix2 k j) = W2 (ix2 k j))
    (b2 : Vec1) (h6 : ∀ q, x6 (ix2 (0 : Fin 1) q) = b2 (ix1 q))
    (W3 : Mat 128) (h7 : ∀ k j : Fin 128, x7 (ix2 k j) = W3 (ix2 k j))
    (b3 : Vec1) (h8 : ∀ q, x8 (ix2 (0 : Fin 1) q) = b3 (ix1 q))
    (g : Vec1) (h9 : ∀ q, x9 (ix2 (0 : Fin 1) q) = g (ix1 q))
    (be : Vec1) (h10 : ∀ q, x10 (ix2 (0 : Fin 1) q) = be (ix1 q)) :
    out1_11 (F := Ideal) x0 x1 x2 x3 x4 x5 x6 x7 x8 x9 x10 (ix2 p j)
      = nodeRow (fun k => x0 (ix2 p k)) (fun k => x1 (ix2 p k)) W1 b1 W2 b2 W3 b3 g be j := by
  rw [out1_11_eq]
  exact pay1_apply _ x8 x9 x10 p j
    (fun k => ∑ k' : Fin 128,
      relu (aff (relu (nodeL1 (fun k => x0 (ix2 p k)) (fun k => x1 (ix2 p k)) W1 b1)) W2 b2) k' * W3 (ix2 k' k))
    (fun k => pay2_apply x0 x1 x2 x3 x4 x5 x6 x7 p k W1 h2 h3 b1 h4 W2 h5 b2 h6 W3 h7) b3 h8 g h9 be h10

end Cert.KernelIdeal.KBodyN

end
-- ==== Proof.KNodeArr.lean ====
/-
  Region 1's result array: the node network of every node.

  Point `t` of region 1 writes back block `t` — rows `4000·t … 4000·t + 3999` — of ONE function of the arrays the
  region finds: row `v` of it is the specification's node network of row `v` of the node features and of row `v` of
  the aggregated messages. The 25 blocks tile the 100000 rows (row `v` lies in block `v / 4000`), so after the
  region the result array IS that function.
-/
import proofs.«412242_j86088324481849_2_alg».proof.Proof.KNode
import proofs.«412242_j86088324481849_2_alg».proof.Proof.KBlocks

noncomputable section

namespace Cert.KernelIdeal.KArrN

open Cert.KernelIdeal Cert.KernelIdeal.Gen Cert.KernelIdeal.KBodyN Cert.KernelIdeal.KBlocks Cert.GNN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The node network of every row of the two row-blocked arrays region 1 finds. -/
def nodeG (c : Dev nD) (W1 : Mat 256) (b1 : Vec1) (W2 : Mat 128) (b2 : Vec1) (W3 : Mat 128) (b3 g be : Vec1) :
    S100000x128.Idx → EReal := fun i =>
  nodeRow (fun k => (V c main_arg0 : Vec Ideal S100000x128 .f32) (ix2 (⟨(i 0).val, (i 0).isLt⟩ : Fin 100000) k))
    (fun k => (V c main_v19 : Vec Ideal S100000x128 .f32) (ix2 (⟨(i 0).val, (i 0).isLt⟩ : Fin 100000) k))
    W1 b1 W2 b2 W3 b3 g be (⟨(i 1).val, (i 1).isLt⟩ : Fin 128)

/-- That function at `(v, j)`. -/
theorem nodeG_ix2 (c : Dev nD) (W1 : Mat 256) (b1 : Vec1) (W2 : Mat 128) (b2 : Vec1) (W3 : Mat 128) (b3 g be : Vec1)
    (v : Fin 100000) (j : Fin 128) :
    nodeG V c W1 b1 W2 b2 W3 b3 g be (ix2 v j)
      = nodeRow (fun k => (V c main_arg0 : Vec Ideal S100000x128 .f32) (ix2 v k))
          (fun k => (V c main_v19 : Vec Ideal S100000x128 .f32) (ix2 v k)) W1 b1 W2 b2 W3 b3 g be j := rfl

/-- The result block's index `(p, j)` at point `t` is the array index `(4000·t + p, j)`. -/
theorem emb1_11 (t : Fin cfg1.N) (p : Fin 4000) (j : Fin 128) :
    ((cfg1.win 11).blk t).view.emb (ix2 p j)
      = (ix2 (⟨t.val * 4000 + p.val, by have := t.isLt; have := p.isLt; have hN : cfg1.N = 25 := N_1; omega⟩ : Fin 100000) j : S100000x128.Idx) := by
  funext a; apply Fin.ext
  have h0 := (idxRows1 t).2.2.2.2.1
  have h1 := (idxRows1 t).2.2.2.2.2
  match a with
  | ⟨0, _⟩ => show win1_11.index t (0 : Fin 2) * 4000 + 1 * p.val = t.val * 4000 + p.val; rw [h0, Nat.one_mul]
  | ⟨1, _⟩ => show win1_11.index t (1 : Fin 2) * 128 + 1 * j.val = j.val; rw [h1, Nat.zero_mul, Nat.zero_add, Nat.one_mul]

/-- One point of the grid, over the literal block types: the written block at any index `y` is a whole-array function
    `G` at `y`'s place in the array, as soon as `G` there is the node network of the loaded rows. -/
theorem node_point (x0 x1 : FVec Ideal S4000x128 .f32) (x2 x3 : FVec Ideal S128x128 .f32) (x4 : FVec Ideal S1x128 .f32)
    (x5 : FVec Ideal S128x128 .f32) (x6 : FVec Ideal S1x128 .f32) (x7 : FVec Ideal S128x128 .f32)
    (x8 x9 x10 : FVec Ideal S1x128 .f32) (G : S100000x128.Idx → EReal) (emb : S4000x128.Idx → S100000x128.Idx)
    (W1 : Mat 256) (h2 : ∀ k j : Fin 128, x2 (ix2 k j) = W1 (ix2 ⟨0 + k.val, by omega⟩ j))
    (h3 : ∀ k j : Fin 128, x3 (ix2 k j) = W1 (ix2 ⟨128 + k.val, by omega⟩ j))
    (b1 : Vec1) (h4 : ∀ q : Fin 128, x4 (ix2 (0 : Fin 1) q) = b1 (ix1 q))
    (W2 : Mat 128) (h5 : ∀ k j : Fin 128, x5 (ix2 k j) = W2 (ix2 k j))
    (b2 : Vec1) (h6 : ∀ q : Fin 128, x6 (ix2 (0 : Fin 1) q) = b2 (ix1 q))
    (W3 : Mat 128) (h7 : ∀ k j : Fin 128, x7 (ix2 k j) = W3 (ix2 k j))
    (b3 : Vec1) (h8 : ∀ q : Fin 128, x8 (ix2 (0 : Fin 1) q) = b3 (ix1 q))
    (g : Vec1) (h9 : ∀ q : Fin 128, x9 (ix2 (0 : Fin 1) q) = g (ix1 q))
    (be : Vec1) (h10 : ∀ q : Fin 128, x10 (ix2 (0 : Fin 1) q) = be (ix1 q))
    (r0 r1 : Fin 4000 → Row) (hr0 : ∀ p k, x0 (ix2 p k) = r0 p k) (hr1 : ∀ p k, x1 (ix2 p k) = r1 p k)
    (hG : ∀ (p : Fin 4000) (j : Fin 128), G (emb (ix2 p j)) = nodeRow (r0 p) (r1 p) W1 b1 W2 b2 W3 b3 g be j)
    (y : S4000x128.Idx) :
    out1_11 (F := Ideal) x0 x1 x2 x3 x4 x5 x6 x7 x8 x9 x10 y = G (emb y) := by
  obtain ⟨p, j, rfl⟩ : ∃ (p : Fin 4000) (j : Fin 128), y = ix2 p j := ⟨y 0, y 1, eq_ix2 y⟩
  have e0 : (fun k => x0 (ix2 p k)) = r0 p := funext (hr0 p)
  have e1 : (fun k => x1 (ix2 p k)) = r1 p := funext (hr1 p)
  rw [hG p j, ← e0, ← e1]
  exact node_block x0 x1 x2 x3 x4 x5 x6 x7 x8 x9 x10 p j W1 h2 h3 b1 h4 W2 h5 b2 h6 W3 h7 b3 h8 g h9 be h10

/-- WHAT POINT `t` WRITES BACK is block `t` of the node network of the arrays' rows. -/
theorem flushed1_11 (c : Dev nD) (W1 : Mat 256) (h2 : ∀ k j : Fin 128, (V c main_v20 : Vec Ideal S128x128 .f32) (ix2 k j) = W1 (ix2 ⟨0 + k.val, by omega⟩ j))
    (h3 : ∀ k j : Fin 128, (V c main_v21 : Vec Ideal S128x128 .f32) (ix2 k j) = W1 (ix2 ⟨128 + k.val, by omega⟩ j))
    (b1 : Vec1) (h4 : ∀ q : Fin 128, (V c main_v22 : Vec Ideal S1x128 .f32) (ix2 (0 : Fin 1) q) = b1 (ix1 q))
    (W2 : Mat 128) (h5 : ∀ k j : Fin 128, (V c main_arg13 : Vec Ideal S128x128 .f32) (ix2 k j) = W2 (ix2 k j))
    (b2 : Vec1) (h6 : ∀ q : Fin 128, (V c main_v23 : Vec Ideal S1x128 .f32) (ix2 (0 : Fin 1) q) = b2 (ix1 q))
    (W3 : Mat 128) (h7 : ∀ k j : Fin 128, (V c main_arg15 : Vec Ideal S128x128 .f32) (ix2 k j) = W3 (ix2 k j))
    (b3 : Vec1) (h8 : ∀ q : Fin 128, (V c main_v24 : Vec Ideal S1x128 .f32) (ix2 (0 : Fin 1) q) = b3 (ix1 q))
    (g : Vec1) (h9 : ∀ q : Fin 128, (V c main_v25 : Vec Ideal S1x128 .f32) (ix2 (0 : Fin 1) q) = g (ix1 q))
    (be : Vec1) (h10 : ∀ q : Fin 128, (V c main_v26 : Vec Ideal S1x128 .f32) (ix2 (0 : Fin 1) q) = be (ix1 q))
    (t : Fin cfg1.N) :
    (dat1 V c).flushed 11 t = ((cfg1.win 11).blk t).view.read (Elt Ideal) (nodeG V c W1 b1 W2 b2 W3 b3 g be) := by
  show (cfg1.win 11).cut (grid1.coords t) ((dat1 V c).after 11 t) = _
  rw [after1_11]
  funext y
  exact node_point (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t)
    (nodeG V c W1 b1 W2 b2 W3 b3 g be) (((cfg1.win 11).blk t).view.emb)
    W1 (fun k j => (blk1_2 V c t k j).trans (h2 k j)) (fun k j => (blk1_3 V c t k j).trans (h3 k j))
    b1 (fun q => (blk1_4 V c t 0 q).trans (h4 q))
    W2 (fun k j => (blk1_5 V c t k j).trans (h5 k j)) b2 (fun q => (blk1_6 V c t 0 q).trans (h6 q))
    W3 (fun k j => (blk1_7 V c t k j).trans (h7 k j)) b3 (fun q => (blk1_8 V c t 0 q).trans (h8 q))
    g (fun q => (blk1_9 V c t 0 q).trans (h9 q)) be (fun q => (blk1_10 V c t 0 q).trans (h10 q))
    (fun p k => (V c main_arg0 : Vec Ideal S100000x128 .f32) (ix2 (⟨t.val * 4000 + p.val, by have := t.isLt; have := p.isLt; have hN : cfg1.N = 25 := N_1; omega⟩ : Fin 100000) k))
    (fun p k => (V c main_v19 : Vec Ideal S100000x128 .f32) (ix2 (⟨t.val * 4000 + p.val, by have := t.isLt; have := p.isLt; have hN : cfg1.N = 25 := N_1; omega⟩ : Fin 100000) k))
    (blk1_0 V c t) (blk1_1 V c t)
    (fun p j => by rw [emb1_11 t p j, nodeG_ix2]) y

/-- An index of the result array is in point `t`'s block iff each coordinate is in the block's range on its axis. -/
theorem mem_blk1_11 (t : Fin cfg1.N) (i : S100000x128.Idx) :
    i ∈ ((cfg1.win 11).blk t).view.set ↔ ∀ a : Fin 2, win1_11.index t a * S4000x128.size a ≤ (i a).val
      ∧ (i a).val < win1_11.index t a * S4000x128.size a + S4000x128.size a := by
  show i ∈ ((View.whole main_v27).slice (win1_11.rect t)).set ↔ _
  rw [View.set_slice_whole, Rect.mem_set_unit]
  exact Iff.rfl

/-- The 25 blocks tile the result array: row `v` lies in block `v / 4000`. -/
theorem cover1_11' (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  have hN : cfg1.N = 25 := N_1
  let t : Fin cfg1.N := ⟨(i 0).val / 4000, by omega⟩
  have h0 : win1_11.index t (0 : Fin 2) = (i 0).val / 4000 := (idxRows1 t).2.2.2.2.1
  have h1 : win1_11.index t (1 : Fin 2) = 0 := (idxRows1 t).2.2.2.2.2
  refine ⟨t, flush1_11 t, ?_⟩
  rw [mem_blk1_11]
  intro a
  match a with
  | ⟨0, _⟩ =>
    show win1_11.index t (0 : Fin 2) * 4000 ≤ (i 0).val ∧ (i 0).val < win1_11.index t (0 : Fin 2) * 4000 + 4000
    rw [h0]; omega
  | ⟨1, _⟩ =>
    show win1_11.index t (1 : Fin 2) * 128 ≤ (i 1).val ∧ (i 1).val < win1_11.index t (1 : Fin 2) * 128 + 128
    rw [h1]; omega

/-- THE RESULT ARRAY after region 1: the node network of every node. -/
theorem arr1_11 (c : Dev nD) (W1 : Mat 256) (h2 : ∀ k j : Fin 128, (V c main_v20 : Vec Ideal S128x128 .f32) (ix2 k j) = W1 (ix2 ⟨0 + k.val, by omega⟩ j))
    (h3 : ∀ k j : Fin 128, (V c main_v21 : Vec Ideal S128x128 .f32) (ix2 k j) = W1 (ix2 ⟨128 + k.val, by omega⟩ j))
    (b1 : Vec1) (h4 : ∀ q : Fin 128, (V c main_v22 : Vec Ideal S1x128 .f32) (ix2 (0 : Fin 1) q) = b1 (ix1 q))
    (W2 : Mat 128) (h5 : ∀ k j : Fin 128, (V c main_arg13 : Vec Ideal S128x128 .f32) (ix2 k j) = W2 (ix2 k j))
    (b2 : Vec1) (h6 : ∀ q : Fin 128, (V c main_v23 : Vec Ideal S1x128 .f32) (ix2 (0 : Fin 1) q) = b2 (ix1 q))
    (W3 : Mat 128) (h7 : ∀ k j : Fin 128, (V c main_arg15 : Vec Ideal S128x128 .f32) (ix2 k j) = W3 (ix2 k j))
    (b3 : Vec1) (h8 : ∀ q : Fin 128, (V c main_v24 : Vec Ideal S1x128 .f32) (ix2 (0 : Fin 1) q) = b3 (ix1 q))
    (g : Vec1) (h9 : ∀ q : Fin 128, (V c main_v25 : Vec Ideal S1x128 .f32) (ix2 (0 : Fin 1) q) = g (ix1 q))
    (be : Vec1) (h10 : ∀ q : Fin 128, (V c main_v26 : Vec Ideal S1x128 .f32) (ix2 (0 : Fin 1) q) = be (ix1 q)) :
    (dat1 V c).arrAt 11 cfg1.N = nodeG V c W1 b1 W2 b2 W3 b3 g be :=
  (dat1 V c).arrAt_eq_of_cover 11 (nodeG V c W1 b1 W2 b2 W3 b3 g be)
    (fun t _ => flushed1_11 V c W1 h2 h3 b1 h4 W2 h5 b2 h6 W3 h7 b3 h8 g h9 be h10 t) (cover1_11')

end Cert.KernelIdeal.KArrN

end
-- ==== Proof.RefNode.lean ====
/-
  The reference's node network, one node at a time.

  The reference's node result `main_v98`, of shape [100000, 128], is row by row the specification's node network
  applied to the node's own row of the input features and to its row of the aggregated messages `main_v59`.
  The first layer is a contraction of the two rows laid side by side (256 entries) with a weight matrix of 256 rows:
  the sum over the 256 entries splits at entry 128 into the node's row against rows 0–127 of the weights and the
  messages' row against rows 128–255. The second and third layers are plain affine layers with the rectifier in
  between, and the last stretch is the layer normalisation: the mean of the row, the mean of the squared deviations,
  and `(h - mean) · rsqrt (var + ε) · γ + β`. Every step below reads ONE operation of the chain at the index `(v, j)`
  from its operands at row `v`; the aggregated messages stay an opaque array throughout.
-/
import proofs.«412242_j86088324481849_2_alg».proof.Proof.Gen.ReferenceIdeal.Read
import proofs.«412242_j86088324481849_2_alg».proof.Proof.Spec
import proofs.«412242_j86088324481849_2_alg».proof.Proof.LibRowOps

noncomputable section

namespace Cert.ReferenceIdeal.RefValue

open Cert.ReferenceIdeal Cert.ReferenceIdeal.Gen Cert.ReferenceIdeal.Read Cert.GNN Idealize.ShloMosaic Idealize.ShloMosaic.ValueIdx
open scoped BigOperators

/-! The steps of the chain live in their own namespace; only the closing theorem sits beside the edge network's twin. -/
namespace Node

/-! ## Two 128-column pieces side by side -/

/-- Two `[n, 128]` pieces side by side: column `0 + k` of the result is column `k` of the first piece. -/
theorem cat128_left {α : Type} {n : ℕ} (a b : (⟨2, ![n, 128]⟩ : Shape).Idx → α)
    (h : Shape.Concatenates [(⟨2, ![n, 128]⟩ : Shape), ⟨2, ![n, 128]⟩] ⟨2, ![n, 256]⟩ 1) (p : Fin n) (k : Fin 128) :
    concatenate ⟨2, ![n, 256]⟩ 1 [⟨⟨2, ![n, 128]⟩, a⟩, ⟨⟨2, ![n, 128]⟩, b⟩] h (ix2 p (⟨0 + k.val, by omega⟩ : Fin 256))
      = a (ix2 p k) :=
  concatenate_pair_apply_left 1 a b h (ix2 p (⟨0 + k.val, by omega⟩ : Fin 256)) rfl (ix2 p k)
    (fun bb => by match bb with | ⟨0, _⟩ => rfl | ⟨1, _⟩ => exact (Nat.zero_add k.val).symm)

/-- Two `[n, 128]` pieces side by side: column `128 + k` of the result is column `k` of the second piece. -/
theorem cat128_right {α : Type} {n : ℕ} (a b : (⟨2, ![n, 128]⟩ : Shape).Idx → α)
    (h : Shape.Concatenates [(⟨2, ![n, 128]⟩ : Shape), ⟨2, ![n, 128]⟩] ⟨2, ![n, 256]⟩ 1) (p : Fin n) (k : Fin 128) :
    concatenate ⟨2, ![n, 256]⟩ 1 [⟨⟨2, ![n, 128]⟩, a⟩, ⟨⟨2, ![n, 128]⟩, b⟩] h (ix2 p (⟨128 + k.val, by omega⟩ : Fin 256))
      = b (ix2 p k) :=
  concatenate_pair_apply_right 1 a b h (ix2 p (⟨128 + k.val, by omega⟩ : Fin 256)) rfl rfl (ix2 p k)
    (fun bb hb => by match bb with | ⟨0, _⟩ => rfl | ⟨1, _⟩ => exact absurd rfl hb)
    (by show k.val + 128 = 128 + k.val; omega)

/-! ## The first layer: the node's row and the messages' row against the two halves of the weights -/

theorem lidx61 (v : Fin 100000) (j : Fin 128) (k : Fin 256) : lidx_main_v61 (ix2 v j) k = ix2 v k :=
  funext fun a => Fin.ext (by match a with | ⟨0, _⟩ => rfl | ⟨1, _⟩ => rfl)
theorem ridx61 (v : Fin 100000) (j : Fin 128) (k : Fin 256) : ridx_main_v61 (ix2 v j) k = ix2 k j :=
  funext fun a => Fin.ext (by match a with | ⟨0, _⟩ => rfl | ⟨1, _⟩ => rfl)
/-- The contraction of operation 61 at `(v, j)`: row `v` of the left operand against column `j` of the right. -/
theorem dot61 (y : (⟨S100000x256, .f32⟩ : BufTy).Contents (Elt Ideal)) (W : (⟨S256x128, .f32⟩ : BufTy).Contents (Elt Ideal)) (v : Fin 100000) (j : Fin 128) :
    ∑ k : Fin 256, y (lidx_main_v61 (ix2 v j) k) * W (ridx_main_v61 (ix2 v j) k) = ∑ k : Fin 256, y (ix2 v k) * W (ix2 k j) :=
  Finset.sum_congr rfl fun k _ => congrArg₂ (· * ·) (congrArg y (lidx61 v j k)) (congrArg W (ridx61 v j k))

theorem i62_63 (v : Fin 100000) (j : Fin 128) : idx_main_v62 (idx_main_v63 (ix2 v j)) = ix1 j :=
  funext fun a => Fin.ext (by match a with | ⟨0, _⟩ => rfl)
/-- A 128-entry vector broadcast down the rows reads, at `(v, j)`, its entry `j`. -/
theorem bias63 (x12 : (⟨S128, .f32⟩ : BufTy).Contents (Elt Ideal)) (v : Fin 100000) (j : Fin 128) : val_main_v63 (F := Ideal) x12 (ix2 v j) = x12 (ix1 j) :=
  (val_main_v63_apply x12 (ix2 v j)).trans ((val_main_v62_apply x12 _).trans (congrArg x12 (i62_63 v j)))

/-- The concatenation `main_v60` at column `0 + k` of row `v`: the node's own feature `k`. -/
theorem v60_left (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (v : Fin 100000) (k : Fin 128) :
    (val_main_v60 (F := Ideal) x0 x1 x2 x3 x4 x5 x6 x7 x8 x9 x10) (ix2 v (⟨0 + k.val, by omega⟩ : Fin 256)) = x0 (ix2 v k) :=
  cat128_left x0 (val_main_v59 (F := Ideal) x0 x1 x2 x3 x4 x5 x6 x7 x8 x9 x10) concatenates_S100000x128_S100000x128_S100000x256_d1 v k

/-- The concatenation `main_v60` at column `128 + k` of row `v`: entry `k` of the node's aggregated messages. -/
theorem v60_right (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (v : Fin 100000) (k : Fin 128) :
    (val_main_v60 (F := Ideal) x0 x1 x2 x3 x4 x5 x6 x7 x8 x9 x10) (ix2 v (⟨128 + k.val, by omega⟩ : Fin 256)) = (val_main_v59 (F := Ideal) x0 x1 x2 x3 x4 x5 x6 x7 x8 x9 x10) (ix2 v k) :=
  cat128_right x0 (val_main_v59 (F := Ideal) x0 x1 x2 x3 x4 x5 x6 x7 x8 x9 x10) concatenates_S100000x128_S100000x128_S100000x256_d1 v k

/-- The first contraction at `(v, j)`: the sum over the 256 joined entries, cut at entry 128. -/
theorem dot1_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (v : Fin 100000) (j : Fin 128) :
    (val_main_v61 (F := Ideal) x0 x1 x2 x3 x4 x5 x6 x7 x8 x9 x10 x11) (ix2 v j)
      = dotAt (fun k : Fin 128 => x0 (ix2 v k)) x11 0 (by omega) j + dotAt (fun k : Fin 128 => (val_main_v59 (F := Ideal) x0 x1 x2 x3 x4 x5 x6 x7 x8 x9 x10) (ix2 v k)) x11 128 (by omega) j := by
  refine (val_main_v61_apply x0 x1 x2 x3 x4 x5 x6 x7 x8 x9 x10 x11 (ix2 v j)).trans ?_
  refine (dot61 (val_main_v60 (F := Ideal) x0 x1 x2 x3 x4 x5 x6 x7 x8 x9 x10) x11 v j).trans ?_
  refine (sum256 (fun k : Fin 256 => (val_main_v60 (F := Ideal) x0 x1 x2 x3 x4 x5 x6 x7 x8 x9 x10) (ix2 v k) * x11 (ix2 k j))).trans ?_
  refine congrArg₂ (· + ·) (Finset.sum_congr rfl fun k _ => ?_) (Finset.sum_congr rfl fun k _ => ?_)
  · exact congrArg (fun z => z * x11 (ix2 (⟨0 + k.val, by omega⟩ : Fin 256) j)) (v60_left x0 x1 x2 x3 x4 x5 x6 x7 x8 x9 x10 v k)
  · exact congrArg (fun z => z * x11 (ix2 (⟨128 + k.val, by omega⟩ : Fin 256) j)) (v60_right x0 x1 x2 x3 x4 x5 x6 x7 x8 x9 x10 v k)

/-- The first layer before its rectifier, at `(v, j)`. -/
theorem l1_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (v : Fin 100000) (j : Fin 128) :
    (val_main_v64 (F := Ideal) x0 x1 x2 x3 x4 x5 x6 x7 x8 x9 x10 x11 x12) (ix2 v j) = nodeL1 (fun k : Fin 128 => x0 (ix2 v k)) (fun k : Fin 128 => (val_main_v59 (F := Ideal) x0 x1 x2 x3 x4 x5 x6 x7 x8 x9 x10) (ix2 v k)) x11 x12 j :=
  (val_main_v64_apply x0 x1 x2 x3 x4 x5 x6 x7 x8 x9 x10 x11 x12 (ix2 v j)).trans
    (congrArg₂ (· + ·) (dot1_apply x0 x1 x2 x3 x4 x5 x6 x7 x8 x9 x10 x11 v j) (bias63 x12 v j))

/-- The rectifier's constant array is zero everywhere. -/
theorem zero_call2 (i : S100000x128.Idx) : val_main_call2_v0 (F := Ideal) i = 0 :=
  (val_main_call2_v0_apply (F := Ideal) i).trans ((val_main_call2_cst_apply (F := Ideal) _).trans Ideal.ofBits_zero_f32)

/-- The rectifier at `(v, j)`. -/
theorem relu1_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (v : Fin 100000) (j : Fin 128) :
    (val_main_v65 (F := Ideal) x0 x1 x2 x3 x4 x5 x6 x7 x8 x9 x10 x11 x12) (ix2 v j) = relu (fun k : Fin 128 => (val_main_v64 (F := Ideal) x0 x1 x2 x3 x4 x5 x6 x7 x8 x9 x10 x11 x12) (ix2 v k)) j :=
  (val_main_v65_apply x0 x1 x2 x3 x4 x5 x6 x7 x8 x9 x10 x11 x12 (ix2 v j)).trans
    (congrArg (fun z => max ((val_main_v64 (F := Ideal) x0 x1 x2 x3 x4 x5 x6 x7 x8 x9 x10 x11 x12) (ix2 v j)) z) (zero_call2 (ix2 v j)))

/-! ## The second and third layers -/

theorem lidx66 (v : Fin 100000) (j : Fin 128) (k : Fin 128) : lidx_main_v66 (ix2 v j) k = ix2 v k :=
  funext fun a => Fin.ext (by match a with | ⟨0, _⟩ => rfl | ⟨1, _⟩ => rfl)
theorem ridx66 (v : Fin 100000) (j : Fin 128) (k : Fin 128) : ridx_main_v66 (ix2 v j) k = ix2 k j :=
  funext fun a => Fin.ext (by match a with | ⟨0, _⟩ => rfl | ⟨1, _⟩ => rfl)
/-- The contraction of operation 66 at `(v, j)`: row `v` of the left operand against column `j` of the right. -/
theorem dot66 (y : (⟨S100000x128, .f32⟩ : BufTy).Contents (Elt Ideal)) (W : (⟨S128x128, .f32⟩ : BufTy).Contents (Elt Ideal)) (v : Fin 100000) (j : Fin 128) :
    ∑ k : Fin 128, y (lidx_main_v66 (ix2 v j) k) * W (ridx_main_v66 (ix2 v j) k) = ∑ k : Fin 128, y (ix2 v k) * W (ix2 k j) :=
  Finset.sum_congr rfl fun k _ => congrArg₂ (· * ·) (congrArg y (lidx66 v j k)) (congrArg W (ridx66 v j k))

theorem i67_68 (v : Fin 100000) (j : Fin 128) : idx_main_v67 (idx_main_v68 (ix2 v j)) = ix1 j :=
  funext fun a => Fin.ext (by match a with | ⟨0, _⟩ => rfl)
/-- A 128-entry vector broadcast down the rows reads, at `(v, j)`, its entry `j`. -/
theorem bias68 (x14 : (⟨S128, .f32⟩ : BufTy).Contents (Elt Ideal)) (v : Fin 100000) (j : Fin 128) : val_main_v68 (F := Ideal) x14 (ix2 v j) = x14 (ix1 j) :=
  (val_main_v68_apply x14 (ix2 v j)).trans ((val_main_v67_apply x14 _).trans (congrArg x14 (i67_68 v j)))

/-- An affine layer at `(v, j)`: row `v` of its operand against column `j` of the weights, plus entry `j` of the bias. -/
theorem l2_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (v : Fin 100000) (j : Fin 128) :
    (val_main_v69 (F := Ideal) x0 x1 x2 x3 x4 x5 x6 x7 x8 x9 x10 x11 x12 x13 x14) (ix2 v j) = aff (fun k : Fin 128 => (val_main_v65 (F := Ideal) x0 x1 x2 x3 x4 x5 x6 x7 x8 x9 x10 x11 x12) (ix2 v k)) x13 x14 j :=
  (val_main_v69_apply x0 x1 x2 x3 x4 x5 x6 x7 x8 x9 x10 x11 x12 x13 x14 (ix2 v j)).trans
    (congrArg₂ (· + ·)
      ((val_main_v66_apply x0 x1 x2 x3 x4 x5 x6 x7 x8 x9 x10 x11 x12 x13 (ix2 v j)).trans (dot66 (val_main_v65 (F := Ideal) x0 x1 x2 x3 x4 x5 x6 x7 x8 x9 x10 x11 x12) x13 v j))
      (bias68 x14 v j))

/-- The rectifier's constant array is zero everywhere. -/
theorem zero_call3 (i : S100000x128.Idx) : val_main_call3_v0 (F := Ideal) i = 0 :=
  (val_main_call3_v0_apply (F := Ideal) i).trans ((val_main_call3_cst_apply (F := Ideal) _).trans Ideal.ofBits_zero_f32)

/-- The rectifier at `(v, j)`. -/
theorem relu2_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (v : Fin 100000) (j : Fin 128) :
    (val_main_v70 (F := Ideal) x0 x1 x2 x3 x4 x5 x6 x7 x8 x9 x10 x11 x12 x13 x14) (ix2 v j) = relu (fun k : Fin 128 => (val_main_v69 (F := Ideal) x0 x1 x2 x3 x4 x5 x6 x7 x8 x9 x10 x11 x12 x13 x14) (ix2 v k)) j :=
  (val_main_v70_apply x0 x1 x2 x3 x4 x5 x6 x7 x8 x9 x10 x11 x12 x13 x14 (ix2 v j)).trans
    (congrArg (fun z => max ((val_main_v69 (F := Ideal) x0 x1 x2 x3 x4 x5 x6 x7 x8 x9 x10 x11 x12 x13 x14) (ix2 v j)) z) (zero_call3 (ix2 v j)))

theorem lidx71 (v : Fin 100000) (j : Fin 128) (k : Fin 128) : lidx_main_v71 (ix2 v j) k = ix2 v k :=
  funext fun a => Fin.ext (by match a with | ⟨0, _⟩ => rfl | ⟨1, _⟩ => rfl)
theorem ridx71 (v : Fin 100000) (j : Fin 128) (k : Fin 128) : ridx_main_v71 (ix2 v j) k = ix2 k j :=
  funext fun a => Fin.ext (by match a with | ⟨0, _⟩ => rfl | ⟨1, _⟩ => rfl)
/-- The contraction of operation 71 at `(v, j)`: row `v` of the left operand against column `j` of the right. -/
theorem dot71 (y : (⟨S100000x128, .f32⟩ : BufTy).Contents (Elt Ideal)) (W : (⟨S128x128, .f32⟩ : BufTy).Contents (Elt Ideal)) (v : Fin 100000) (j : Fin 128) :
    ∑ k : Fin 128, y (lidx_main_v71 (ix2 v j) k) * W (ridx_main_v71 (ix2 v j) k) = ∑ k : Fin 128, y (ix2 v k) * W (ix2 k j) :=
  Finset.sum_congr rfl fun k _ => congrArg₂ (· * ·) (congrArg y (lidx71 v j k)) (congrArg W (ridx71 v j k))

theorem i72_73 (v : Fin 100000) (j : Fin 128) : idx_main_v72 (idx_main_v73 (ix2 v j)) = ix1 j :=
  funext fun a => Fin.ext (by match a with | ⟨0, _⟩ => rfl)
/-- A 128-entry vector broadcast down the rows reads, at `(v, j)`, its entry `j`. -/
theorem bias73 (x16 : (⟨S128, .f32⟩ : BufTy).Contents (Elt Ideal)) (v : Fin 100000) (j : Fin 128) : val_main_v73 (F := Ideal) x16 (ix2 v j) = x16 (ix1 j) :=
  (val_main_v73_apply x16 (ix2 v j)).trans ((val_main_v72_apply x16 _).trans (congrArg x16 (i72_73 v j)))

/-- An affine layer at `(v, j)`: row `v` of its operand against column `j` of the weights, plus entry `j` of the bias. -/
theorem l3_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) (j : Fin 128) :
    (val_main_v74 (F := Ideal) x0 x1 x2 x3 x4 x5 x6 x7 x8 x9 x10 x11 x12 x13 x14 x15 x16) (ix2 v j) = aff (fun k : Fin 128 => (val_main_v70 (F := Ideal) x0 x1 x2 x3 x4 x5 x6 x7 x8 x9 x10 x11 x12 x13 x14) (ix2 v k)) x15 x16 j :=
  (val_main_v74_apply x0 x1 x2 x3 x4 x5 x6 x7 x8 x9 x10 x11 x12 x13 x14 x15 x16 (ix2 v j)).trans
    (congrArg₂ (· + ·)
      ((val_main_v71_apply x0 x1 x2 x3 x4 x5 x6 x7 x8 x9 x10 x11 x12 x13 x14 x15 (ix2 v j)).trans (dot71 (val_main_v70 (F := Ideal) x0 x1 x2 x3 x4 x5 x6 x7 x8 x9 x10 x11 x12 x13 x14) x15 v j))
      (bias73 x16 v j))

/-! ## The layer normalisation of the third layer's row -/

theorem i75 (v : Fin 100000) (k : Fin 128) : idx_main_v75 (ix1 v) k = ix2 v k :=
  funext fun a => Fin.ext (by match a with | ⟨0, _⟩ => rfl | ⟨1, _⟩ => rfl)
theorem i76 (v : Fin 100000) : idx_main_v76 (ix2 v (⟨0, Nat.one_pos⟩ : Fin 1)) = ix1 v :=
  funext fun a => Fin.ext (by match a with | ⟨0, _⟩ => rfl)
theorem i79 (v : Fin 100000) (j : Fin 128) : idx_main_v79 (ix2 v j) = ix2 v (⟨0, Nat.one_pos⟩ : Fin 1) :=
  funext fun a => Fin.ext (by match a with | ⟨0, _⟩ => rfl | ⟨1, _⟩ => rfl)
theorem i82 (v : Fin 100000) (k : Fin 128) : idx_main_v82 (ix1 v) k = ix2 v k :=
  funext fun a => Fin.ext (by match a with | ⟨0, _⟩ => rfl | ⟨1, _⟩ => rfl)
theorem i83 (v : Fin 100000) : idx_main_v83 (ix2 v (⟨0, Nat.one_pos⟩ : Fin 1)) = ix1 v :=
  funext fun a => Fin.ext (by match a with | ⟨0, _⟩ => rfl)
theorem i86 (v : Fin 100000) (j : Fin 128) : idx_main_v86 (ix2 v j) = ix2 v (⟨0, Nat.one_pos⟩ : Fin 1) :=
  funext fun a => Fin.ext (by match a with | ⟨0, _⟩ => rfl | ⟨1, _⟩ => rfl)
theorem i91 (v : Fin 100000) (j : Fin 128) : idx_main_v91 (ix2 v j) = ix2 v (⟨0, Nat.one_pos⟩ : Fin 1) :=
  funext fun a => Fin.ext (by match a with | ⟨0, _⟩ => rfl | ⟨1, _⟩ => rfl)

theorem i93_94 (v : Fin 100000) (j : Fin 128) : idx_main_v93 (idx_main_v94 (ix2 v j)) = ix1 j :=
  funext fun a => Fin.ext (by match a with | ⟨0, _⟩ => rfl)
/-- A 128-entry vector broadcast down the rows reads, at `(v, j)`, its entry `j`. -/
theorem bias94 (x17 : (⟨S128, .f32⟩ : BufTy).Contents (Elt Ideal)) (v : Fin 100000) (j : Fin 128) : val_main_v94 (F := Ideal) x17 (ix2 v j) = x17 (ix1 j) :=
  (val_main_v94_apply x17 (ix2 v j)).trans ((val_main_v93_apply x17 _).trans (congrArg x17 (i93_94 v j)))

theorem i96_97 (v : Fin 100000) (j : Fin 128) : idx_main_v96 (idx_main_v97 (ix2 v j)) = ix1 j :=
  funext fun a => Fin.ext (by match a with | ⟨0, _⟩ => rfl)
/-- A 128-entry vector broadcast down the rows reads, at `(v, j)`, its entry `j`. -/
theorem bias97 (x18 : (⟨S128, .f32⟩ : BufTy).Contents (Elt Ideal)) (v : Fin 100000) (j : Fin 128) : val_main_v97 (F := Ideal) x18 (ix2 v j) = x18 (ix1 j) :=
  (val_main_v97_apply x18 (ix2 v j)).trans ((val_main_v96_apply x18 _).trans (congrArg x18 (i96_97 v j)))

/-- The divisor of the mean: the number 128. -/
theorem c128_77 (i : S100000x1.Idx) : val_main_v77 (F := Ideal) i = c128 :=
  (val_main_v77_apply (F := Ideal) i).trans (val_main_cst_9_apply (F := Ideal) _)

/-- The divisor of the variance: the number 128. -/
theorem c128_84 (i : S100000x1.Idx) : val_main_v84 (F := Ideal) i = c128 :=
  (val_main_v84_apply (F := Ideal) i).trans (val_main_cst_11_apply (F := Ideal) _)

/-- The normalisation's ε. -/
theorem eps88 (i : S100000x1.Idx) : val_main_v88 (F := Ideal) i = ceps :=
  (val_main_v88_apply (F := Ideal) i).trans (val_main_cst_12_apply (F := Ideal) _)

/-- The sum of row `v` of the third layer (the sum starts from zero). -/
theorem rowsum75 (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) :
    (val_main_v75 (F := Ideal) x0 x1 x2 x3 x4 x5 x6 x7 x8 x9 x10 x11 x12 x13 x14 x15 x16) (ix1 v) = ∑ k : Fin 128, (val_main_v74 (F := Ideal) x0 x1 x2 x3 x4 x5 x6 x7 x8 x9 x10 x11 x12 x13 x14 x15 x16) (ix2 v k) :=
  (val_main_v75_apply x0 x1 x2 x3 x4 x5 x6 x7 x8 x9 x10 x11 x12 x13 x14 x15 x16 (ix1 v)).trans
    ((congrArg₂ (· + ·)
        ((val_main_cst_8_apply (F := Ideal) _).trans Ideal.ofBits_zero_f32)
        (Finset.sum_congr rfl fun k _ => congrArg (val_main_v74 (F := Ideal) x0 x1 x2 x3 x4 x5 x6 x7 x8 x9 x10 x11 x12 x13 x14 x15 x16) (i75 v k))).trans (zero_add _))

/-- The mean of row `v`. -/
theorem mean_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) :
    (val_main_v78 (F := Ideal) x0 x1 x2 x3 x4 x5 x6 x7 x8 x9 x10 x11 x12 x13 x14 x15 x16) (ix2 v (⟨0, Nat.one_pos⟩ : Fin 1)) = mean (fun k : Fin 128 => (val_main_v74 (F := Ideal) x0 x1 x2 x3 x4 x5 x6 x7 x8 x9 x10 x11 x12 x13 x14 x15 x16) (ix2 v k)) :=
  (val_main_v78_apply x0 x1 x2 x3 x4 x5 x6 x7 x8 x9 x10 x11 x12 x13 x14 x15 x16 (ix2 v (⟨0, Nat.one_pos⟩ : Fin 1))).trans
    (congrArg₂ Ideal.div
      ((val_main_v76_apply x0 x1 x2 x3 x4 x5 x6 x7 x8 x9 x10 x11 x12 x13 x14 x15 x16 (ix2 v (⟨0, Nat.one_pos⟩ : Fin 1))).trans ((congrArg (val_main_v75 (F := Ideal) x0 x1 x2 x3 x4 x5 x6 x7 x8 x9 x10 x11 x12 x13 x14 x15 x16) (i76 v)).trans (rowsum75 x0 x1 x2 x3 x4 x5 x6 x7 x8 x9 x10 x11 x12 x13 x14 x15 x16 v)))
      (c128_77 (ix2 v (⟨0, Nat.one_pos⟩ : Fin 1))))

/-- The deviation from the row's mean, at `(v, j)`. -/
theorem dev80 (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) (j : Fin 128) :
    (val_main_v80 (F := Ideal) x0 x1 x2 x3 x4 x5 x6 x7 x8 x9 x10 x11 x12 x13 x14 x15 x16) (ix2 v j) = (val_main_v74 (F := Ideal) x0 x1 x2 x3 x4 x5 x6 x7 x8 x9 x10 x11 x12 x13 x14 x15 x16) (ix2 v j) - mean (fun k : Fin 128 => (val_main_v74 (F := Ideal) x0 x1 x2 x3 x4 x5 x6 x7 x8 x9 x10 x11 x12 x13 x14 x15 x16) (ix2 v k)) :=
  (val_main_v80_apply x0 x1 x2 x3 x4 x5 x6 x7 x8 x9 x10 x11 x12 x13 x14 x15 x16 (ix2 v j)).trans
    (congrArg (fun z => (val_main_v74 (F := Ideal) x0 x1 x2 x3 x4 x5 x6 x7 x8 x9 x10 x11 x12 x13 x14 x15 x16) (ix2 v j) - z)
      ((val_main_v79_apply x0 x1 x2 x3 x4 x5 x6 x7 x8 x9 x10 x11 x12 x13 x14 x15 x16 (ix2 v j)).trans ((congrArg (val_main_v78 (F := Ideal) x0 x1 x2 x3 x4 x5 x6 x7 x8 x9 x10 x11 x12 x13 x14 x15 x16) (i79 v j)).trans (mean_apply x0 x1 x2 x3 x4 x5 x6 x7 x8 x9 x10 x11 x12 x13 x14 x15 x16 v))))

/-- The squared deviation, at `(v, j)`. -/
theorem sq81 (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) (j : Fin 128) :
    (val_main_v81 (F := Ideal) x0 x1 x2 x3 x4 x5 x6 x7 x8 x9 x10 x11 x12 x13 x14 x15 x16) (ix2 v j) = ((val_main_v74 (F := Ideal) x0 x1 x2 x3 x4 x5 x6 x7 x8 x9 x10 x11 x12 x13 x14 x15 x16) (ix2 v j) - mean (fun k : Fin 128 => (val_main_v74 (F := Ideal) x0 x1 x2 x3 x4 x5 x6 x7 x8 x9 x10 x11 x12 x13 x14 x15 x16) (ix2 v k))) * ((val_main_v74 (F := Ideal) x0 x1 x2 x3 x4 x5 x6 x7 x8 x9 x10 x11 x12 x13 x14 x15 x16) (ix2 v j) - mean (fun k : Fin 128 => (val_main_v74 (F := Ideal) x0 x1 x2 x3 x4 x5 x6 x7 x8 x9 x10 x11 x12 x13 x14 x15 x16) (ix2 v k))) :=
  (val_main_v81_apply x0 x1 x2 x3 x4 x5 x6 x7 x8 x9 x10 x11 x12 x13 x14 x15 x16 (ix2 v j)).trans (congrArg₂ (· * ·) (dev80 x0 x1 x2 x3 x4 x5 x6 x7 x8 x9 x10 x11 x12 x13 x14 x15 x16 v j) (dev80 x0 x1 x2 x3 x4 x5 x6 x7 x8 x9 x10 x11 x12 x13 x14 x15 x16 v j))

/-- The sum of the squared deviations of row `v`. -/
theorem rowsum82 (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) :
    (val_main_v82 (F := Ideal) x0 x1 x2 x3 x4 x5 x6 x7 x8 x9 x10 x11 x12 x13 x14 x15 x16) (ix1 v) = ∑ k : Fin 128, ((val_main_v74 (F := Ideal) x0 x1 x2 x3 x4 x5 x6 x7 x8 x9 x10 x11 x12 x13 x14 x15 x16) (ix2 v k) - mean (fun k : Fin 128 => (val_main_v74 (F := Ideal) x0 x1 x2 x3 x4 x5 x6 x7 x8 x9 x10 x11 x12 x13 x14 x15 x16) (ix2 v k))) * ((val_main_v74 (F := Ideal) x0 x1 x2 x3 x4 x5 x6 x7 x8 x9 x10 x11 x12 x13 x14 x15 x16) (ix2 v k) - mean (fun k : Fin 128 => (val_main_v74 (F := Ideal) x0 x1 x2 x3 x4 x5 x6 x7 x8 x9 x10 x11 x12 x13 x14 x15 x16) (ix2 v k))) :=
  (val_main_v82_apply x0 x1 x2 x3 x4 x5 x6 x7 x8 x9 x10 x11 x12 x13 x14 x15 x16 (ix1 v)).trans
    ((congrArg₂ (· + ·)
        ((val_main_cst_10_apply (F := Ideal) _).trans Ideal.ofBits_zero_f32)
        (Finset.sum_congr rfl fun k _ => (congrArg (val_main_v81 (F := Ideal) x0 x1 x2 x3 x4 x5 x6 x7 x8 x9 x10 x11 x12 x13 x14 x15 x16) (i82 v k)).trans (sq81 x0 x1 x2 x3 x4 x5 x6 x7 x8 x9 x10 x11 x12 x13 x14 x15 x16 v k))).trans (zero_add _))

/-- The variance of row `v`. -/
theorem var_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) :
    (val_main_v85 (F := Ideal) x0 x1 x2 x3 x4 x5 x6 x7 x8 x9 x10 x11 x12 x13 x14 x15 x16) (ix2 v (⟨0, Nat.one_pos⟩ : Fin 1)) = var (fun k : Fin 128 => (val_main_v74 (F := Ideal) x0 x1 x2 x3 x4 x5 x6 x7 x8 x9 x10 x11 x12 x13 x14 x15 x16) (ix2 v k)) :=
  (val_main_v85_apply x0 x1 x2 x3 x4 x5 x6 x7 x8 x9 x10 x11 x12 x13 x14 x15 x16 (ix2 v (⟨0, Nat.one_pos⟩ : Fin 1))).trans
    (congrArg₂ Ideal.div
      ((val_main_v83_apply x0 x1 x2 x3 x4 x5 x6 x7 x8 x9 x10 x11 x12 x13 x14 x15 x16 (ix2 v (⟨0, Nat.one_pos⟩ : Fin 1))).trans ((congrArg (val_main_v82 (F := Ideal) x0 x1 x2 x3 x4 x5 x6 x7 x8 x9 x10 x11 x12 x13 x14 x15 x16) (i83 v)).trans (rowsum82 x0 x1 x2 x3 x4 x5 x6 x7 x8 x9 x10 x11 x12 x13 x14 x15 x16 v)))
      (c128_84 (ix2 v (⟨0, Nat.one_pos⟩ : Fin 1))))

/-- The deviation from the row's mean, at `(v, j)`. -/
theorem dev87 (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) (j : Fin 128) :
    (val_main_v87 (F := Ideal) x0 x1 x2 x3 x4 x5 x6 x7 x8 x9 x10 x11 x12 x13 x14 x15 x16) (ix2 v j) = (val_main_v74 (F := Ideal) x0 x1 x2 x3 x4 x5 x6 x7 x8 x9 x10 x11 x12 x13 x14 x15 x16) (ix2 v j) - mean (fun k : Fin 128 => (val_main_v74 (F := Ideal) x0 x1 x2 x3 x4 x5 x6 x7 x8 x9 x10 x11 x12 x13 x14 x15 x16) (ix2 v k)) :=
  (val_main_v87_apply x0 x1 x2 x3 x4 x5 x6 x7 x8 x9 x10 x11 x12 x13 x14 x15 x16 (ix2 v j)).trans
    (congrArg (fun z => (val_main_v74 (F := Ideal) x0 x1 x2 x3 x4 x5 x6 x7 x8 x9 x10 x11 x12 x13 x14 x15 x16) (ix2 v j) - z)
      ((val_main_v86_apply x0 x1 x2 x3 x4 x5 x6 x7 x8 x9 x10 x11 x12 x13 x14 x15 x16 (ix2 v j)).trans ((congrArg (val_main_v78 (F := Ideal) x0 x1 x2 x3 x4 x5 x6 x7 x8 x9 x10 x11 x12 x13 x14 x15 x16) (i86 v j)).trans (mean_apply x0 x1 x2 x3 x4 x5 x6 x7 x8 x9 x10 x11 x12 x13 x14 x15 x16 v))))

/-- The reciprocal square root of the variance plus ε, broadcast along row `v`. -/
theorem rs91 (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (v : Fin 100000) (j : Fin 128) :
    (val_main_v91 (F := Ideal) x0 x1 x2 x3 x4 x5 x6 x7 x8 x9 x10 x11 x12 x13 x14 x15 x16) (ix2 v j) = Ideal.rsqrt (var (fun k : Fin 128 => (val_main_v74 (F := Ideal) x0 x1 x2 x3 x4 x5 x6 x7 x8 x9 x10 x11 x12 x13 x14 x15 x16) (ix2 v k)) + ceps) :=
  (val_main_v91_apply x0 x1 x2 x3 x4 x5 x6 x7 x8 x9 x10 x11 x12 x13 x14 x15 x16 (ix2 v j)).trans
    ((congrArg (val_main_v90 (F := Ideal) x0 x1 x2 x3 x4 x5 x6 x7 x8 x9 x10 x11 x12 x13 x14 x15 x16) (i91 v j)).trans
      ((val_main_v90_apply x0 x1 x2 x3 x4 x5 x6 x7 x8 x9 x10 x11 x12 x13 x14 x15 x16 (ix2 v (⟨0, Nat.one_pos⟩ : Fin 1))).trans
        (congrArg Ideal.rsqrt
          ((val_main_v89_apply x0 x1 x2 x3 x4 x5 x6 x7 x8 x9 x10 x11 x12 x13 x14 x15 x16 (ix2 v (⟨0, Nat.one_pos⟩ : Fin 1))).trans
            (congrArg₂ (· + ·) (var_apply x0 x1 x2 x3 x4 x5 x6 x7 x8 x9 x10 x11 x12 x13 x14 x15 x16 v) (eps88 (ix2 v (⟨0, Nat.one_pos⟩ : Fin 1))))))))

/-- The normalised row, scaled and shifted, at `(v, j)`. -/
theorem ln_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (v : Fin 100000) (j : Fin 128) :
    (val_main_v98 (F := Ideal) x0 x1 x2 x3 x4 x5 x6 x7 x8 x9 x10 x11 x12 x13 x14 x15 x16 x17 x18) (ix2 v j) = ln (fun k : Fin 128 => (val_main_v74 (F := Ideal) x0 x1 x2 x3 x4 x5 x6 x7 x8 x9 x10 x11 x12 x13 x14 x15 x16) (ix2 v k)) x17 x18 j :=
  (val_main_v98_apply x0 x1 x2 x3 x4 x5 x6 x7 x8 x9 x10 x11 x12 x13 x14 x15 x16 x17 x18 (ix2 v j)).trans
    (congrArg₂ (· + ·)
      ((val_main_v95_apply x0 x1 x2 x3 x4 x5 x6 x7 x8 x9 x10 x11 x12 x13 x14 x15 x16 x17 (ix2 v j)).trans
        (congrArg₂ (· * ·)
          ((val_main_v92_apply x0 x1 x2 x3 x4 x5 x6 x7 x8 x9 x10 x11 x12 x13 x14 x15 x16 (ix2 v j)).trans (congrArg₂ (· * ·) (dev87 x0 x1 x2 x3 x4 x5 x6 x7 x8 x9 x10 x11 x12 x13 x14 x15 x16 v j) (rs91 x0 x1 x2 x3 x4 x5 x6 x7 x8 x9 x10 x11 x12 x13 x14 x15 x16 v j)))
          (bias94 x17 v j)))
      (bias97 x18 v j))

end Node

/-! ## The node network on one node -/

open Node in
/-- The reference's node result at `(v, j)` is the specification's node network on node `v`'s own row and its row of the
    aggregated messages. -/
theorem node_apply (x0 : (⟨S100000x128, .f32⟩ : BufTy).Contents (Elt Ideal)) (x1 : (⟨S2x640000, .i32⟩ : BufTy).Contents (Elt Ideal)) (x2 : (⟨S640000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 x17 x18 : (⟨S128, .f32⟩ : BufTy).Contents (Elt Ideal)) (v : Fin 100000) (j : Fin 128) :
    val_main_v98 (F := Ideal) x0 x1 x2 x3 x4 x5 x6 x7 x8 x9 x10 x11 x12 x13 x14 x15 x16 x17 x18 (ix2 v j)
      = nodeRow (fun k => x0 (ix2 v k)) (fun k => val_main_v59 (F := Ideal) x0 x1 x2 x3 x4 x5 x6 x7 x8 x9 x10 (ix2 v k)) x11 x12 x13 x14 x15 x16 x17 x18 j := by
  have e1 : (fun k : Fin 128 => (val_main_v64 (F := Ideal) x0 x1 x2 x3 x4 x5 x6 x7 x8 x9 x10 x11 x12) (ix2 v k)) = nodeL1 (fun k : Fin 128 => x0 (ix2 v k)) (fun k : Fin 128 => (val_main_v59 (F := Ideal) x0 x1 x2 x3 x4 x5 x6 x7 x8 x9 x10) (ix2 v k)) x11 x12 :=
    funext fun k => l1_apply x0 x1 x2 x3 x4 x5 x6 x7 x8 x9 x10 x11 x12 v k
  have e2 : (fun k : Fin 128 => (val_main_v65 (F := Ideal) x0 x1 x2 x3 x4 x5 x6 x7 x8 x9 x10 x11 x12) (ix2 v k)) = relu (nodeL1 (fun k : Fin 128 => x0 (ix2 v k)) (fun k : Fin 128 => (val_main_v59 (F := Ideal) x0 x1 x2 x3 x4 x5 x6 x7 x8 x9 x10) (ix2 v k)) x11 x12) :=
    funext fun k => (relu1_apply x0 x1 x2 x3 x4 x5 x6 x7 x8 x9 x10 x11 x12 v k).trans (congrArg (fun h : Cert.GNN.Row => relu h k) e1)
  have e3 : (fun k : Fin 128 => (val_main_v69 (F := Ideal) x0 x1 x2 x3 x4 x5 x6 x7 x8 x9 x10 x11 x12 x13 x14) (ix2 v k)) = aff (relu (nodeL1 (fun k : Fin 128 => x0 (ix2 v k)) (fun k : Fin 128 => (val_main_v59 (F := Ideal) x0 x1 x2 x3 x4 x5 x6 x7 x8 x9 x10) (ix2 v k)) x11 x12)) x13 x14 :=
    funext fun k => (l2_apply x0 x1 x2 x3 x4 x5 x6 x7 x8 x9 x10 x11 x12 x13 x14 v k).trans (congrArg (fun h : Cert.GNN.Row => aff h x13 x14 k) e2)
  have e4 : (fun k : Fin 128 => (val_main_v70 (F := Ideal) x0 x1 x2 x3 x4 x5 x6 x7 x8 x9 x10 x11 x12 x13 x14) (ix2 v k)) = relu (aff (relu (nodeL1 (fun k : Fin 128 => x0 (ix2 v k)) (fun k : Fin 128 => (val_main_v59 (F := Ideal) x0 x1 x2 x3 x4 x5 x6 x7 x8 x9 x10) (ix2 v k)) x11 x12)) x13 x14) :=
    funext fun k => (relu2_apply x0 x1 x2 x3 x4 x5 x6 x7 x8 x9 x10 x11 x12 x13 x14 v k).trans (congrArg (fun h : Cert.GNN.Row => relu h k) e3)
  have e5 : (fun k : Fin 128 => (val_main_v74 (F := Ideal) x0 x1 x2 x3 x4 x5 x6 x7 x8 x9 x10 x11 x12 x13 x14 x15 x16) (ix2 v k)) = aff (relu (aff (relu (nodeL1 (fun k : Fin 128 => x0 (ix2 v k)) (fun k : Fin 128 => (val_main_v59 (F := Ideal) x0 x1 x2 x3 x4 x5 x6 x7 x8 x9 x10) (ix2 v k)) x11 x12)) x13 x14)) x15 x16 :=
    funext fun k => (l3_apply x0 x1 x2 x3 x4 x5 x6 x7 x8 x9 x10 x11 x12 x13 x14 x15 x16 v k).trans (congrArg (fun h : Cert.GNN.Row => aff h x15 x16 k) e4)
  exact (ln_apply x0 x1 x2 x3 x4 x5 x6 x7 x8 x9 x10 x11 x12 x13 x14 x15 x16 x17 x18 v j).trans (congrArg (fun h : Cert.GNN.Row => ln h x17 x18 j) e5)

end Cert.ReferenceIdeal.RefValue

end
-- ==== Proof.NodeFinal.lean ====
/-
  The kernel's node result is the reference's node result.

  Region 1 of the kernel writes, block by block, the specification's node network of every node: of row v of the node
  features and of row v of the aggregated messages it finds at its entry, with the weights it finds there. The
  reference's node result at (v, j) is the same network of row v of the node features and of row v of its own
  aggregated messages. This module joins the two. The arrays the region finds are the launch arguments carried through
  the host operations between the regions: the two 128-row cuts of the first weight matrix, the biases, scale and
  shift recast to one row, the node features untouched — and the aggregated messages: the scatter-add of region 0's
  result into a zero array at the rows named by row 1 of the edge list. Region 0's result is the reference's edge
  result (the edge bridge), so the kernel's scatter-add is, as a whole term, the reference's: same zero array, same
  index column, equal rows to add. With the operands identified, the two node results are the same function of the
  launch arguments.
-/
import proofs.«412242_j86088324481849_2_alg».proof.Proof.EdgeFinal
import proofs.«412242_j86088324481849_2_alg».proof.Proof.KNodeArr
import proofs.«412242_j86088324481849_2_alg».proof.Proof.KOperands
import proofs.«412242_j86088324481849_2_alg».proof.Proof.RefNode
import Idealize.ShloMosaic.Lib.ValueLayout

noncomputable section

namespace Cert.KFinal

open Cert.KernelIdeal Cert.GNN
open Idealize.ShloMosaic Idealize.ShloMosaic.TcCoe Idealize.ShloMosaic.ValueIdx

variable [Cert.Pre_finite_inputs.Facts]

/-! ## The operands region 1 finds, entry by entry, as the launch arguments -/

/-- Rows 0 … 127 of a `[256, 128]` matrix cut out of it: entry `(k, j)` of the cut is entry `(0 + k, j)` of the matrix. -/
theorem rows_lo (X : Mat 256) (h : (⟨2, ![256, 128]⟩ : Shape).Slices ![0, 0] ⟨2, ![128, 128]⟩) (k j : Fin 128) :
    extractStridedSlice ⟨2, ![128, 128]⟩ ![0, 0] X h (ix2 k j) = X (ix2 ⟨0 + k.val, by omega⟩ j) :=
  slice2_axis0_apply 0 X h k j ⟨0 + k.val, by omega⟩ rfl

/-- Rows 128 … 255 of it: entry `(k, j)` of the cut is entry `(128 + k, j)` of the matrix. -/
theorem rows_hi (X : Mat 256) (h : (⟨2, ![256, 128]⟩ : Shape).Slices ![128, 0] ⟨2, ![128, 128]⟩) (k j : Fin 128) :
    extractStridedSlice ⟨2, ![128, 128]⟩ ![128, 0] X h (ix2 k j) = X (ix2 ⟨128 + k.val, by omega⟩ j) :=
  slice2_axis0_apply 128 X h k j ⟨128 + k.val, by omega⟩ rfl

/-- The first cut of the first layer's weights is rows 0 … 127 of argument 11. -/
theorem n_w2 (m : (ℓ : Loc nD τ sig) → Buf (Elt Ideal) ℓ) (ρ : Dev nD → PrngReg) (c : Dev nD) (k j : Fin 128) :
    (Gen.V7 m ρ c main_v20 : Vec Ideal S128x128 .f32) (ix2 k j) = ((m ((c.tc : Thread nD τ).loc main_arg11)) : Mat 256) (ix2 ⟨0 + k.val, by omega⟩ j) :=
  (congrFun (KOperands.r1_w2 m ρ c) (ix2 k j)).trans (rows_lo _ _ k j)

/-- The second cut is rows 128 … 255 of argument 11. -/
theorem n_w3 (m : (ℓ : Loc nD τ sig) → Buf (Elt Ideal) ℓ) (ρ : Dev nD → PrngReg) (c : Dev nD) (k j : Fin 128) :
    (Gen.V7 m ρ c main_v21 : Vec Ideal S128x128 .f32) (ix2 k j) = ((m ((c.tc : Thread nD τ).loc main_arg11)) : Mat 256) (ix2 ⟨128 + k.val, by omega⟩ j) :=
  (congrFun (KOperands.r1_w3 m ρ c) (ix2 k j)).trans (rows_hi _ _ k j)

/-- The first layer's bias row is argument 12 recast to `[1, 128]`. -/
theorem n_w4 (m : (ℓ : Loc nD τ sig) → Buf (Elt Ideal) ℓ) (ρ : Dev nD → PrngReg) (c : Dev nD) (q : Fin 128) :
    (Gen.V7 m ρ c main_v22 : Vec Ideal S1x128 .f32) (ix2 (0 : Fin 1) q) = ((m ((c.tc : Thread nD τ).loc main_arg12)) : Vec1) (ix1 q) :=
  (congrFun (KOperands.r1_w4 m ρ c) (ix2 (0 : Fin 1) q)).trans (shapeCast_a_1a_apply _ _ 0 q)

/-- The second layer's weights are argument 13. -/
theorem n_w5 (m : (ℓ : Loc nD τ sig) → Buf (Elt Ideal) ℓ) (ρ : Dev nD → PrngReg) (c : Dev nD) (k j : Fin 128) :
    (Gen.V7 m ρ c main_arg13 : Vec Ideal S128x128 .f32) (ix2 k j) = ((m ((c.tc : Thread nD τ).loc main_arg13)) : Mat 128) (ix2 k j) :=
  congrFun (KOperands.r1_w5 m ρ c) (ix2 k j)

/-- The second layer's bias row is argument 14 recast. -/
theorem n_w6 (m : (ℓ : Loc nD τ sig) → Buf (Elt Ideal) ℓ) (ρ : Dev nD → PrngReg) (c : Dev nD) (q : Fin 128) :
    (Gen.V7 m ρ c main_v23 : Vec Ideal S1x128 .f32) (ix2 (0 : Fin 1) q) = ((m ((c.tc : Thread nD τ).loc main_arg14)) : Vec1) (ix1 q) :=
  (congrFun (KOperands.r1_w6 m ρ c) (ix2 (0 : Fin 1) q)).trans (shapeCast_a_1a_apply _ _ 0 q)

/-- The third layer's weights are argument 15. -/
theorem n_w7 (m : (ℓ : Loc nD τ sig) → Buf (Elt Ideal) ℓ) (ρ : Dev nD → PrngReg) (c : Dev nD) (k j : Fin 128) :
    (Gen.V7 m ρ c main_arg15 : Vec Ideal S128x128 .f32) (ix2 k j) = ((m ((c.tc : Thread nD τ).loc main_arg15)) : Mat 128) (ix2 k j) :=
  congrFun (KOperands.r1_w7 m ρ c) (ix2 k j)

/-- The third layer's bias row is argument 16 recast. -/
theorem n_w8 (m : (ℓ : Loc nD τ sig) → Buf (Elt Ideal) ℓ) (ρ : Dev nD → PrngReg) (c : Dev nD) (q : Fin 128) :
    (Gen.V7 m ρ c main_v24 : Vec Ideal S1x128 .f32) (ix2 (0 : Fin 1) q) = ((m ((c.tc : Thread nD τ).loc main_arg16)) : Vec1) (ix1 q) :=
  (congrFun (KOperands.r1_w8 m ρ c) (ix2 (0 : Fin 1) q)).trans (shapeCast_a_1a_apply _ _ 0 q)

/-- The normalisation's scale row is argument 17 recast. -/
theorem n_w9 (m : (ℓ : Loc nD τ sig) → Buf (Elt Ideal) ℓ) (ρ : Dev nD → PrngReg) (c : Dev nD) (q : Fin 128) :
    (Gen.V7 m ρ c main_v25 : Vec Ideal S1x128 .f32) (ix2 (0 : Fin 1) q) = ((m ((c.tc : Thread nD τ).loc main_arg17)) : Vec1) (ix1 q) :=
  (congrFun (KOperands.r1_w9 m ρ c) (ix2 (0 : Fin 1) q)).trans (shapeCast_a_1a_apply _ _ 0 q)

/-- The normalisation's shift row is argument 18 recast. -/
theorem n_w10 (m : (ℓ : Loc nD τ sig) → Buf (Elt Ideal) ℓ) (ρ : Dev nD → PrngReg) (c : Dev nD) (q : Fin 128) :
    (Gen.V7 m ρ c main_v26 : Vec Ideal S1x128 .f32) (ix2 (0 : Fin 1) q) = ((m ((c.tc : Thread nD τ).loc main_arg18)) : Vec1) (ix1 q) :=
  (congrFun (KOperands.r1_w10 m ρ c) (ix2 (0 : Fin 1) q)).trans (shapeCast_a_1a_apply _ _ 0 q)

/-! ## The aggregated messages and the node result -/

/-- THE AGGREGATED MESSAGES region 1 finds are the reference's: both programs scatter-add the edge result's rows into a
    zero `[100000, 128]` array at the rows named by row 1 of the edge list, and the edge results agree. The two
    scatter-adds are joined as whole terms: same record, same zero array, same index column, equal third operands. -/
theorem agg_final (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = (fun _ => 1#1)) :
    (Gen.V7 m ρ c main_v19 : Vec Ideal S100000x128 .f32)
      = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [show (Gen.V7 m ρ c main_v19 : Vec Ideal S100000x128 .f32) = _ from KOperands.r1_w1_arr m ρ c, edge_final m ρ c hpre]
  unfold Cert.ReferenceIdeal.Read.val_main_v59 Cert.ReferenceIdeal.Read.val_main_v57 Cert.ReferenceIdeal.Read.val_main_v58
    Cert.ReferenceIdeal.Read.val_main_v3 Cert.ReferenceIdeal.Read.val_main_v2 Cert.ReferenceIdeal.Read.val_main_cst_7
  rfl

/-- THE NODE RESULT. What region 1's pipeline leaves in its output array is the reference's node result of the launch
    arguments: row by row both are the specification's node network of the node's own row and of its row of the
    aggregated messages (`agg_final`), with the weights and biases the launch arguments — the first layer's matrix
    entering the kernel as its two 128-row cuts, each bias recast to a `[1, 128]` row. -/
theorem node_final (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) = (fun _ => 1#1)) :
    (Gen.dat1 (Gen.V7 m ρ) c).arrAt 11 cfg1.N
      = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (KArrN.arr1_11 (Gen.V7 m ρ) c _ (n_w2 m ρ c) (n_w3 m ρ c) _ (n_w4 m ρ c) _ (n_w5 m ρ c) _ (n_w6 m ρ c) _ (n_w7 m ρ c)
    _ (n_w8 m ρ c) _ (n_w9 m ρ c) _ (n_w10 m ρ c)).trans (funext fun (i : S100000x128.Idx) => ?_)
  obtain ⟨v, j, rfl⟩ : ∃ (v : Fin 100000) (j : Fin 128), i = ix2 v j := ⟨i 0, i 1, eq_ix2 i⟩
  have e0 : (Gen.V7 m ρ c main_arg0 : Vec Ideal S100000x128 .f32) = (m ((c.tc : Thread nD τ).loc main_arg0)) := KOperands.r1_w0 m ρ c
  rw [KArrN.nodeG_ix2, e0, agg_final m ρ c hpre]
  exact (Cert.ReferenceIdeal.RefValue.node_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) v j).symm

end Cert.KFinal

end
-- ==== Proof.lean ====
/-
  An interaction network — one round of message passing on a graph of 100000 nodes and 640000 edges with 128
  features — as two Pallas kernels among host operations, against its jnp reference, over the extended reals.

  The reference gathers each edge's sender and receiver rows, concatenates them with the edge's own features into a
  row of 384 entries, applies a three-layer perceptron with a layer normalisation, scatter-adds the results to the
  receivers, concatenates each node's row with its aggregate into 256 entries and applies a second such perceptron.
  The kernel program never forms the concatenations: the first layer's product with the 384-row (256-row) weight
  matrix is the sum of the products of the 128-entry pieces with the matrix's 128-row slices, which is the same
  number because a finite sum in a commutative monoid may be cut anywhere — on the extended reals too, with no
  finiteness needed. Everything else is the same operation on both sides row by row (a format change is the identity
  here), so both programs compute, for every edge and every node, one function of that row (Proof/Spec.lean).

  The one place the programs differ as functions of arbitrary inputs is the gather: the kernel's `jnp.take` answers
  a fill value for an index outside `[-100000, 100000)` where the reference's gather clamps; the precondition keeps
  every index of `edge_index` inside that range, the evident domain of the reference's own indexing, and there the
  fill never happens (Proof/TakeMask.lean).

  The legs: Proof/Spec.lean (the row functions and the cut of a sum), Proof/LibRowOps.lean and Proof/KLayers.lean (row
  operations read at an index, for any number of rows), Proof/KEdge.lean and Proof/KNode.lean (the two kernel bodies on
  a block), Proof/KBlocks.lean (what a block holds), Proof/KEdgeArr.lean and Proof/KNodeArr.lean (the blocks tile the
  result arrays), Proof/KOperands.lean (what each region finds in its arrays, as terms of the launch memory),
  Proof/RunValues.lean and Proof/KResults.lean (the run, with the results named), Proof/RefEdge.lean and
  Proof/RefNode.lean (the reference's two results row by row), Proof/EdgeFinal.lean and Proof/NodeFinal.lean (the two
  sides joined), and the claims below.
-/
import proofs.«412242_j86088324481849_2_alg».proof.Defs
import proofs.«412242_j86088324481849_2_alg».proof.Proof.Gen.Kernel
import proofs.«412242_j86088324481849_2_alg».proof.Proof.Gen.Kernel.Skeleton
import proofs.«412242_j86088324481849_2_alg».proof.Proof.Gen.Kernel.Launch
import proofs.«412242_j86088324481849_2_alg».proof.Proof.Gen.Kernel.Points
import proofs.«412242_j86088324481849_2_alg».proof.Proof.Gen.Kernel.Frame
import proofs.«412242_j86088324481849_2_alg».proof.Proof.Gen.KernelIdeal
import proofs.«412242_j86088324481849_2_alg».proof.Proof.Gen.KernelIdeal.Skeleton
import proofs.«412242_j86088324481849_2_alg».proof.Proof.Gen.KernelIdeal.Launch
import proofs.«412242_j86088324481849_2_alg».proof.Proof.Gen.KernelIdeal.Points
import proofs.«412242_j86088324481849_2_alg».proof.Proof.Gen.KernelIdeal.Frame
import proofs.«412242_j86088324481849_2_alg».proof.Proof.Gen.ReferenceIdeal
import proofs.«412242_j86088324481849_2_alg».proof.Proof.Gen.ReferenceIdeal.Run
import proofs.«412242_j86088324481849_2_alg».proof.Proof.Gen.ReferenceIdeal.Read
import proofs.«412242_j86088324481849_2_alg».proof.Proof.Gen.Pre_finite_inputs
import proofs.«412242_j86088324481849_2_alg».proof.Proof.KResults
import proofs.«412242_j86088324481849_2_alg».proof.Proof.EdgeFinal
import proofs.«412242_j86088324481849_2_alg».proof.Proof.NodeFinal
import Idealize.ShloMosaic.Adequacy
import Idealize.ShloMosaic.Init

noncomputable section

namespace Cert.Proof

open Idealize.ShloMosaic Idealize.SL.Sem

/-- A function of 11 arguments at equal arguments. -/
theorem congr11 {α0 α1 α2 α3 α4 α5 α6 α7 α8 α9 α10 β : Type} (f : α0 → α1 → α2 → α3 → α4 → α5 → α6 → α7 → α8 → α9 → α10 → β) {a0 b0 : α0} {a1 b1 : α1} {a2 b2 : α2} {a3 b3 : α3} {a4 b4 : α4} {a5 b5 : α5} {a6 b6 : α6} {a7 b7 : α7} {a8 b8 : α8} {a9 b9 : α9} {a10 b10 : α10}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) : f a0 a1 a2 a3 a4 a5 a6 a7 a8 a9 a10 = f b0 b1 b2 b3 b4 b5 b6 b7 b8 b9 b10 := by
  subst h0; subst h1; subst h2; subst h3; subst h4; subst h5; subst h6; subst h7; subst h8; subst h9; subst h10; rfl

/-- A function of 19 arguments at equal arguments. -/
theorem congr19 {α0 α1 α2 α3 α4 α5 α6 α7 α8 α9 α10 α11 α12 α13 α14 α15 α16 α17 α18 β : Type} (f : α0 → α1 → α2 → α3 → α4 → α5 → α6 → α7 → α8 → α9 → α10 → α11 → α12 → α13 → α14 → α15 → α16 → α17 → α18 → β) {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12} {a13 b13 : α13} {a14 b14 : α14} {a15 b15 : α15} {a16 b16 : α16} {a17 b17 : α17} {a18 b18 : α18}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) : f a0 a1 a2 a3 a4 a5 a6 a7 a8 a9 a10 a11 a12 a13 a14 a15 a16 a17 a18 = f b0 b1 b2 b3 b4 b5 b6 b7 b8 b9 b10 b11 b12 b13 b14 b15 b16 b17 b18 := by
  subst h0; subst h1; subst h2; subst h3; subst h4; subst h5; subst h6; subst h7; subst h8; subst h9; subst h10; subst h11; subst h12; subst h13; subst h14; subst h15; subst h16; subst h17; subst h18; rfl

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is a sequence of host operations: its run ends with every argument unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the node result at the node network of every node's row and aggregate, and the edge
    result at the edge network of every edge's three rows: the reference's own two stages of the (agreeing)
    arguments. -/
theorem algebraic : Cert.algebraic_KernelIdeal_ReferenceIdeal := by
  intro m ρ m' ρ' hpre hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KFinal.node_final m ρ c (hpre c)),
        (h c).2.1.trans (Cert.KFinal.edge_final m ρ c (hpre c)), (h c).2.2⟩)
      (Cert.KernelIdeal.KResults.run_results (F := Ideal) m ρ)
  · refine (θ_run Cert.ReferenceIdeal.defs _ _).mono (fun r h c => ⟨?_, ?_, (h c).2.2⟩)
      (Cert.ReferenceIdeal.Value.run (F := Ideal) m' ρ')
    · exact ((h c).1.trans (Cert.ReferenceIdeal.Read.val_main_v98_eq m' c)).trans
        (congr19 (Cert.ReferenceIdeal.Read.val_main_v98 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2)
    · exact ((h c).2.1.trans (Cert.ReferenceIdeal.Read.val_main_v56_eq m' c)).trans
        (congr11 (Cert.ReferenceIdeal.Read.val_main_v56 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
